-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256 : Shape := ⟨3, ![8, 256, 256]⟩
abbrev S128x257 : Shape := ⟨2, ![128, 257]⟩
abbrev S128 : Shape := ⟨1, ![128]⟩
abbrev S128x256 : Shape := ⟨2, ![128, 256]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S128x257 : S_.BroadcastsInDim S128x257 (![] : Fin 0 → Fin S128x257.rank)
  reducesTo_S128x257_S_d0_1 : S128x257.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128 .f32) (main_arg5 : FVec F S128 .f32) (main_arg6 : FVec F S128x256 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x256x128 .f32) (main_arg1 : FVec F S8x256x256 .f32) (main_arg2 : FVec F S128x257 .f32) (main_arg3 : FVec F S128 .f32) (main_arg4 : FVec F S128 .f32) (main_arg5 : FVec F S128 .f32) (main_arg6 : FVec F S128x256 .f32) (main_arg7 : FVec F S128 .f32) (main_arg8 : FVec F S128 .f32) (main_arg9 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S128x257 .f32 := Host.absf main_arg2
  let main_cst_2 : FVec F S_ .f32 := constant S_ .f32 0x7F800000#32
  let main_v10 : FVec F S128x257 .f32 := broadcastInDim S128x257 ![] bcast_S_S128x257 main_cst_2
  let main_v11 : IVec S128x257 1 := cmpf .olt main_v9 main_v10
  let main_c_3 : IVec S_ 1 := constantI S_ 1 1#1
  let main_v12 : IVec S_ 1 := (fun x v => Host.reduce IntOp.andi x v reducesTo_S128x257_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S8x256x128 : Shape := ⟨3, ![8, 256, 128]⟩
abbrev S8x256x256 : Shape := ⟨3, ![8, 256, 256]⟩
abbrev S128x257 : Shape := ⟨2, ![128, 257]⟩
abbrev S128 : Shape := ⟨1, ![128]⟩
abbrev S128x256 : Shape := ⟨2, ![128, 256]⟩
abbrev S128x128 : Shape := ⟨2, ![128, 128]⟩
abbrev S128x1 : Shape := ⟨2, ![128, 1]⟩
abbrev S1x128 : Shape := ⟨2, ![1, 128]⟩
abbrev S1x64x128 : Shape := ⟨3, ![1, 64, 128]⟩
abbrev S1x256x128 : Shape := ⟨3, ![1, 256, 128]⟩
abbrev S1x64x256 : Shape := ⟨3, ![1, 64, 256]⟩
abbrev S64x128 : Shape := ⟨2, ![64, 128]⟩
abbrev S256x128 : Shape := ⟨2, ![256, 128]⟩
abbrev S64x256 : Shape := ⟨2, ![64, 256]⟩
abbrev S64x1x128 : Shape := ⟨3, ![64, 1, 128]⟩
abbrev S64x256x128 : Shape := ⟨3, ![64, 256, 128]⟩
abbrev S64x256x1 : Shape := ⟨3, ![64, 256, 1]⟩
abbrev S1x1x128 : Shape := ⟨3, ![1, 1, 128]⟩
abbrev S64 : Shape := ⟨1, ![64]⟩
abbrev S64x1 : Shape := ⟨2, ![64, 1]⟩

abbrev nBuf : Space → Nat
  | .hbm => 28
  | .vmem => 19
  | .smem => 0
  | _ => 0

abbrev bufTy : (tb : Table) → Fin (tcTables nBuf tb) → BufTy
  | .hbm, ⟨0, _⟩ => ⟨S8x256x128, .f32⟩
  | .hbm, ⟨1, _⟩ => ⟨S8x256x256, .f32⟩
  | .hbm, ⟨2, _⟩ => ⟨S128x257, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128x1, .f32⟩
  | .hbm, ⟨13, _⟩ => ⟨S128, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S8x256x128, .f32⟩
  | .local _ .vmem, ⟨0, _⟩ => ⟨S1x64x128, .f32⟩
  | .local _ .vmem, ⟨1, _⟩ => ⟨S1x64x128, .f32⟩
  | .local _ .vmem, ⟨2, _⟩ => ⟨S1x256x128, .f32⟩
  | .local _ .vmem, ⟨3, _⟩ => ⟨S1x256x128, .f32⟩
  | .local _ .vmem, ⟨4, _⟩ => ⟨S1x64x256, .f32⟩
  | .local _ .vmem, ⟨5, _⟩ => ⟨S1x64x256, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x64x128, .f32⟩
  | .local _ .vmem, ⟨18, _⟩ => ⟨S1x64x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  slices_S128x257_S128x128_0_0 : S128x257.Slices ![0, 0] S128x128
  slices_S128x257_S128x128_0_128 : S128x257.Slices ![0, 128] S128x128
  slices_S128x257_S128x1_0_256 : S128x257.Slices ![0, 256] S128x1
  shapeCasts_S128x1_S128 : S128x1.ShapeCasts S128
  shapeCasts_S128_S1x128 : S128.ShapeCasts S1x128
  transposes_S128x128_S128x128_1_0 : S128x128.Transposes [1, 0] S128x128
  slices_S128x256_S128x128_0_0 : S128x256.Slices ![0, 0] S128x128
  slices_S128x256_S128x128_0_128 : S128x256.Slices ![0, 128] S128x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  shapeCasts_S64x128_S64x1x128 : S64x128.ShapeCasts S64x1x128
  shapeCasts_S256x128_S1x256x128 : S256x128.ShapeCasts S1x256x128
  broadcasts_S64x1x128_S64x256x128 : S64x1x128.Broadcasts S64x256x128
  broadcasts_S1x256x128_S64x256x128 : S1x256x128.Broadcasts S64x256x128
  shapeCasts_S64x256_S64x256x1 : S64x256.ShapeCasts S64x256x1
  shapeCasts_S128_S1x1x128 : S128.ShapeCasts S1x1x128
  broadcasts_S64x256x1_S64x256x128 : S64x256x1.Broadcasts S64x256x128
  broadcasts_S1x1x128_S64x256x128 : S1x1x128.Broadcasts S64x256x128
  reduces_S64x256x128_S64x256 : S64x256x128.Reduces [2] S64x256
  iota_S64x256_d0_w32 : S64x256.Iotas .tc 32 [0]
  iota_S64x256_d1_w32 : S64x256.Iotas .tc 32 [1]
  natLt_1_32 : 1 < 32
  reduces_S64x256x128_S64x128 : S64x256x128.Reduces [1] S64x128
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  shapeCasts_S64x128_S1x64x128 : S64x128.ShapeCasts S1x64x128
  dot_S64x128_S128x128_S64x128_1_0_0_1_n_n_wf : DotDims.WF S64x128 S128x128 S64x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S8x256x128.size a
  hwx0_0 : ∀ i : grid0.Coords, EltTy.bits .f32 = 32 ∨ (Rect.block (s := S8x256x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S8x256x128.size a
  hwx0_1 : ∀ i : grid0.Coords, EltTy.bits .f32 = 32 ∨ (Rect.block (s := S8x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S8x256x256.size a
  hwx0_2 : ∀ i : grid0.Coords, EltTy.bits .f32 = 32 ∨ (Rect.block (s := S8x256x256) S1x64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x64x128.size a ≤ S8x256x128.size a
  hwx0_14 : ∀ i : grid0.Coords, EltTy.bits .f32 = 32 ∨ (Rect.block (s := S8x256x128) S1x64x128.size (cc0_transform_14 i) (hinb0_14 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x64x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x256x256 : Shape := ⟨3, ![8, 256, 256]⟩
abbrev S128x257 : Shape := ⟨2, ![128, 257]⟩
abbrev S128 : Shape := ⟨1, ![128]⟩
abbrev S128x256 : Shape := ⟨2, ![128, 256]⟩
abbrev S128x128 : Shape := ⟨2, ![128, 128]⟩
abbrev S128x1 : Shape := ⟨2, ![128, 1]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S8x256x256x1 : Shape := ⟨4, ![8, 256, 256, 1]⟩
abbrev S1x1x1x128 : Shape := ⟨4, ![1, 1, 1, 128]⟩
abbrev S_ : Shape := ⟨0, ![]⟩
abbrev S256 : Shape := ⟨1, ![256]⟩
abbrev S256x1 : Shape := ⟨2, ![256, 1]⟩
abbrev S256x2 : Shape := ⟨2, ![256, 2]⟩
abbrev S1x1x128 : Shape := ⟨3, ![1, 1, 128]⟩
abbrev S8x256 : Shape := ⟨2, ![8, 256]⟩
abbrev S8x256x1 : Shape := ⟨3, ![8, 256, 1]⟩

abbrev nBuf : Space → Nat
  | .hbm => 137
  | .vmem => 0
  | .smem => 0
  | _ => 0

abbrev hbmTy0_0 (i : Nat) : BufTy := match i % 128 with
  | 0 => ⟨S8x256x128, .f32⟩
  | 1 => ⟨S8x256x256, .f32⟩
  | 2 => ⟨S128x257, .f32⟩
  | 3 => ⟨S128, .f32⟩
  | 4 => ⟨S128, .f32⟩
  | 5 => ⟨S128, .f32⟩
  | 6 => ⟨S128x256, .f32⟩
  | 7 => ⟨S128, .f32⟩
  | 8 => ⟨S128, .f32⟩
  | 9 => ⟨S128, .f32⟩
  | 10 => ⟨S128x128, .f32⟩
  | 11 => ⟨S128x128, .f32⟩
  | 12 => ⟨S128x1, .f32⟩
  | 13 => ⟨S128, .f32⟩
  | 14 => ⟨S8x256x128, .f32⟩
  | 15 => ⟨S8x256x1x128, .f32⟩
  | 16 => ⟨S8x256x128, .f32⟩
  | 17 => ⟨S8x1x256x128, .f32⟩
  | 18 => ⟨S8x256x256x128, .f32⟩
  | 19 => ⟨S8x256x256x128, .f32⟩
  | 20 => ⟨S8x256x256x128, .f32⟩
  | 21 => ⟨S8x256x256x1, .f32⟩
  | 22 => ⟨S1x1x1x128, .f32⟩
  | 23 => ⟨S8x256x256x128, .f32⟩
  | 24 => ⟨S8x256x256x128, .f32⟩
  | 25 => ⟨S8x256x256x128, .f32⟩
  | 26 => ⟨S8x256x256x128, .f32⟩
  | 27 => ⟨S1x1x1x128, .f32⟩
  | 28 => ⟨S8x256x256x128, .f32⟩
  | 29 => ⟨S8x256x256x128, .f32⟩
  | 30 => ⟨S_, .f32⟩
  | 31 => ⟨S8x256x256, .f32⟩
  | 32 => ⟨S8x256x256x1, .f32⟩
  | 33 => ⟨S_, .f32⟩
  | 34 => ⟨S8x256x256x1, .f32⟩
  | 35 => ⟨S8x256x256x1, .f32⟩
  | 36 => ⟨S8x256x256x128, .f32⟩
  | 37 => ⟨S8x256x256x128, .f32⟩
  | 38 => ⟨S8x256x256x128, .f32⟩
  | 39 => ⟨S_, .f32⟩
  | 40 => ⟨S8x256x256, .f32⟩
  | 41 => ⟨S8x256x256x1, .f32⟩
  | 42 => ⟨S_, .f32⟩
  | 43 => ⟨S8x256x256x1, .f32⟩
  | 44 => ⟨S8x256x256x1, .f32⟩
  | 45 => ⟨S8x256x256x128, .f32⟩
  | 46 => ⟨S8x256x256x128, .f32⟩
  | 47 => ⟨S_, .f32⟩
  | 48 => ⟨S8x256x256x1, .f32⟩
  | 49 => ⟨S8x256x256x1, .f32⟩
  | 50 => ⟨S8x256x256x1, .f32⟩
  | 51 => ⟨S8x256x256x128, .f32⟩
  | 52 => ⟨S8x256x256x128, .f32⟩
  | 53 => ⟨S1x1x1x128, .f32⟩
  | 54 => ⟨S8x256x256x128, .f32⟩
  | 55 => ⟨S8x256x256x128, .f32⟩
  | 56 => ⟨S1x1x1x128, .f32⟩
  | 57 => ⟨S8x256x256x128, .f32⟩
  | 58 => ⟨S8x256x256x128, .f32⟩
  | 59 => ⟨S8x256x256x128, .f32⟩
  | 60 => ⟨S8x256x256x128, .f32⟩
  | 61 => ⟨S_, .f32⟩
  | 62 => ⟨S8x256x256x128, .f32⟩
  | 63 => ⟨S8x256x256x128, .f32⟩
  | 64 => ⟨S_, .f32⟩
  | 65 => ⟨S8x256x256x128, .f32⟩
  | 66 => ⟨S8x256x256x128, .f32⟩
  | 67 => ⟨S8x256x256x128, .f32⟩
  | 68 => ⟨S256, .i32⟩
  | 69 => ⟨S_, .f32⟩
  | 70 => ⟨S8x256x128, .f32⟩
  | 71 => ⟨S_, .i32⟩
  | 72 => ⟨S256, .i32⟩
  | 73 => ⟨S256, .i1⟩
  | 74 => ⟨S_, .i32⟩
  | 75 => ⟨S256, .i32⟩
  | 76 => ⟨S256, .i32⟩
  | 77 => ⟨S256, .i32⟩
  | 78 => ⟨S_, .i32⟩
  | 79 => ⟨S256, .i32⟩
  | 80 => ⟨S256, .i1⟩
  | 81 => ⟨S_, .i32⟩
  | 82 => ⟨S256, .i32⟩
  | 83 => ⟨S256, .i32⟩
  | 84 => ⟨S256, .i32⟩
  | 85 => ⟨S256x1, .i32⟩
  | 86 => ⟨S256x1, .i32⟩
  | 87 => ⟨S256x2, .i32⟩
  | 88 => ⟨S8x256x128, .f32⟩
  | 89 => ⟨S8x256x128, .f32⟩
  | 90 => ⟨S128x128, .f32⟩
  | 91 => ⟨S8x256x128, .f32⟩
  | 92 => ⟨S128x128, .f32⟩
  | 93 => ⟨S8x256x128, .f32⟩
  | 94 => ⟨S8x256x128, .f32⟩
  | 95 => ⟨S1x1x128, .f32⟩
  | 96 => ⟨S8x256x128, .f32⟩
  | 97 => ⟨S8x256x128, .f32⟩
  | 98 => ⟨S_, .f32⟩
  | 99 => ⟨S8x256, .f32⟩
  | 100 => ⟨S8x256x1, .f32⟩
  | 101 => ⟨S_, .f32⟩
  | 102 => ⟨S8x256x1, .f32⟩
  | 103 => ⟨S8x256x1, .f32⟩
  | 104 => ⟨S8x256x128, .f32⟩
  | 105 => ⟨S8x256x128, .f32⟩
  | 106 => ⟨S8x256x128, .f32⟩
  | 107 => ⟨S_, .f32⟩
  | 108 => ⟨S8x256, .f32⟩
  | 109 => ⟨S8x256x1, .f32⟩
  | 110 => ⟨S_, .f32⟩
  | 111 => ⟨S8x256x1, .f32⟩
  | 112 => ⟨S8x256x1, .f32⟩
  | 113 => ⟨S8x256x128, .f32⟩
  | 114 => ⟨S8x256x128, .f32⟩
  | 115 => ⟨S_, .f32⟩
  | 116 => ⟨S8x256x1, .f32⟩
  | 117 => ⟨S8x256x1, .f32⟩
  | 118 => ⟨S8x256x1, .f32⟩
  | 119 => ⟨S8x256x128, .f32⟩
  | 120 => ⟨S8x256x128, .f32⟩
  | 121 => ⟨S1x1x128, .f32⟩
  | 122 => ⟨S8x256x128, .f32⟩
  | 123 => ⟨S8x256x128, .f32⟩
  | 124 => ⟨S1x1x128, .f32⟩
  | 125 => ⟨S8x256x128, .f32⟩
  | 126 => ⟨S8x256x128, .f32⟩
  | 127 => ⟨S8x256x128, .f32⟩
  | _ => ⟨S8x256x128, .f32⟩

abbrev hbmTy0_1 (i : Nat) : BufTy := match i % 128 with
  | 0 => ⟨S8x256x128, .f32⟩
  | 1 => ⟨S_, .f32⟩
  | 2 => ⟨S8x256x128, .f32⟩
  | 3 => ⟨S8x256x128, .f32⟩
  | 4 => ⟨S_, .f32⟩
  | 5 => ⟨S8x256x128, .f32⟩
  | 6 => ⟨S8x256x128, .f32⟩
  | 7 => ⟨S8x256x128, .f32⟩
  | 8 => ⟨S8x256x128, .f32⟩
  | _ => ⟨S8x256x128, .f32⟩

abbrev hbmTy (i : Nat) : BufTy := match i / 128 with
  | 0 => hbmTy0_0 i
  | 1 => hbmTy0_1 i
  | _ => ⟨S8x256x128, .f32⟩

abbrev bufTy : (tb : Table) → Fin (tcTables nBuf tb) → BufTy
  | .hbm, ⟨i, _⟩ => hbmTy i
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_c : Ref sig .tc := ⟨.hbm, 71, rfl⟩
abbrev main_v47 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_6 : Ref sig .tc := ⟨.hbm, 78, rfl⟩
abbrev main_v52 : Ref sig .tc := ⟨.hbm, 79, rfl⟩
abbrev main_v53 : Ref sig .tc := ⟨.hbm, 80, rfl⟩
abbrev main_c_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_8 : Ref sig .tc := ⟨.hbm, 98, rfl⟩
abbrev main_v70 : Ref sig .tc := ⟨.hbm, 99, rfl⟩
abbrev main_v71 : Ref sig .tc := ⟨.hbm, 100, rfl⟩
abbrev main_cst_9 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_10 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_12 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call1_v0 : Ref sig .tc := ⟨.hbm, 127, rfl⟩
abbrev main_call1_v1 : Ref sig .tc := ⟨.hbm, 128, rfl⟩
abbrev main_call1_cst : Ref sig .tc := ⟨.hbm, 129, rfl⟩
abbrev main_call1_v2 : Ref sig .tc := ⟨.hbm, 130, rfl⟩
abbrev main_call1_v3 : Ref sig .tc := ⟨.hbm, 131, rfl⟩
abbrev main_call1_cst_0 : Ref sig .tc := ⟨.hbm, 132, rfl⟩
abbrev main_call1_v4 : Ref sig .tc := ⟨.hbm, 133, rfl⟩
abbrev main_call1_v5 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

class Facts₀ : Prop where
  slices_S128x257_S128x128_0_0 : S128x257.Slices ![0, 0] S128x128
  slices_S128x257_S128x128_0_128 : S128x257.Slices ![0, 128] S128x128
  slices_S128x257_S128x1_0_256 : S128x257.Slices ![0, 256] S128x1
  shapeCasts_S128x1_S128 : S128x1.ShapeCasts S128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S8x256x256_S8x256x256x1_0_1_2 : S8x256x256.BroadcastsInDim S8x256x256x1 (![0, 1, 2] : Fin 3 → Fin S8x256x256x1.rank)
  bcast_S128_S1x1x1x128_3 : S128.BroadcastsInDim S1x1x1x128 (![3] : Fin 1 → Fin S1x1x1x128.rank)
  bcast_S8x256x256x1_S8x256x256x128_0_1_2_3 : S8x256x256x1.BroadcastsInDim S8x256x256x128 (![0, 1, 2, 3] : Fin 4 → Fin S8x256x256x128.rank)
  bcast_S1x1x1x128_S8x256x256x128_0_1_2_3 : S1x1x1x128.BroadcastsInDim S8x256x256x128 (![0, 1, 2, 3] : Fin 4 → Fin S8x256x256x128.rank)
  reducesTo_S8x256x256x128_S8x256x256_d3 : S8x256x256x128.ReducesTo [3] S8x256x256
  h_S_ : 0 < S_.numel
  bcast_S_S8x256x256x1 : S_.BroadcastsInDim S8x256x256x1 (![] : Fin 0 → Fin S8x256x256x1.rank)
  bcast_S_S8x256x256x128 : S_.BroadcastsInDim S8x256x256x128 (![] : Fin 0 → Fin S8x256x256x128.rank)
  reducesTo_S8x256x256x128_S8x256x128_d2 : S8x256x256x128.ReducesTo [2] S8x256x128
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  slices_S128x256_S128x128_0_0 : S128x256.Slices ![0, 0] S128x128
  slices_S128x256_S128x128_0_128 : S128x256.Slices ![0, 128] S128x128
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  reducesTo_S8x256x128_S8x256_d2 : S8x256x128.ReducesTo [2] S8x256
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S8x256x1_S8x256x128_0_1_2 : S8x256x1.BroadcastsInDim S8x256x128 (![0, 1, 2] : Fin 3 → Fin S8x256x128.rank)
  bcast_S_S8x256x128 : S_.BroadcastsInDim S8x256x128 (![] : Fin 0 → Fin S8x256x128.rank)
  dot_S8x256x128_S128x128_S8x256x128_2_1_01_0_n_n_wf : DotDims.WF S8x256x128 S128x128 S8x256x128 [2] [1] [0, 1] [0] [] []
  gather_S8x256x256x128_S256x2_S8x256x128_02_12_n_n_12_1_811128_wf : GatherDims.WF S8x256x256x128 S256x2 S8x256x128 [0, 2] [1, 2] [] [1, 2] [] 1 ![8, 1, 1, 128]

variable [Facts₀]

def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf
def gather_S8x256x256x128_S256x2_S8x256x128_02_12_n_n_12_1_811128 : GatherDims S8x256x256x128 S256x2 S8x256x128 where
  offsetDims := [0, 2]
  collapsedSliceDims := [1, 2]
  operandBatchingDims := []
  startIndicesBatchingDims := []
  startIndexMap := [1, 2]
  indexVectorDim := 1
  sliceSizes := ![8, 1, 1, 128]
  wf := gather_S8x256x256x128_S256x2_S8x256x128_02_12_n_n_12_1_811128_wf

class Facts : Prop extends Facts₀ where

variable [Facts]
-- ==== Proof.KB.PayOut.lean ====
/-
  What the kernel body stores into its output block, as one pure function of the fourteen input blocks and the
  second grid coordinate: the body's named payloads composed in program order.
-/
import proofs.«108111_j42099269435680_1_alg».proof.Proof.Gen.Kernel.Skeleton

noncomputable section

namespace Cert.Kernel.Hand

open Idealize.ShloMosaic Cert.Kernel Cert.Kernel.Gen

variable {F : FTy → Type} [FloatOps F]

/-- The stored block: target tile `x0`, all source rows `x1`, the tile's edge scalars `x2`, the message weights
    `x3 … x8` and the update weights `x9 … x13`; `i1` is the tile's number along the node axis. -/
def payOut (i1 : BitVec 32) (x0 : Vec F S1x64x128 .f32) (x1 : Vec F S1x256x128 .f32) (x2 : Vec F S1x64x256 .f32)
    (x3 x4 : Vec F S128x128 .f32) (x5 x6 x7 x8 : Vec F S1x128 .f32) (x9 x10 : Vec F S128x128 .f32)
    (x11 x12 x13 : Vec F S1x128 .f32) : FVec F S1x64x128 .f32 :=
  k0_pay10 (k0_pay1 x0) (k0_pay6 i1 (k0_pay2 x6) (k0_pay3 x7) (k0_pay4 x8) (k0_pay5 x0 x1 x2 x3 x4 x5))
    (k0_pay7 x9) (k0_pay8 x10) (k0_pay9 x11) x12 x13

end Cert.Kernel.Hand

end
-- ==== Proof.KB.Body.lean ====
/-
  The kernel body's triple. On whole staging memrefs holding the fourteen input blocks, and anything in the output
  block, the body loads every input whole, computes, loads the output block (a value it never uses) and stores
  the output block whole: it ends with the inputs as they were and the output block at the stored payload.
-/
import proofs.«108111_j42099269435680_1_alg».proof.Proof.Gen.Kernel.Launch
import proofs.«108111_j42099269435680_1_alg».proof.Proof.Gen.Kernel.Skeleton
import proofs.«108111_j42099269435680_1_alg».proof.Proof.Gen.Kernel.Points
import proofs.«108111_j42099269435680_1_alg».proof.Proof.KB.PayOut
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: each buffer whole -/

abbrev rT : Rect S1x64x128 := Rect.unit (s := S1x64x128) ![0, 0, 0] S1x64x128.size inb_S1x64x128_S1x64x128_0_0_0
abbrev rH : Rect S1x256x128 := Rect.unit (s := S1x256x128) ![0, 0, 0] S1x256x128.size inb_S1x256x128_S1x256x128_0_0_0
abbrev rJ : Rect S1x64x256 := Rect.unit (s := S1x64x256) ![0, 0, 0] S1x64x256.size inb_S1x64x256_S1x64x256_0_0_0
abbrev rW : Rect S128x128 := Rect.unit (s := S128x128) ![0, 0] S128x128.size inb_S128x128_S128x128_0_0
abbrev rV : Rect S1x128 := Rect.unit (s := S1x128) ![0, 0] S1x128.size inb_S1x128_S1x128_0_0

/-! ## What the body leaves in the output block -/

/-- The output block after the body: its one store, of the payload over the loaded input blocks. -/
def out14 (i1 : BitVec 32) (x0 : Vec F S1x64x128 .f32) (x1 : Vec F S1x256x128 .f32) (x2 : Vec F S1x64x256 .f32) (x3 : Vec F S128x128 .f32) (x4 : Vec F S128x128 .f32) (x5 : Vec F S1x128 .f32) (x6 : Vec F S1x128 .f32) (x7 : Vec F S1x128 .f32) (x8 : Vec F S1x128 .f32) (x9 : Vec F S128x128 .f32) (x10 : Vec F S128x128 .f32) (x11 : Vec F S1x128 .f32) (x12 : Vec F S1x128 .f32) (x13 : Vec F S1x128 .f32) : Vec F S1x64x128 .f32 :=
  View.canon [⟨rT, payOut i1 (View.ld x0 rT) (View.ld x1 rH) (View.ld x2 rJ) (View.ld x3 rW) (View.ld x4 rW) (View.ld x5 rV) (View.ld x6 rV) (View.ld x7 rV) (View.ld x8 rV) (View.ld x9 rW) (View.ld x10 rW) (View.ld x11 rV) (View.ld x12 rV) (View.ld x13 rV)⟩]

/-- The one store covers the block. -/
theorem cover14 (p0 : Vec F S1x64x128 .f32) (y : S1x64x128.Idx) :
    ∃ pc ∈ ([⟨rT, p0⟩] : List (View.Piece (Elt F) S1x64x128 .f32)), y ∈ pc.1.set :=
  View.cover_of_tiled [⟨rT, p0⟩] S1x64x128.size (by rfl) y

/-! ## The body's triple -/

set_option maxHeartbeats 4000000 in
/-- The kernel body at grid coordinates `i`, on whole staging memrefs: the inputs' at read contents `x0 … x13`, the
    output's at anything; it runs to the continuation holding the inputs' as they were and the output's at `out14`. -/
theorem sound_kernel (c : Dev nD) (E : Set ℕ) (i : grid0.Coords) (arg2 : Memref sig .tc .vmem S1x64x128 .f32) (harg2 : arg2.IsWhole) (arg3 : Memref sig .tc .vmem S1x256x128 .f32) (harg3 : arg3.IsWhole) (arg4 : Memref sig .tc .vmem S1x64x256 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x64x128 .f32) (harg16 : arg16.IsWhole)
    (x0 : Vec F S1x64x128 .f32) (x1 : Vec F S1x256x128 .f32) (x2 : Vec F S1x64x256 .f32) (x3 : Vec F S128x128 .f32) (x4 : Vec F S128x128 .f32) (x5 : Vec F S1x128 .f32) (x6 : Vec F S1x128 .f32) (x7 : Vec F S1x128 .f32) (x8 : Vec F S1x128 .f32) (x9 : Vec F S128x128 .f32) (x10 : Vec F S128x128 .f32) (x11 : Vec F S1x128 .f32) (x12 : Vec F S1x128 .f32) (x13 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out14 (BitVec.ofNat 32 (i 1).val) x0 x1 x2 x3 x4 x5 x6 x7 x8 x9 x10 x11 x12 x13)) -∗ K ⟨⟩))
      ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover14 _)

end Cert.Kernel.Hand

end
-- ==== Proof.KB.Data.lean ====
/-
  The pipeline's proof data for the one kernel region, and the body obligation at every grid point.

  The region is entered after seventeen host operations that cut and transpose the weight matrices; `V` is what
  the core's buffers hold then. Window `w`'s block at grid point `t` is read off its array there. Every input
  window's staging buffer holds its block whenever the body runs, fetched at that point or not; the output
  window's holds, after the body, the stored payload over the input blocks. Windows 0 and 1 read the same array,
  so each holds half of the full share of it.
-/
import proofs.«108111_j42099269435680_1_alg».proof.Proof.KB.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is `V`'s and whose body leaves the block in place: unfetched, the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input's
    buffer at its block and the output's at the stored payload over the input blocks; the invariant the scoped rest
    (this kernel has no scratch); nothing owed; the two windows on the node features hold half a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 (BitVec.ofNat 32 ((cfg0.grid.coords t) 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = out14 (BitVec.ofNat 32 ((cfg0.grid.coords t) 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point: the inputs' memrefs hold their blocks, so the body's triple applies; the invariant and
    the core's owed tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibFrameShared.lean ====
/-
  The frame run of a pipeline region whose INPUT windows may read one array through several windows.

  The launch hands the region each distinct buffer behind the windows' arrays whole, at the full share; the proof
  data give each window its own share of its array, so the certificate says how the whole buffers split into the
  windows' shares (`hsplit`). The kernel carries nothing between grid points but the core's scoped buffers that are
  no staging buffer (`hΦ`). The conclusion is the library's frame post: every window's array at what the proof data
  compute for it after the last point, every other unscoped buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for a region with no semaphore and no scratch of its own whose windows may share arrays. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      rw [hΦ]
      iintro ⟨-, Hr⟩; iexact Hr)
    (hout := fun c => by
      rw [hΦ]
      iintro Hr
      isplitr; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KB.Run.lean ====
/-
  The run of the kernel program and its frame.

  Windows 0 and 1 both read the node features, so the launch's one whole points-to of that array is shared into a
  left and a right half, one per window; every other window's array is its own buffer at the full share. With that
  split, the body obligation and the host operations before the region, the shared-array frame run gives: every
  window's array at what the proof data compute for it after the last grid point (an input: its contents at the
  region's entry; the output: the entry contents overwritten by the 32 written blocks), every other buffer as the
  region found it. No host operation writes an argument array, so the arguments end as launched.
-/
import proofs.«108111_j42099269435680_1_alg».proof.Proof.KB.Data
import proofs.«108111_j42099269435680_1_alg».proof.Proof.LibFrameShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' shares of their arrays -/

/-- The distinct buffers behind the fifteen windows' arrays. -/
theorem img_eq : (Finset.univ.image (Pipeline.arrRef spec0) : Finset (Ref sig .tc)) = [main_arg0, main_arg1, main_v5, main_v6, main_v4, main_v11, main_v12, main_v13, main_v9, main_v10, main_v14, main_v15, main_v16, main_v17].toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl
theorem share9 (c : Dev nD) : (dats m 0 c).share 9 = fullShare := rfl
theorem share10 (c : Dev nD) : (dats m 0 c).share 10 = fullShare := rfl
theorem share11 (c : Dev nD) : (dats m 0 c).share 11 = fullShare := rfl
theorem share12 (c : Dev nD) : (dats m 0 c).share 12 = fullShare := rfl
theorem share13 (c : Dev nD) : (dats m 0 c).share 13 = fullShare := rfl
theorem share14 (c : Dev nD) : (dats m 0 c).share 14 = fullShare := rfl

/-- The proof data's arrays, each window's points-to over its whole array. -/
theorem arrays_flat (c : Dev nD) :
    (dats m 0 c).arrays ((dats m 0 c).arrAt · 0)
      = bigSep Finset.univ fun w => (((c.tc : Thread nD τ).loc (Pipeline.arrRef spec0 w)) ↦{(dats m 0 c).share w} (dats m 0 c).arrAt w 0 : sProp 𝕄) := by
  unfold Dat.arrays
  exact bigSep_congr fun w _ => by rw [(arr_whole0 w).set_eq_univ]

/-- The buffers behind the arrays, one by one. -/
theorem arrBufs_eq (c : Dev nD) :
    (Pipeline.arrBufs spec0 c (V m c) : sProp 𝕄) = iprop((((c.tc : Thread nD τ).loc main_arg0) ↦{fullShare} V m c main_arg0) ∗ (((c.tc : Thread nD τ).loc main_arg1) ↦{fullShare} V m c main_arg1) ∗ (((c.tc : Thread nD τ).loc main_v5) ↦{fullShare} V m c main_v5) ∗ (((c.tc : Thread nD τ).loc main_v6) ↦{fullShare} V m c main_v6) ∗ (((c.tc : Thread nD τ).loc main_v4) ↦{fullShare} V m c main_v4) ∗ (((c.tc : Thread nD τ).loc main_v11) ↦{fullShare} V m c main_v11) ∗ (((c.tc : Thread nD τ).loc main_v12) ↦{fullShare} V m c main_v12) ∗ (((c.tc : Thread nD τ).loc main_v13) ↦{fullShare} V m c main_v13) ∗ (((c.tc : Thread nD τ).loc main_v9) ↦{fullShare} V m c main_v9) ∗ (((c.tc : Thread nD τ).loc main_v10) ↦{fullShare} V m c main_v10) ∗ (((c.tc : Thread nD τ).loc main_v14) ↦{fullShare} V m c main_v14) ∗ (((c.tc : Thread nD τ).loc main_v15) ↦{fullShare} V m c main_v15) ∗ (((c.tc : Thread nD τ).loc main_v16) ↦{fullShare} V m c main_v16) ∗ (((c.tc : Thread nD τ).loc main_v17) ↦{fullShare} V m c main_v17)) := by
  unfold Pipeline.arrBufs
  exact Idealize.SL.BI.bigSep_eq_bigSepL_of_eq _ img_eq (by decide) _

/-- The whole buffers make the windows' shares: the node features split in two halves, the rest one each. -/
theorem arrays_split (c : Dev nD) :
    (Pipeline.arrBufs spec0 c (V m c) : sProp 𝕄) ⊢ (dats m 0 c).arrays ((dats m 0 c).arrAt · 0) := by
  rw [arrays_flat, bigSep_W0, arrBufs_eq]
  simp only [share0 m c, share1 m c, share2 m c, share3 m c, share4 m c, share5 m c, share6 m c, share7 m c, share8 m c, share9 m c, share10 m c, share11 m c, share12 m c, share13 m c, share14 m c]
  iintro ⟨H0, H1, H2, H3, H4, H5, H6, H7, H8, H9, H10, H11, H12, H13⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The run -/

set_option backward.isDefEq.respectTransparency.types false in
/-- Every weakly fair execution of @main terminates; every window's array ends at what the proof data compute for
    it and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_split m) (hΦ := fun _ _ => rfl)

/-- The frame: the run ends with the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c),
      ((h c).2 main_arg7 (Pipeline.mem_restRefs_of main_arg7 rfl (by decide))).trans (V_main_arg7 m c),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

/-- The run with its result named: the result array at the output window's array after the last grid point, the
    arguments as launched. -/
theorem run_val : θ_run defs (onTc (τ := τ) (main (F := F))) ⟨m, fun _ => 0, ρ⟩ (fun r => ∀ c : Dev nD,
      r.2.mem ((c.tc : Thread nD τ).loc main_v17) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 14, ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c),
      ((h c).2 main_arg7 (Pipeline.mem_restRefs_of main_arg7 rfl (by decide))).trans (V_main_arg7 m c),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

end Cert.Kernel.Hand

end
-- ==== Proof.KI.PayOut.lean ====
/-
  What the kernel body stores into its output block, as one pure function of the fourteen input blocks and the
  second grid coordinate: the body's named payloads composed in program order.
-/
import proofs.«108111_j42099269435680_1_alg».proof.Proof.Gen.KernelIdeal.Skeleton

noncomputable section

namespace Cert.KernelIdeal.Hand

open Idealize.ShloMosaic Cert.KernelIdeal Cert.KernelIdeal.Gen

variable {F : FTy → Type} [FloatOps F]

/-- The stored block: target tile `x0`, all source rows `x1`, the tile's edge scalars `x2`, the message weights
    `x3 … x8` and the update weights `x9 … x13`; `i1` is the tile's number along the node axis. -/
def payOut (i1 : BitVec 32) (x0 : Vec F S1x64x128 .f32) (x1 : Vec F S1x256x128 .f32) (x2 : Vec F S1x64x256 .f32)
    (x3 x4 : Vec F S128x128 .f32) (x5 x6 x7 x8 : Vec F S1x128 .f32) (x9 x10 : Vec F S128x128 .f32)
    (x11 x12 x13 : Vec F S1x128 .f32) : FVec F S1x64x128 .f32 :=
  k0_pay10 (k0_pay1 x0) (k0_pay6 i1 (k0_pay2 x6) (k0_pay3 x7) (k0_pay4 x8) (k0_pay5 x0 x1 x2 x3 x4 x5))
    (k0_pay7 x9) (k0_pay8 x10) (k0_pay9 x11) x12 x13

end Cert.KernelIdeal.Hand

end
-- ==== Proof.KI.Body.lean ====
/-
  The kernel body's triple. On whole staging memrefs holding the fourteen input blocks, and anything in the output
  block, the body loads every input whole, computes, loads the output block (a value it never uses) and stores
  the output block whole: it ends with the inputs as they were and the output block at the stored payload.
-/
import proofs.«108111_j42099269435680_1_alg».proof.Proof.Gen.KernelIdeal.Launch
import proofs.«108111_j42099269435680_1_alg».proof.Proof.Gen.KernelIdeal.Skeleton
import proofs.«108111_j42099269435680_1_alg».proof.Proof.Gen.KernelIdeal.Points
import proofs.«108111_j42099269435680_1_alg».proof.Proof.KI.PayOut
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: each buffer whole -/

abbrev rT : Rect S1x64x128 := Rect.unit (s := S1x64x128) ![0, 0, 0] S1x64x128.size inb_S1x64x128_S1x64x128_0_0_0
abbrev rH : Rect S1x256x128 := Rect.unit (s := S1x256x128) ![0, 0, 0] S1x256x128.size inb_S1x256x128_S1x256x128_0_0_0
abbrev rJ : Rect S1x64x256 := Rect.unit (s := S1x64x256) ![0, 0, 0] S1x64x256.size inb_S1x64x256_S1x64x256_0_0_0
abbrev rW : Rect S128x128 := Rect.unit (s := S128x128) ![0, 0] S128x128.size inb_S128x128_S128x128_0_0
abbrev rV : Rect S1x128 := Rect.unit (s := S1x128) ![0, 0] S1x128.size inb_S1x128_S1x128_0_0

/-! ## What the body leaves in the output block -/

/-- The output block after the body: its one store, of the payload over the loaded input blocks. -/
def out14 (i1 : BitVec 32) (x0 : Vec F S1x64x128 .f32) (x1 : Vec F S1x256x128 .f32) (x2 : Vec F S1x64x256 .f32) (x3 : Vec F S128x128 .f32) (x4 : Vec F S128x128 .f32) (x5 : Vec F S1x128 .f32) (x6 : Vec F S1x128 .f32) (x7 : Vec F S1x128 .f32) (x8 : Vec F S1x128 .f32) (x9 : Vec F S128x128 .f32) (x10 : Vec F S128x128 .f32) (x11 : Vec F S1x128 .f32) (x12 : Vec F S1x128 .f32) (x13 : Vec F S1x128 .f32) : Vec F S1x64x128 .f32 :=
  View.canon [⟨rT, payOut i1 (View.ld x0 rT) (View.ld x1 rH) (View.ld x2 rJ) (View.ld x3 rW) (View.ld x4 rW) (View.ld x5 rV) (View.ld x6 rV) (View.ld x7 rV) (View.ld x8 rV) (View.ld x9 rW) (View.ld x10 rW) (View.ld x11 rV) (View.ld x12 rV) (View.ld x13 rV)⟩]

/-- The one store covers the block. -/
theorem cover14 (p0 : Vec F S1x64x128 .f32) (y : S1x64x128.Idx) :
    ∃ pc ∈ ([⟨rT, p0⟩] : List (View.Piece (Elt F) S1x64x128 .f32)), y ∈ pc.1.set :=
  View.cover_of_tiled [⟨rT, p0⟩] S1x64x128.size (by rfl) y

/-! ## The body's triple -/

set_option maxHeartbeats 4000000 in
/-- The kernel body at grid coordinates `i`, on whole staging memrefs: the inputs' at read contents `x0 … x13`, the
    output's at anything; it runs to the continuation holding the inputs' as they were and the output's at `out14`. -/
theorem sound_kernel (c : Dev nD) (E : Set ℕ) (i : grid0.Coords) (arg2 : Memref sig .tc .vmem S1x64x128 .f32) (harg2 : arg2.IsWhole) (arg3 : Memref sig .tc .vmem S1x256x128 .f32) (harg3 : arg3.IsWhole) (arg4 : Memref sig .tc .vmem S1x64x256 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x64x128 .f32) (harg16 : arg16.IsWhole)
    (x0 : Vec F S1x64x128 .f32) (x1 : Vec F S1x256x128 .f32) (x2 : Vec F S1x64x256 .f32) (x3 : Vec F S128x128 .f32) (x4 : Vec F S128x128 .f32) (x5 : Vec F S1x128 .f32) (x6 : Vec F S1x128 .f32) (x7 : Vec F S1x128 .f32) (x8 : Vec F S1x128 .f32) (x9 : Vec F S128x128 .f32) (x10 : Vec F S128x128 .f32) (x11 : Vec F S1x128 .f32) (x12 : Vec F S1x128 .f32) (x13 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out14 (BitVec.ofNat 32 (i 1).val) x0 x1 x2 x3 x4 x5 x6 x7 x8 x9 x10 x11 x12 x13)) -∗ K ⟨⟩))
      ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover14 _)

end Cert.KernelIdeal.Hand

end
-- ==== Proof.KI.Data.lean ====
/-
  The pipeline's proof data for the one kernel region, and the body obligation at every grid point.

  The region is entered after seventeen host operations that cut and transpose the weight matrices; `V` is what
  the core's buffers hold then. Window `w`'s block at grid point `t` is read off its array there. Every input
  window's staging buffer holds its block whenever the body runs, fetched at that point or not; the output
  window's holds, after the body, the stored payload over the input blocks. Windows 0 and 1 read the same array,
  so each holds half of the full share of it.
-/
import proofs.«108111_j42099269435680_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof
    data whose array is `V`'s and whose body leaves the block in place: unfetched, the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input's
    buffer at its block and the output's at the stored payload over the input blocks; the invariant the scoped rest
    (this kernel has no scratch); nothing owed; the two windows on the node features hold half a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 (BitVec.ofNat 32 ((cfg0.grid.coords t) 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = out14 (BitVec.ofNat 32 ((cfg0.grid.coords t) 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point: the inputs' memrefs hold their blocks, so the body's triple applies; the invariant and
    the core's owed tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The run of the kernel program and its frame.

  Windows 0 and 1 both read the node features, so the launch's one whole points-to of that array is shared into a
  left and a right half, one per window; every other window's array is its own buffer at the full share. With that
  split, the body obligation and the host operations before the region, the shared-array frame run gives: every
  window's array at what the proof data compute for it after the last grid point (an input: its contents at the
  region's entry; the output: the entry contents overwritten by the 32 written blocks), every other buffer as the
  region found it. No host operation writes an argument array, so the arguments end as launched.
-/
import proofs.«108111_j42099269435680_1_alg».proof.Proof.KI.Data
import proofs.«108111_j42099269435680_1_alg».proof.Proof.LibFrameShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' shares of their arrays -/

/-- The distinct buffers behind the fifteen windows' arrays. -/
theorem img_eq : (Finset.univ.image (Pipeline.arrRef spec0) : Finset (Ref sig .tc)) = [main_arg0, main_arg1, main_v5, main_v6, main_v4, main_v11, main_v12, main_v13, main_v9, main_v10, main_v14, main_v15, main_v16, main_v17].toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl
theorem share9 (c : Dev nD) : (dats m 0 c).share 9 = fullShare := rfl
theorem share10 (c : Dev nD) : (dats m 0 c).share 10 = fullShare := rfl
theorem share11 (c : Dev nD) : (dats m 0 c).share 11 = fullShare := rfl
theorem share12 (c : Dev nD) : (dats m 0 c).share 12 = fullShare := rfl
theorem share13 (c : Dev nD) : (dats m 0 c).share 13 = fullShare := rfl
theorem share14 (c : Dev nD) : (dats m 0 c).share 14 = fullShare := rfl

/-- The proof data's arrays, each window's points-to over its whole array. -/
theorem arrays_flat (c : Dev nD) :
    (dats m 0 c).arrays ((dats m 0 c).arrAt · 0)
      = bigSep Finset.univ fun w => (((c.tc : Thread nD τ).loc (Pipeline.arrRef spec0 w)) ↦{(dats m 0 c).share w} (dats m 0 c).arrAt w 0 : sProp 𝕄) := by
  unfold Dat.arrays
  exact bigSep_congr fun w _ => by rw [(arr_whole0 w).set_eq_univ]

/-- The buffers behind the arrays, one by one. -/
theorem arrBufs_eq (c : Dev nD) :
    (Pipeline.arrBufs spec0 c (V m c) : sProp 𝕄) = iprop((((c.tc : Thread nD τ).loc main_arg0) ↦{fullShare} V m c main_arg0) ∗ (((c.tc : Thread nD τ).loc main_arg1) ↦{fullShare} V m c main_arg1) ∗ (((c.tc : Thread nD τ).loc main_v5) ↦{fullShare} V m c main_v5) ∗ (((c.tc : Thread nD τ).loc main_v6) ↦{fullShare} V m c main_v6) ∗ (((c.tc : Thread nD τ).loc main_v4) ↦{fullShare} V m c main_v4) ∗ (((c.tc : Thread nD τ).loc main_v11) ↦{fullShare} V m c main_v11) ∗ (((c.tc : Thread nD τ).loc main_v12) ↦{fullShare} V m c main_v12) ∗ (((c.tc : Thread nD τ).loc main_v13) ↦{fullShare} V m c main_v13) ∗ (((c.tc : Thread nD τ).loc main_v9) ↦{fullShare} V m c main_v9) ∗ (((c.tc : Thread nD τ).loc main_v10) ↦{fullShare} V m c main_v10) ∗ (((c.tc : Thread nD τ).loc main_v14) ↦{fullShare} V m c main_v14) ∗ (((c.tc : Thread nD τ).loc main_v15) ↦{fullShare} V m c main_v15) ∗ (((c.tc : Thread nD τ).loc main_v16) ↦{fullShare} V m c main_v16) ∗ (((c.tc : Thread nD τ).loc main_v17) ↦{fullShare} V m c main_v17)) := by
  unfold Pipeline.arrBufs
  exact Idealize.SL.BI.bigSep_eq_bigSepL_of_eq _ img_eq (by decide) _

/-- The whole buffers make the windows' shares: the node features split in two halves, the rest one each. -/
theorem arrays_split (c : Dev nD) :
    (Pipeline.arrBufs spec0 c (V m c) : sProp 𝕄) ⊢ (dats m 0 c).arrays ((dats m 0 c).arrAt · 0) := by
  rw [arrays_flat, bigSep_W0, arrBufs_eq]
  simp only [share0 m c, share1 m c, share2 m c, share3 m c, share4 m c, share5 m c, share6 m c, share7 m c, share8 m c, share9 m c, share10 m c, share11 m c, share12 m c, share13 m c, share14 m c]
  iintro ⟨H0, H1, H2, H3, H4, H5, H6, H7, H8, H9, H10, H11, H12, H13⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The run -/

set_option backward.isDefEq.respectTransparency.types false in
/-- Every weakly fair execution of @main terminates; every window's array ends at what the proof data compute for
    it and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_split m) (hΦ := fun _ _ => rfl)

/-- The frame: the run ends with the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c),
      ((h c).2 main_arg7 (Pipeline.mem_restRefs_of main_arg7 rfl (by decide))).trans (V_main_arg7 m c),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

/-- The run with its result named: the result array at the output window's array after the last grid point, the
    arguments as launched. -/
theorem run_val : θ_run defs (onTc (τ := τ) (main (F := F))) ⟨m, fun _ => 0, ρ⟩ (fun r => ∀ c : Dev nD,
      r.2.mem ((c.tc : Thread nD τ).loc main_v17) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 14, ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c),
      ((h c).2 main_arg7 (Pipeline.mem_restRefs_of main_arg7 rfl (by decide))).trans (V_main_arg7 m c),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

end Cert.KernelIdeal.Hand

end
-- ==== Proof.Spec.lean ====
/-
  The mathematics of one message-passing layer, row by row, on the extended reals.

  A target node's feature row `hrow` meets every source row `hall j` and the edge scalar `arow j`: the
  pre-activation of the message from `j` is `hrow·Wt + hall j·Ws + arow j · wJ + bm`, the message is the SiLU of its
  layer norm, and the messages of the sources other than the node itself are summed. The node's update is the
  SiLU of the layer norm of `hrow·Wu1 + agg·Wu2 + bu`, added to `hrow`.

  "All sources but the node itself" is written in two ways: the sum of the messages times a 0/1 mask
  (`aggMasked`), and the whole sum less the node's own message (`aggDiff`). They agree where that one message
  is a real number.
-/
import Idealize.ShloMosaic.PureOps.Ideal

noncomputable section

namespace Cert.Gnn

open Idealize.ShloMosaic

/-- The word of the float 128.0, the width of a feature row. -/
abbrev w128 : EReal := Ideal.ofBits .f32 0x43000000#32
/-- The word of the layer norm's epsilon. -/
abbrev weps : EReal := Ideal.ofBits .f32 0x3727C5AC#32

/-- The mean of a row of 128. -/
def mean (x : Fin 128 → EReal) : EReal := Ideal.div (∑ k, x k) w128

/-- Layer norm of a row: centre, scale by the reciprocal root of the variance plus epsilon, then gain and bias. -/
def lnorm (x g β : Fin 128 → EReal) (e : Fin 128) : EReal :=
  (x e - mean x) * Ideal.rsqrt (mean (fun k => (x k - mean x) * (x k - mean x)) + weps) * g e + β e

/-- `y · 1/(1 + e^(-y))`. -/
def silu (y : EReal) : EReal := y * Ideal.logistic y

/-- The layer's weights, each matrix as (input feature, output feature). -/
structure Params where
  Wt : Fin 128 → Fin 128 → EReal
  Ws : Fin 128 → Fin 128 → EReal
  wJ : Fin 128 → EReal
  bm : Fin 128 → EReal
  gm : Fin 128 → EReal
  βm : Fin 128 → EReal
  Wu1 : Fin 128 → Fin 128 → EReal
  Wu2 : Fin 128 → Fin 128 → EReal
  bu : Fin 128 → EReal
  gu : Fin 128 → EReal
  βu : Fin 128 → EReal

/-- The message's pre-activation from a source row `hsrc` over the edge scalar `a`. -/
def preMsg (P : Params) (hrow hsrc : Fin 128 → EReal) (a : EReal) (e : Fin 128) : EReal :=
  (∑ d, hrow d * P.Wt d e) + (∑ d, hsrc d * P.Ws d e) + a * P.wJ e + P.bm e

/-- The message. -/
def msg (P : Params) (hrow hsrc : Fin 128 → EReal) (a : EReal) (e : Fin 128) : EReal :=
  silu (lnorm (preMsg P hrow hsrc a) P.gm P.βm e)

/-- The messages summed under a mask. -/
def aggMasked (P : Params) (hrow : Fin 128 → EReal) (hall : Fin 256 → Fin 128 → EReal) (arow : Fin 256 → EReal)
    (mask : Fin 256 → EReal) (e : Fin 128) : EReal :=
  ∑ j, msg P hrow (hall j) (arow j) e * mask j

/-- All the messages summed, less the one from source `i`. -/
def aggDiff (P : Params) (hrow : Fin 128 → EReal) (hall : Fin 256 → Fin 128 → EReal) (arow : Fin 256 → EReal)
    (i : Fin 256) (e : Fin 128) : EReal :=
  (∑ j, msg P hrow (hall j) (arow j) e) - msg P hrow (hall i) (arow i) e

/-- The update's pre-activation. -/
def preUpd (P : Params) (hrow agg : Fin 128 → EReal) (e : Fin 128) : EReal :=
  (∑ d, hrow d * P.Wu1 d e) + (∑ d, agg d * P.Wu2 d e) + P.bu e

/-- The node's new row from its old one and the aggregated messages. -/
def rowOut (P : Params) (hrow agg : Fin 128 → EReal) (e : Fin 128) : EReal :=
  hrow e + silu (lnorm (preUpd P hrow agg) P.gu P.βu e)

/-- The 0/1 mask that drops source `i`. -/
def dropMask (i : Nat) (j : Fin 256) : EReal := if i = j.val then 0 else 1

/-- An extended real that is a real number. -/
def IsReal (x : EReal) : Prop := ∃ r : ℝ, x = (r : EReal)

end Cert.Gnn

end
-- ==== Proof.KI.BlockParams.lean ====
/-
  The layer's weights as the kernel's blocks hold them: the host has already cut and transposed the stacked weight
  matrices, so each matrix block is (input feature, output feature) and each vector is a one-row block.
-/
import proofs.«108111_j42099269435680_1_alg».proof.Proof.Spec
import proofs.«108111_j42099269435680_1_alg».proof.KernelIdeal
import Idealize.ShloMosaic.Lib.ValueIdx

noncomputable section

namespace Cert.KernelIdeal.Hand

open Idealize.ShloMosaic Idealize.ShloMosaic.ValueIdx Cert.KernelIdeal Cert.Gnn

/-- The weights out of the eleven weight blocks. -/
def blockParams (x3 x4 : Vec Ideal S128x128 .f32) (x5 x6 x7 x8 : Vec Ideal S1x128 .f32) (x9 x10 : Vec Ideal S128x128 .f32)
    (x11 x12 x13 : Vec Ideal S1x128 .f32) : Params where
  Wt d e := x3 (ix2 d e)
  Ws d e := x4 (ix2 d e)
  wJ e := x5 (ix2 (0 : Fin 1) e)
  bm e := x6 (ix2 (0 : Fin 1) e)
  gm e := x7 (ix2 (0 : Fin 1) e)
  βm e := x8 (ix2 (0 : Fin 1) e)
  Wu1 d e := x9 (ix2 d e)
  Wu2 d e := x10 (ix2 d e)
  bu e := x11 (ix2 (0 : Fin 1) e)
  gu e := x12 (ix2 (0 : Fin 1) e)
  βu e := x13 (ix2 (0 : Fin 1) e)

end Cert.KernelIdeal.Hand

end
-- ==== Proof.KPointMsg.lean ====
/-
  The aggregated messages the kernel body computes, read at an index: for row `r` of the target tile and feature `e`,
  the sum over all 256 source rows of the message (SiLU of the layer norm of the two matrix products, the edge
  term and the bias), each times the 0/1 mask that is zero exactly at the source equal to the row's own node,
  node number 64 · tile + r.
-/
import proofs.«108111_j42099269435680_1_alg».proof.Proof.KI.BlockParams
import proofs.«108111_j42099269435680_1_alg».proof.Proof.KI.PayOut
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Hand

open Idealize.ShloMosaic Idealize.ShloMosaic.ValueIdx Cert.KernelIdeal Cert.KernelIdeal.Gen Cert.Gnn

/-! The helper lemmas live in their own namespace; the closing theorem is stated in the enclosing one. -/
namespace Msg

/-! ## Layout operations at coordinates: a unit axis put in the middle or at the end, and the four broadcasts -/

section Layout
variable {α : Type}

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a]` array cast to `[1, 1, a]` reads, at `(u, v, q)`, the operand at `q`. -/
theorem shapeCast_a_11a_apply {a : ℕ} (x : (⟨1, ![a]⟩ : Shape).Idx → α)
    (h : (⟨1, ![a]⟩ : Shape).ShapeCasts ⟨3, ![1, 1, a]⟩) (u v : Fin 1) (q : Fin a) :
    shapeCast ⟨3, ![1, 1, a]⟩ x h (ix3 u v q) = x (ix1 q) :=
  shapeCast_apply x h _ _ (by
    have hu : u.val = 0 := by omega
    have hv : v.val = 0 := by omega
    rw [Shape.rowMajor_val_three, Shape.rowMajor_val_one]
    show q.val = (u.val * 1 + v.val) * a + q.val
    rw [hu, hv]; simp)

/-- A `[64, 1, 128]` array broadcast along its middle axis. -/
theorem bcast_64x1x128_apply (x : S64x1x128.Idx → α) (h : S64x1x128.Broadcasts S64x256x128)
    (p : Fin 64) (j : Fin 256) (q : Fin 128) :
    broadcastTo S64x256x128 x h (ix3 p j q) = x (ix3 p (0 : Fin 1) q) := by
  refine broadcastTo_apply x h (ix3 p j q) (ix3 p (0 : Fin 1) q) fun ax => ?_
  match ax with
  | ⟨0, _⟩ => rfl
  | ⟨1, _⟩ => rfl
  | ⟨2, _⟩ => rfl

/-- A `[1, 256, 128]` array broadcast along its leading axis. -/
theorem bcast_1x256x128_apply (x : S1x256x128.Idx → α) (h : S1x256x128.Broadcasts S64x256x128)
    (p : Fin 64) (j : Fin 256) (q : Fin 128) :
    broadcastTo S64x256x128 x h (ix3 p j q) = x (ix3 (0 : Fin 1) j q) := by
  refine broadcastTo_apply x h (ix3 p j q) (ix3 (0 : Fin 1) j q) fun ax => ?_
  match ax with
  | ⟨0, _⟩ => rfl
  | ⟨1, _⟩ => rfl
  | ⟨2, _⟩ => rfl

/-- A `[64, 256, 1]` array broadcast along its last axis. -/
theorem bcast_64x256x1_apply (x : S64x256x1.Idx → α) (h : S64x256x1.Broadcasts S64x256x128)
    (p : Fin 64) (j : Fin 256) (q : Fin 128) :
    broadcastTo S64x256x128 x h (ix3 p j q) = x (ix3 p j (0 : Fin 1)) := by
  refine broadcastTo_apply x h (ix3 p j q) (ix3 p j (0 : Fin 1)) fun ax => ?_
  match ax with
  | ⟨0, _⟩ => rfl
  | ⟨1, _⟩ => rfl
  | ⟨2, _⟩ => rfl

/-- A `[1, 1, 128]` array broadcast along its two leading axes. -/
theorem bcast_1x1x128_apply (x : S1x1x128.Idx → α) (h : S1x1x128.Broadcasts S64x256x128)
    (p : Fin 64) (j : Fin 256) (q : Fin 128) :
    broadcastTo S64x256x128 x h (ix3 p j q) = x (ix3 (0 : Fin 1) (0 : Fin 1) q) := by
  refine broadcastTo_apply x h (ix3 p j q) (ix3 (0 : Fin 1) (0 : Fin 1) q) fun ax => ?_
  match ax with
  | ⟨0, _⟩ => rfl
  | ⟨1, _⟩ => rfl
  | ⟨2, _⟩ => rfl

end Layout

/-! ## The two lane sums of the body at coordinates -/

/-- The source index over `(r, j)` of the sum along the last axis, with `k` put on that axis. -/
theorem lift_axis2 (r : Fin 64) (j : Fin 256) (k : Fin 128) :
    reduces_S64x256x128_S64x256.lift (ix2 r j) k = ix3 r j k :=
  funext fun c => Fin.ext (by
    match c with
    | ⟨0, _⟩ => rfl
    | ⟨1, _⟩ => rfl
    | ⟨2, _⟩ => rfl)

/-- The source index over `(r, e)` of the sum along the middle axis, with `j` put on that axis. -/
theorem lift_axis1 (r : Fin 64) (e : Fin 128) (j : Fin 256) :
    reduces_S64x256x128_S64x128.lift (ix2 r e) j = ix3 r j e :=
  funext fun c => Fin.ext (by
    match c with
    | ⟨0, _⟩ => rfl
    | ⟨1, _⟩ => rfl
    | ⟨2, _⟩ => rfl)

/-- A sum along the last axis, at `(r, j)`. -/
theorem sum_axis2_apply (v : FVec Ideal S64x256x128 .f32) (hφ : FKind.Formats .f32)
    (hacc : (0x00000000#32 : BitVec 32) = 0x00000000#32) (r : Fin 64) (j : Fin 256) :
    multiReduction (F := Ideal) .add [2] S64x256 v 0x00000000#32 reduces_S64x256x128_S64x256 hφ hacc (ix2 r j)
      = ∑ k : Fin 128, v (ix3 r j k) :=
  (Ideal.multiReduction_add_single v 0x00000000#32 reduces_S64x256x128_S64x256 hφ hacc (ix2 r j)).trans
    (Finset.sum_congr rfl fun k _ => congrArg v (lift_axis2 r j k))

/-- A sum along the middle axis, at `(r, e)`. -/
theorem sum_axis1_apply (v : FVec Ideal S64x256x128 .f32) (hφ : FKind.Formats .f32)
    (hacc : (0x00000000#32 : BitVec 32) = 0x00000000#32) (r : Fin 64) (e : Fin 128) :
    multiReduction (F := Ideal) .add [1] S64x128 v 0x00000000#32 reduces_S64x256x128_S64x128 hφ hacc (ix2 r e)
      = ∑ j : Fin 256, v (ix3 r j e) :=
  (Ideal.multiReduction_add_single v 0x00000000#32 reduces_S64x256x128_S64x128 hφ hacc (ix2 r e)).trans
    (Finset.sum_congr rfl fun j _ => congrArg v (lift_axis1 r e j))

/-! ## The two matrix products at coordinates

Each is the product of a block of rows by a 128 × 128 weight block into the zero accumulator; at entry `(a, b)` it is
the sum over the contracted coordinate `c` of `A (a, c) · B (c, b)`. -/

theorem lhs_dotT_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_dotT_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_dotT_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_dotT_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The target tile's rows times a weight block, at `(a, b)`. -/
theorem matmulT_apply (A : FVec Ideal S64x128 .f32) (B : FVec Ideal S128x128 .f32) (a : Fin 64) (b : Fin 128) :
    matmul dot_S64x128_S128x128_S64x128_1_0_0_1_n_n none A B (constant (F := Ideal) S64x128 .f32 0x00000000#32) (ix2 a b)
      = ∑ c : Fin 128, A (ix2 a c) * B (ix2 c b) := by
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 a b) ((ValueIdx.contrEquiv1 dot_S64x128_S128x128_S64x128_1_0_0_1_n_n 128 rfl rfl).symm k) = ix2 a k := funext fun ax => Fin.ext (by
    match ax with
    | ⟨0, _⟩ => exact lhs_dotT_0 _ _
    | ⟨1, _⟩ => exact (lhs_dotT_1 _ _).trans hk)
  have er : dot_S64x128_S128x128_S64x128_1_0_0_1_n_n.rhsIdx (ix2 a b) ((ValueIdx.contrEquiv1 dot_S64x128_S128x128_S64x128_1_0_0_1_n_n 128 rfl rfl).symm k) = ix2 k b := funext fun ax => Fin.ext (by
    match ax with
    | ⟨0, _⟩ => exact (rhs_dotT_0 _ _).trans hk
    | ⟨1, _⟩ => exact rhs_dotT_1 _ _)
  rw [el, er]

theorem lhs_dotS_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_dotS_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhs_dotS_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhs_dotS_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- All the source rows times a weight block, at `(a, b)`. -/
theorem matmulS_apply (A : FVec Ideal S256x128 .f32) (B : FVec Ideal S128x128 .f32) (a : Fin 256) (b : Fin 128) :
    matmul dot_S256x128_S128x128_S256x128_1_0_0_1_n_n none A B (constant (F := Ideal) S256x128 .f32 0x00000000#32) (ix2 a b)
      = ∑ c : Fin 128, A (ix2 a c) * B (ix2 c b) := by
  simp only [matmul]
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 a b) ((ValueIdx.contrEquiv1 dot_S256x128_S128x128_S256x128_1_0_0_1_n_n 128 rfl rfl).symm k) = ix2 a k := funext fun ax => Fin.ext (by
    match ax with
    | ⟨0, _⟩ => exact lhs_dotS_0 _ _
    | ⟨1, _⟩ => exact (lhs_dotS_1 _ _).trans hk)
  have er : dot_S256x128_S128x128_S256x128_1_0_0_1_n_n.rhsIdx (ix2 a b) ((ValueIdx.contrEquiv1 dot_S256x128_S128x128_S256x128_1_0_0_1_n_n 128 rfl rfl).symm k) = ix2 k b := funext fun ax => Fin.ext (by
    match ax with
    | ⟨0, _⟩ => exact (rhs_dotS_0 _ _).trans hk
    | ⟨1, _⟩ => exact rhs_dotS_1 _ _)
  rw [el, er]

/-! ## The 0/1 mask at coordinates -/

/-- Two numbers below 2³² compared as 32-bit words: the "differ" bit, widened and read as a signed integer, is 0 when
    they are equal and 1 when they are not. -/
theorem mask_word (a b : ℕ) (ha : a < 2 ^ 32) (hb : b < 2 ^ 32) :
    (((IntOp.cmpi .ne (BitVec.ofNat 32 a) (BitVec.ofNat 32 b)).setWidth 32).toInt : ℝ) = if a = b then 0 else 1 := by
  have e0 : ((0#1 : BitVec 1).setWidth 32).toInt = 0 := by decide
  have e1 : ((1#1 : BitVec 1).setWidth 32).toInt = 1 := by decide
  by_cases h : a = b
  · subst h
    rw [if_pos rfl]
    have hc : IntOp.cmpi .ne (BitVec.ofNat 32 a) (BitVec.ofNat 32 a) = 0#1 := by
      show BitVec.ofBool (BitVec.ofNat 32 a != BitVec.ofNat 32 a) = 0#1
      rw [bne_self_eq_false]; rfl
    rw [hc, e0, Int.cast_zero]
  · rw [if_neg h]
    have hne : BitVec.ofNat 32 a ≠ BitVec.ofNat 32 b := fun hh => h (by
      have := congrArg BitVec.toNat hh
      rw [BitVec.toNat_ofNat, BitVec.toNat_ofNat, Nat.mod_eq_of_lt ha, Nat.mod_eq_of_lt hb] at this
      exact this)
    have hc : IntOp.cmpi .ne (BitVec.ofNat 32 a) (BitVec.ofNat 32 b) = 1#1 := by
      show BitVec.ofBool (BitVec.ofNat 32 a != BitVec.ofNat 32 b) = 1#1
      rw [bne_iff_ne.mpr hne]; rfl
    rw [hc, e1, Int.cast_one]

/-- The node number of row `r` of tile `it`, as a 32-bit word: nothing wraps. -/
theorem node_word (it : Fin 4) (r : Fin 64) :
    IntOp.addi (Scalar.muli (BitVec.ofNat 32 it.val) 64#32) (BitVec.ofNat 32 r.val) = BitVec.ofNat 32 (64 * it.val + r.val) := by
  show BitVec.ofNat 32 it.val * 64#32 + BitVec.ofNat 32 r.val = _
  apply BitVec.eq_of_toNat_eq
  simp only [BitVec.toNat_add, BitVec.toNat_mul, BitVec.toNat_ofNat, Nat.reducePow, Nat.reduceMod]
  have := it.isLt; have := r.isLt
  omega

/-- The body's mask at `(r, j)`: zero exactly when source `j` is the row's own node. -/
theorem mask_apply (it : Fin 4) (r : Fin 64) (j : Fin 256) :
    (sitofp (F := Ideal) .f32 (extui 32 (cmpi .ne (addi (broadcast S64x256 (Scalar.muli (BitVec.ofNat 32 it.val) 64#32))
        (iota .tc S64x256 32 [0] iota_S64x256_d0_w32)) (iota .tc S64x256 32 [1] iota_S64x256_d1_w32)) natLt_1_32) : FVec Ideal S64x256 .f32) (ix2 r j)
      = dropMask (64 * it.val + r.val) j := by
  have h0 : iota .tc S64x256 32 [0] iota_S64x256_d0_w32 (ix2 r j) = BitVec.ofNat 32 r.val :=
    iota_single_apply .tc S64x256 32 0 iota_S64x256_d0_w32 (ix2 r j)
  have h1 : iota .tc S64x256 32 [1] iota_S64x256_d1_w32 (ix2 r j) = BitVec.ofNat 32 j.val :=
    iota_single_apply .tc S64x256 32 1 iota_S64x256_d1_w32 (ix2 r j)
  show ((((IntOp.cmpi .ne (IntOp.addi (Scalar.muli (BitVec.ofNat 32 it.val) 64#32) (iota .tc S64x256 32 [0] iota_S64x256_d0_w32 (ix2 r j)))
      (iota .tc S64x256 32 [1] iota_S64x256_d1_w32 (ix2 r j))).setWidth 32).toInt : ℝ) : EReal) = _
  have hr := r.isLt; have hit := it.isLt; have hj := j.isLt
  rw [h0, h1, node_word, mask_word _ _ (by omega) (by omega)]
  unfold dropMask
  split <;> simp

/-! ## The small payloads at coordinates -/

/-- The target tile with its unit axis dropped. -/
theorem pay1_apply (x0 : Vec Ideal S1x64x128 .f32) (r : Fin 64) (d : Fin 128) :
    k0_pay1 x0 (ix2 r d) = x0 (ix3 (0 : Fin 1) r d) :=
  shapeCast_1ab_ab_apply x0 shapeCasts_S1x64x128_S64x128 r d

/-- A one-row weight block as a vector. -/
theorem row_apply (x : Vec Ideal S1x128 .f32) (e : Fin 128) :
    shapeCast S128 (shapeCast S1x128 x shapeCasts_S1x128_S1x128) shapeCasts_S1x128_S128 (ix1 e) = x (ix2 (0 : Fin 1) e) :=
  (shapeCast_1a_a_apply _ shapeCasts_S1x128_S128 e).trans (congrFun (shapeCast_self x shapeCasts_S1x128_S1x128) _)

theorem pay2_apply (x : Vec Ideal S1x128 .f32) (e : Fin 128) : k0_pay2 x (ix1 e) = x (ix2 (0 : Fin 1) e) := row_apply x e
theorem pay3_apply (x : Vec Ideal S1x128 .f32) (e : Fin 128) : k0_pay3 x (ix1 e) = x (ix2 (0 : Fin 1) e) := row_apply x e
theorem pay4_apply (x : Vec Ideal S1x128 .f32) (e : Fin 128) : k0_pay4 x (ix1 e) = x (ix2 (0 : Fin 1) e) := row_apply x e

/-- The reciprocal square root and the logistic function act entry by entry. -/
theorem rsqrt_apply {s : Shape} {φ : FTy} (v : FVec Ideal s φ) (i : s.Idx) : rsqrt v i = Ideal.rsqrt (v i) := rfl
theorem logistic_apply {s : Shape} {φ : FTy} (v : FVec Ideal s φ) (i : s.Idx) : logistic v i = Ideal.logistic (v i) := rfl

/-! ## The message's pre-activation without its bias -/

/-- The two products and the edge term at `(r, j, e)`. -/
theorem pay5_apply (x0 : Vec Ideal S1x64x128 .f32) (x1 : Vec Ideal S1x256x128 .f32) (x2 : Vec Ideal S1x64x256 .f32)
    (x3 x4 : Vec Ideal S128x128 .f32) (x5 : Vec Ideal S1x128 .f32) (r : Fin 64) (j : Fin 256) (e : Fin 128) :
    k0_pay5 x0 x1 x2 x3 x4 x5 (ix3 r j e)
      = (∑ d : Fin 128, x0 (ix3 (0 : Fin 1) r d) * x3 (ix2 d e)) + (∑ d : Fin 128, x1 (ix3 (0 : Fin 1) j d) * x4 (ix2 d e))
        + x2 (ix3 (0 : Fin 1) r j) * x5 (ix2 (0 : Fin 1) e) := by
  unfold k0_pay5
  simp only [addf_apply, mulf_apply, bcast_64x1x128_apply, bcast_1x256x128_apply, bcast_64x256x1_apply, bcast_1x1x128_apply,
    shapeCast_ab_a1b_apply, shapeCast_ab_1ab_apply, shapeCast_ab_ab1_apply, shapeCast_a_11a_apply, shapeCast_1ab_ab_apply,
    shapeCast_self, shapeCast_1a_a_apply, matmulT_apply, matmulS_apply, pay1_apply]

end Msg

open Msg

/-! ## The layer norm and the activation at coordinates, and the assembly -/

/-- The body's masked message sum at row `r`, feature `e`, at tile `it` of the node axis. -/
theorem pay6_apply (it : Fin 4) (x0 : Vec Ideal S1x64x128 .f32) (x1 : Vec Ideal S1x256x128 .f32) (x2 : Vec Ideal S1x64x256 .f32)
    (x3 x4 : Vec Ideal S128x128 .f32) (x5 x6 x7 x8 : Vec Ideal S1x128 .f32) (P : Params)
    (hWt : P.Wt = fun d e => x3 (ix2 d e)) (hWs : P.Ws = fun d e => x4 (ix2 d e)) (hwJ : P.wJ = fun e => x5 (ix2 (0 : Fin 1) e))
    (hbm : P.bm = fun e => x6 (ix2 (0 : Fin 1) e)) (hgm : P.gm = fun e => x7 (ix2 (0 : Fin 1) e)) (hβm : P.βm = fun e => x8 (ix2 (0 : Fin 1) e))
    (r : Fin 64) (e : Fin 128) :
    k0_pay6 (F := Ideal) (BitVec.ofNat 32 it.val) (k0_pay2 x6) (k0_pay3 x7) (k0_pay4 x8) (k0_pay5 x0 x1 x2 x3 x4 x5) (ix2 r e)
      = aggMasked P (fun d => x0 (ix3 (0 : Fin 1) r d)) (fun j d => x1 (ix3 (0 : Fin 1) j d)) (fun j => x2 (ix3 (0 : Fin 1) r j))
          (dropMask (64 * it.val + r.val)) e := by
  unfold k0_pay6
  refine (sum_axis1_apply _ _ _ r e).trans ?_
  unfold aggMasked
  refine Finset.sum_congr rfl fun j _ => ?_
  rw [mulf_apply]
  refine congrArg₂ (· * ·) ?_ ?_
  · unfold msg silu
    rw [mulf_apply, logistic_apply]
    refine congrArg (fun y => y * Ideal.logistic y) ?_
    repeat (first
      | rw [sum_axis2_apply]
      | simp only [addf_apply, subf_apply, mulf_apply, divf_apply, broadcast_apply, rsqrt_apply, bcast_64x256x1_apply,
          bcast_1x1x128_apply, shapeCast_ab_ab1_apply, shapeCast_a_11a_apply, pay2_apply, pay3_apply, pay4_apply,
          pay5_apply])
    unfold lnorm mean preMsg
    simp only [hWt, hWs, hwJ, hbm, hgm, hβm]
    rfl
  · refine (bcast_64x256x1_apply _ _ r j e).trans ((shapeCast_ab_ab1_apply _ _ r j (0 : Fin 1)).trans ?_)
    exact mask_apply it r j

end Cert.KernelIdeal.Hand

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KPointUpd.lean ====
/-
  The update the kernel body stores, read at an index, for ANY aggregated-message block `agg`: row `r`, feature `e`
  of the stored block is the target row plus the SiLU of the layer norm of (target row · Wu1 + agg row · Wu2 + bu).
-/
import proofs.«108111_j42099269435680_1_alg».proof.Proof.KI.BlockParams
import proofs.«108111_j42099269435680_1_alg».proof.Proof.KI.PayOut
import proofs.«108111_j42099269435680_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Hand

open Idealize.ShloMosaic Idealize.ShloMosaic.ValueIdx Cert.KernelIdeal Cert.KernelIdeal.Gen Cert.Gnn

namespace Upd

/-! ## Layout facts at explicit coordinates -/

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a `[64, 128]` block along its rows, read at row `r`: the sum of the row's 128 entries. -/
theorem rowSum_apply (v : FVec Ideal S64x128 .f32) (hφ : FKind.Formats .f32)
    (hacc : (0x00000000#32 : BitVec 32) = 0x00000000#32) (r : Fin 64) :
    multiReduction (F := Ideal) .add (no_index [1]) S64 v 0x00000000#32 reduces_S64x128_S64 hφ hacc (ix1 r)
      = ∑ k : Fin 128, v (ix2 r k) := by
  refine (Ideal.multiReduction_add_single v 0x00000000#32 reduces_S64x128_S64 hφ hacc (ix1 r)).trans ?_
  refine Finset.sum_congr rfl fun k _ => congrArg v (funext fun a => Fin.ext ?_)
  match a with
  | ⟨0, _⟩ => rfl
  | ⟨1, _⟩ => rfl

/-- The kernel's product of a `[64, 128]` block by a `[128, 128]` block into the zero accumulator, read at
    `(r, e)`: the sum over the contracted feature `d` of `A(r, d) · B(d, e)`. -/
theorem matmul_apply (A : FVec Ideal S64x128 .f32) (B : FVec Ideal S128x128 .f32) (r : Fin 64) (e : Fin 128) :
    matmul dot_S64x128_S128x128_S64x128_1_0_0_1_n_n none A B (constant (F := Ideal) S64x128 .f32 0x00000000#32) (ix2 r e)
      = ∑ d : Fin 128, A (ix2 r d) * B (ix2 d e) :=
  Cert.LibMatmulPlain.matmul_plain_zero_apply none A B r e

/-- Pointwise reciprocal square root and logistic, read at an index. -/
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

end Upd

/-- The stored block over an arbitrary aggregate `agg`. -/
theorem pay10_apply (x0 : Vec Ideal S1x64x128 .f32) (agg : FVec Ideal S64x128 .f32) (x9 x10 : Vec Ideal S128x128 .f32)
    (x11 x12 x13 : Vec Ideal S1x128 .f32) (P : Params)
    (hWu1 : P.Wu1 = fun d e => x9 (ix2 d e)) (hWu2 : P.Wu2 = fun d e => x10 (ix2 d e)) (hbu : P.bu = fun e => x11 (ix2 (0 : Fin 1) e))
    (hgu : P.gu = fun e => x12 (ix2 (0 : Fin 1) e)) (hβu : P.βu = fun e => x13 (ix2 (0 : Fin 1) e))
    (r : Fin 64) (e : Fin 128) :
    k0_pay10 (F := Ideal) (k0_pay1 x0) agg (k0_pay7 x9) (k0_pay8 x10) (k0_pay9 x11) x12 x13 (ix3 (0 : Fin 1) r e)
      = rowOut P (fun d => x0 (ix3 (0 : Fin 1) r d)) (fun d => agg (ix2 r d)) e := by
  -- Read the block at (0, r, e). Every pointwise operation passes the index through; the one-row blocks (bias, gain,
  -- shift) are read at column e, the one-column blocks (the row's mean, the reciprocal root of its variance plus
  -- epsilon) at (r, 0); each sum along a row is the sum over its 128 features, each product into zero the sum over
  -- the contracted feature.
  unfold k0_pay10 k0_pay1 k0_pay7 k0_pay8 k0_pay9
  simp only [shapeCast_self, shapeCast_ab_1ab_apply, addf_apply, mulf_apply, subf_apply, divf_apply, broadcast_apply,
     broadcastTo_1b_ab_apply, Upd.broadcastTo_a1_ab_apply, shapeCast_a_1a_apply, shapeCast_1a_a_apply,
     Upd.shapeCast_a_a1_apply, shapeCast_1ab_ab_apply, Upd.rowSum_apply, Upd.matmul_apply, Upd.rsqrt_apply,
     Upd.logistic_apply]
  -- The target's formula with its definitions opened and the weights read from their blocks is the same expression:
  -- the operations come in the same order on both sides, and the two float words are the same words.
  unfold rowOut silu lnorm mean preUpd
  simp only [hWu1, hWu2, hbu, hgu, hβu]
  rfl

end Cert.KernelIdeal.Hand

end
-- ==== Proof.KPoint.lean ====
/-
  What the kernel body stores, read at an index: row `r` of the target tile against all 256 source rows, the
  source equal to the row's own node (node number 64 · tile + r) masked out of the sum: the update over the masked
  message sum.
-/
import proofs.«108111_j42099269435680_1_alg».proof.Proof.KI.BlockParams
import proofs.«108111_j42099269435680_1_alg».proof.Proof.KI.PayOut
import proofs.«108111_j42099269435680_1_alg».proof.Proof.KPointMsg
import proofs.«108111_j42099269435680_1_alg».proof.Proof.KPointUpd
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Hand

open Idealize.ShloMosaic Idealize.ShloMosaic.ValueIdx Cert.KernelIdeal Cert.KernelIdeal.Gen Cert.Gnn

/-- The stored block at row `r`, feature `e`, at tile `it` of the node axis. -/
theorem payOut_apply (it : Fin 4) (x0 : Vec Ideal S1x64x128 .f32) (x1 : Vec Ideal S1x256x128 .f32) (x2 : Vec Ideal S1x64x256 .f32)
    (x3 x4 : Vec Ideal S128x128 .f32) (x5 x6 x7 x8 : Vec Ideal S1x128 .f32) (x9 x10 : Vec Ideal S128x128 .f32)
    (x11 x12 x13 : Vec Ideal S1x128 .f32) (r : Fin 64) (e : Fin 128) :
    payOut (F := Ideal) (BitVec.ofNat 32 it.val) x0 x1 x2 x3 x4 x5 x6 x7 x8 x9 x10 x11 x12 x13 (ix3 (0 : Fin 1) r e)
      = rowOut (blockParams x3 x4 x5 x6 x7 x8 x9 x10 x11 x12 x13) (fun d => x0 (ix3 (0 : Fin 1) r d))
          (aggMasked (blockParams x3 x4 x5 x6 x7 x8 x9 x10 x11 x12 x13) (fun d => x0 (ix3 (0 : Fin 1) r d))
            (fun j d => x1 (ix3 (0 : Fin 1) j d)) (fun j => x2 (ix3 (0 : Fin 1) r j)) (dropMask (64 * it.val + r.val))) e := by
  unfold payOut
  rw [pay10_apply x0 _ x9 x10 x11 x12 x13 (blockParams x3 x4 x5 x6 x7 x8 x9 x10 x11 x12 x13) rfl rfl rfl rfl rfl r e]
  congr 1
  funext d
  exact pay6_apply it x0 x1 x2 x3 x4 x5 x6 x7 x8 (blockParams x3 x4 x5 x6 x7 x8 x9 x10 x11 x12 x13) rfl rfl rfl rfl rfl rfl r d

end Cert.KernelIdeal.Hand

end
-- ==== Proof.Global.lean ====
/-
  The layer over the whole arrays: node `i` of batch `b` is a target row `h[b, i, :]` against the sources
  `h[b, :, :]` over the edge scalars `adj[b, i, :]`, with the weights cut out of the two stacked weight matrices
  (`W_msg[:, 0:128]`, `W_msg[:, 128:256]`, `W_msg[:, 256]`, `W_upd[:, 0:128]`, `W_upd[:, 128:256]`), each read
  as (input feature, output feature).
-/
import proofs.«108111_j42099269435680_1_alg».proof.Proof.Spec
import Idealize.ShloMosaic.Lib.ValueIdx

noncomputable section

namespace Cert.Gnn

open Idealize.ShloMosaic Idealize.ShloMosaic.ValueIdx

abbrev A3 (a b c : Nat) : Type := (⟨3, ![a, b, c]⟩ : Shape).Idx → EReal
abbrev A2 (a b : Nat) : Type := (⟨2, ![a, b]⟩ : Shape).Idx → EReal
abbrev A1 (a : Nat) : Type := (⟨1, ![a]⟩ : Shape).Idx → EReal

/-- The weights out of the argument arrays. -/
def globalParams (x2 : A2 128 257) (x3 x4 x5 : A1 128) (x6 : A2 128 256) (x7 x8 x9 : A1 128) : Params where
  Wt d e := x2 (ix2 e (⟨d.val, by have := d.isLt; omega⟩ : Fin 257))
  Ws d e := x2 (ix2 e (⟨128 + d.val, by have := d.isLt; omega⟩ : Fin 257))
  wJ e := x2 (ix2 e (⟨256, by omega⟩ : Fin 257))
  bm e := x3 (ix1 e)
  gm e := x4 (ix1 e)
  βm e := x5 (ix1 e)
  Wu1 d e := x6 (ix2 e (⟨d.val, by have := d.isLt; omega⟩ : Fin 256))
  Wu2 d e := x6 (ix2 e (⟨128 + d.val, by have := d.isLt; omega⟩ : Fin 256))
  bu e := x7 (ix1 e)
  gu e := x8 (ix1 e)
  βu e := x9 (ix1 e)

/-- The new feature of node `i` of batch `b`, the node's own message masked out of the sum. -/
def kernelVal (x0 : A3 8 256 128) (x1 : A3 8 256 256) (x2 : A2 128 257) (x3 x4 x5 : A1 128) (x6 : A2 128 256)
    (x7 x8 x9 : A1 128) (b : Fin 8) (i : Fin 256) (e : Fin 128) : EReal :=
  rowOut (globalParams x2 x3 x4 x5 x6 x7 x8 x9) (fun d => x0 (ix3 b i d))
    (aggMasked (globalParams x2 x3 x4 x5 x6 x7 x8 x9) (fun d => x0 (ix3 b i d)) (fun j d => x0 (ix3 b j d))
      (fun j => x1 (ix3 b i j)) (dropMask i.val)) e

/-- The same, the node's own message subtracted from the whole sum. -/
def refVal (x0 : A3 8 256 128) (x1 : A3 8 256 256) (x2 : A2 128 257) (x3 x4 x5 : A1 128) (x6 : A2 128 256)
    (x7 x8 x9 : A1 128) (b : Fin 8) (i : Fin 256) (e : Fin 128) : EReal :=
  rowOut (globalParams x2 x3 x4 x5 x6 x7 x8 x9) (fun d => x0 (ix3 b i d))
    (aggDiff (globalParams x2 x3 x4 x5 x6 x7 x8 x9) (fun d => x0 (ix3 b i d)) (fun j d => x0 (ix3 b j d))
      (fun j => x1 (ix3 b i j)) i) e

end Cert.Gnn

end
-- ==== Proof.KArrayParams.lean ====
/-
  The weight blocks the kernel sees are the layer's weights. The host operations before the region cut the stacked
  message weights into their target, source and edge columns and the stacked update weights into their two halves,
  transpose each matrix and give each vector a leading unit axis; every weight window's block is its whole array at
  every grid point. So at any point the blocks' parameters are the parameters read off the argument arrays.
-/
import proofs.«108111_j42099269435680_1_alg».proof.Proof.KI.Data
import proofs.«108111_j42099269435680_1_alg».proof.Proof.KI.BlockParams
import proofs.«108111_j42099269435680_1_alg».proof.Proof.Global
import Idealize.ShloMosaic.Lib.Pipeline.Value
import Idealize.ShloMosaic.Lib.ValueLayout
import Idealize.ShloMosaic.Lib.Tactic

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gnn

variable (m : (ℓ : Loc nD τ sig) → Buf (Elt Ideal) ℓ)

/-! ## What the host operations left in the weight arrays -/

/-- The target columns of the message weights, transposed. -/
theorem V5_eq (c : Dev nD) : (V m c main_v5 : S128x128.Idx → EReal)
    = transpose S128x128 [1, 0] (extractStridedSlice S128x128 ![0, 0] (m ((c.tc : Thread nD τ).loc main_arg2) : S128x257.Idx → EReal) slices_S128x257_S128x128_0_0) transposes_S128x128_S128x128_1_0 := by
  dsimp only [V, hostOps0]; after_results

/-- The source columns of the message weights, transposed. -/
theorem V6_eq (c : Dev nD) : (V m c main_v6 : S128x128.Idx → EReal)
    = transpose S128x128 [1, 0] (extractStridedSlice S128x128 ![0, 128] (m ((c.tc : Thread nD τ).loc main_arg2) : S128x257.Idx → EReal) slices_S128x257_S128x128_0_128) transposes_S128x128_S128x128_1_0 := by
  dsimp only [V, hostOps0]; after_results

/-- The edge column of the message weights, as a row. -/
theorem V4_eq (c : Dev nD) : (V m c main_v4 : S1x128.Idx → EReal)
    = shapeCast S1x128 (shapeCast S128 (extractStridedSlice S128x1 ![0, 256] (m ((c.tc : Thread nD τ).loc main_arg2) : S128x257.Idx → EReal) slices_S128x257_S128x1_0_256) shapeCasts_S128x1_S128) shapeCasts_S128_S1x128 := by
  dsimp only [V, hostOps0]; after_results; rfl

/-- The first half of the update weights' columns, transposed. -/
theorem V9_eq (c : Dev nD) : (V m c main_v9 : S128x128.Idx → EReal)
    = transpose S128x128 [1, 0] (extractStridedSlice S128x128 ![0, 0] (m ((c.tc : Thread nD τ).loc main_arg6) : S128x256.Idx → EReal) slices_S128x256_S128x128_0_0) transposes_S128x128_S128x128_1_0 := by
  dsimp only [V, hostOps0]; after_results

/-- The second half of the update weights' columns, transposed. -/
theorem V10_eq (c : Dev nD) : (V m c main_v10 : S128x128.Idx → EReal)
    = transpose S128x128 [1, 0] (extractStridedSlice S128x128 ![0, 128] (m ((c.tc : Thread nD τ).loc main_arg6) : S128x256.Idx → EReal) slices_S128x256_S128x128_0_128) transposes_S128x128_S128x128_1_0 := by
  dsimp only [V, hostOps0]; after_results

/-- A weight vector as a row. -/
theorem V11_eq (c : Dev nD) : (V m c main_v11 : S1x128.Idx → EReal) = shapeCast S1x128 (m ((c.tc : Thread nD τ).loc main_arg3) : S128.Idx → EReal) shapeCasts_S128_S1x128 := by
  dsimp only [V, hostOps0]; after_results; rfl

/-- A weight vector as a row. -/
theorem V12_eq (c : Dev nD) : (V m c main_v12 : S1x128.Idx → EReal) = shapeCast S1x128 (m ((c.tc : Thread nD τ).loc main_arg4) : S128.Idx → EReal) shapeCasts_S128_S1x128 := by
  dsimp only [V, hostOps0]; after_results; rfl

/-- A weight vector as a row. -/
theorem V13_eq (c : Dev nD) : (V m c main_v13 : S1x128.Idx → EReal) = shapeCast S1x128 (m ((c.tc : Thread nD τ).loc main_arg5) : S128.Idx → EReal) shapeCasts_S128_S1x128 := by
  dsimp only [V, hostOps0]; after_results; rfl

/-- A weight vector as a row. -/
theorem V14_eq (c : Dev nD) : (V m c main_v14 : S1x128.Idx → EReal) = shapeCast S1x128 (m ((c.tc : Thread nD τ).loc main_arg7) : S128.Idx → EReal) shapeCasts_S128_S1x128 := by
  dsimp only [V, hostOps0]; after_results; rfl

/-- A weight vector as a row. -/
theorem V15_eq (c : Dev nD) : (V m c main_v15 : S1x128.Idx → EReal) = shapeCast S1x128 (m ((c.tc : Thread nD τ).loc main_arg8) : S128.Idx → EReal) shapeCasts_S128_S1x128 := by
  dsimp only [V, hostOps0]; after_results; rfl

/-- A weight vector as a row. -/
theorem V16_eq (c : Dev nD) : (V m c main_v16 : S1x128.Idx → EReal) = shapeCast S1x128 (m ((c.tc : Thread nD τ).loc main_arg9) : S128.Idx → EReal) shapeCasts_S128_S1x128 := by
  dsimp only [V, hostOps0]; after_results; rfl

/-! ## The weight windows: each block is its whole array -/

/-- Window 3's block index is (0, 0) at every point. -/
theorem idxW3 : ∀ t : Fin cfg0.N, win0_3.index t (0 : Fin 2) = 0 ∧ win0_3.index t (1 : Fin 2) = 0 :=
  (by decide +kernel : ∀ t : Fin grid0.N, _)
/-- Window 4's block index is (0, 0) at every point. -/
theorem idxW4 : ∀ t : Fin cfg0.N, win0_4.index t (0 : Fin 2) = 0 ∧ win0_4.index t (1 : Fin 2) = 0 :=
  (by decide +kernel : ∀ t : Fin grid0.N, _)
/-- Window 5's block index is (0, 0) at every point. -/
theorem idxW5 : ∀ t : Fin cfg0.N, win0_5.index t (0 : Fin 2) = 0 ∧ win0_5.index t (1 : Fin 2) = 0 :=
  (by decide +kernel : ∀ t : Fin grid0.N, _)
/-- Window 6's block index is (0, 0) at every point. -/
theorem idxW6 : ∀ t : Fin cfg0.N, win0_6.index t (0 : Fin 2) = 0 ∧ win0_6.index t (1 : Fin 2) = 0 :=
  (by decide +kernel : ∀ t : Fin grid0.N, _)
/-- Window 7's block index is (0, 0) at every point. -/
theorem idxW7 : ∀ t : Fin cfg0.N, win0_7.index t (0 : Fin 2) = 0 ∧ win0_7.index t (1 : Fin 2) = 0 :=
  (by decide +kernel : ∀ t : Fin grid0.N, _)
/-- Window 8's block index is (0, 0) at every point. -/
theorem idxW8 : ∀ t : Fin cfg0.N, win0_8.index t (0 : Fin 2) = 0 ∧ win0_8.index t (1 : Fin 2) = 0 :=
  (by decide +kernel : ∀ t : Fin grid0.N, _)
/-- Window 9's block index is (0, 0) at every point. -/
theorem idxW9 : ∀ t : Fin cfg0.N, win0_9.index t (0 : Fin 2) = 0 ∧ win0_9.index t (1 : Fin 2) = 0 :=
  (by decide +kernel : ∀ t : Fin grid0.N, _)
/-- Window 10's block index is (0, 0) at every point. -/
theorem idxW10 : ∀ t : Fin cfg0.N, win0_10.index t (0 : Fin 2) = 0 ∧ win0_10.index t (1 : Fin 2) = 0 :=
  (by decide +kernel : ∀ t : Fin grid0.N, _)
/-- Window 11's block index is (0, 0) at every point. -/
theorem idxW11 : ∀ t : Fin cfg0.N, win0_11.index t (0 : Fin 2) = 0 ∧ win0_11.index t (1 : Fin 2) = 0 :=
  (by decide +kernel : ∀ t : Fin grid0.N, _)
/-- Window 12's block index is (0, 0) at every point. -/
theorem idxW12 : ∀ t : Fin cfg0.N, win0_12.index t (0 : Fin 2) = 0 ∧ win0_12.index t (1 : Fin 2) = 0 :=
  (by decide +kernel : ∀ t : Fin grid0.N, _)
/-- Window 13's block index is (0, 0) at every point. -/
theorem idxW13 : ∀ t : Fin cfg0.N, win0_13.index t (0 : Fin 2) = 0 ∧ win0_13.index t (1 : Fin 2) = 0 :=
  (by decide +kernel : ∀ t : Fin grid0.N, _)

/-- An entry of window 3's block is the same entry of its array. -/
theorem emb3 (t : Fin cfg0.N) (p : Fin 128) (q : Fin 128) :
    ((cfg0.win 3).blk t).view.emb (ix2 p q : S128x128.Idx) = (ix2 p q : S128x128.Idx) := by
  obtain ⟨h0, h1⟩ := idxW3 t
  funext a
  apply Fin.ext
  match a with
  | ⟨0, _⟩ => show win0_3.index t 0 * 128 + 1 * p.val = p.val; rw [h0]; omega
  | ⟨1, _⟩ => show win0_3.index t 1 * 128 + 1 * q.val = q.val; rw [h1]; omega

/-- An entry of window 4's block is the same entry of its array. -/
theorem emb4 (t : Fin cfg0.N) (p : Fin 128) (q : Fin 128) :
    ((cfg0.win 4).blk t).view.emb (ix2 p q : S128x128.Idx) = (ix2 p q : S128x128.Idx) := by
  obtain ⟨h0, h1⟩ := idxW4 t
  funext a
  apply Fin.ext
  match a with
  | ⟨0, _⟩ => show win0_4.index t 0 * 128 + 1 * p.val = p.val; rw [h0]; omega
  | ⟨1, _⟩ => show win0_4.index t 1 * 128 + 1 * q.val = q.val; rw [h1]; omega

/-- An entry of window 9's block is the same entry of its array. -/
theorem emb9 (t : Fin cfg0.N) (p : Fin 128) (q : Fin 128) :
    ((cfg0.win 9).blk t).view.emb (ix2 p q : S128x128.Idx) = (ix2 p q : S128x128.Idx) := by
  obtain ⟨h0, h1⟩ := idxW9 t
  funext a
  apply Fin.ext
  match a with
  | ⟨0, _⟩ => show win0_9.index t 0 * 128 + 1 * p.val = p.val; rw [h0]; omega
  | ⟨1, _⟩ => show win0_9.index t 1 * 128 + 1 * q.val = q.val; rw [h1]; omega

/-- An entry of window 10's block is the same entry of its array. -/
theorem emb10 (t : Fin cfg0.N) (p : Fin 128) (q : Fin 128) :
    ((cfg0.win 10).blk t).view.emb (ix2 p q : S128x128.Idx) = (ix2 p q : S128x128.Idx) := by
  obtain ⟨h0, h1⟩ := idxW10 t
  funext a
  apply Fin.ext
  match a with
  | ⟨0, _⟩ => show win0_10.index t 0 * 128 + 1 * p.val = p.val; rw [h0]; omega
  | ⟨1, _⟩ => show win0_10.index t 1 * 128 + 1 * q.val = q.val; rw [h1]; omega

/-- An entry of window 5's block is the same entry of its array. -/
theorem emb5 (t : Fin cfg0.N) (p : Fin 1) (q : Fin 128) :
    ((cfg0.win 5).blk t).view.emb (ix2 p q : S1x128.Idx) = (ix2 p q : S1x128.Idx) := by
  obtain ⟨h0, h1⟩ := idxW5 t
  funext a
  apply Fin.ext
  match a with
  | ⟨0, _⟩ => show win0_5.index t 0 * 1 + 1 * p.val = p.val; rw [h0]; omega
  | ⟨1, _⟩ => show win0_5.index t 1 * 128 + 1 * q.val = q.val; rw [h1]; omega

/-- An entry of window 6's block is the same entry of its array. -/
theorem emb6 (t : Fin cfg0.N) (p : Fin 1) (q : Fin 128) :
    ((cfg0.win 6).blk t).view.emb (ix2 p q : S1x128.Idx) = (ix2 p q : S1x128.Idx) := by
  obtain ⟨h0, h1⟩ := idxW6 t
  funext a
  apply Fin.ext
  match a with
  | ⟨0, _⟩ => show win0_6.index t 0 * 1 + 1 * p.val = p.val; rw [h0]; omega
  | ⟨1, _⟩ => show win0_6.index t 1 * 128 + 1 * q.val = q.val; rw [h1]; omega

/-- An entry of window 7's block is the same entry of its array. -/
theorem emb7 (t : Fin cfg0.N) (p : Fin 1) (q : Fin 128) :
    ((cfg0.win 7).blk t).view.emb (ix2 p q : S1x128.Idx) = (ix2 p q : S1x128.Idx) := by
  obtain ⟨h0, h1⟩ := idxW7 t
  funext a
  apply Fin.ext
  match a with
  | ⟨0, _⟩ => show win0_7.index t 0 * 1 + 1 * p.val = p.val; rw [h0]; omega
  | ⟨1, _⟩ => show win0_7.index t 1 * 128 + 1 * q.val = q.val; rw [h1]; omega

/-- An entry of window 8's block is the same entry of its array. -/
theorem emb8 (t : Fin cfg0.N) (p : Fin 1) (q : Fin 128) :
    ((cfg0.win 8).blk t).view.emb (ix2 p q : S1x128.Idx) = (ix2 p q : S1x128.Idx) := by
  obtain ⟨h0, h1⟩ := idxW8 t
  funext a
  apply Fin.ext
  match a with
  | ⟨0, _⟩ => show win0_8.index t 0 * 1 + 1 * p.val = p.val; rw [h0]; omega
  | ⟨1, _⟩ => show win0_8.index t 1 * 128 + 1 * q.val = q.val; rw [h1]; omega

/-- An entry of window 11's block is the same entry of its array. -/
theorem emb11 (t : Fin cfg0.N) (p : Fin 1) (q : Fin 128) :
    ((cfg0.win 11).blk t).view.emb (ix2 p q : S1x128.Idx) = (ix2 p q : S1x128.Idx) := by
  obtain ⟨h0, h1⟩ := idxW11 t
  funext a
  apply Fin.ext
  match a with
  | ⟨0, _⟩ => show win0_11.index t 0 * 1 + 1 * p.val = p.val; rw [h0]; omega
  | ⟨1, _⟩ => show win0_11.index t 1 * 128 + 1 * q.val = q.val; rw [h1]; omega

/-- An entry of window 12's block is the same entry of its array. -/
theorem emb12 (t : Fin cfg0.N) (p : Fin 1) (q : Fin 128) :
    ((cfg0.win 12).blk t).view.emb (ix2 p q : S1x128.Idx) = (ix2 p q : S1x128.Idx) := by
  obtain ⟨h0, h1⟩ := idxW12 t
  funext a
  apply Fin.ext
  match a with
  | ⟨0, _⟩ => show win0_12.index t 0 * 1 + 1 * p.val = p.val; rw [h0]; omega
  | ⟨1, _⟩ => show win0_12.index t 1 * 128 + 1 * q.val = q.val; rw [h1]; omega

/-- An entry of window 13's block is the same entry of its array. -/
theorem emb13 (t : Fin cfg0.N) (p : Fin 1) (q : Fin 128) :
    ((cfg0.win 13).blk t).view.emb (ix2 p q : S1x128.Idx) = (ix2 p q : S1x128.Idx) := by
  obtain ⟨h0, h1⟩ := idxW13 t
  funext a
  apply Fin.ext
  match a with
  | ⟨0, _⟩ => show win0_13.index t 0 * 1 + 1 * p.val = p.val; rw [h0]; omega
  | ⟨1, _⟩ => show win0_13.index t 1 * 128 + 1 * q.val = q.val; rw [h1]; omega

/-! ## The weight blocks read at an entry: the stacked matrices' slices, transposed; the vectors as rows -/

theorem blk3_apply (c : Dev nD) (t : Fin cfg0.N) (d e : Fin 128) (k : Fin 257) (hk : k.val = d.val) :
    (iblk m c 3 t : Vec Ideal S128x128 .f32) (ix2 d e) = (m ((c.tc : Thread nD τ).loc main_arg2) : S128x257.Idx → EReal) (ix2 e k) := by
  unfold iblk
  rw [View.read_apply]
  show V m c main_v5 _ = _
  rw [emb3 t d e, V5_eq]
  refine (transpose_ix2_apply _ _ d e).trans ?_
  exact slice2_axis1_apply 0 _ _ e d k (by omega)

theorem blk4_apply (c : Dev nD) (t : Fin cfg0.N) (d e : Fin 128) (k : Fin 257) (hk : k.val = 128 + d.val) :
    (iblk m c 4 t : Vec Ideal S128x128 .f32) (ix2 d e) = (m ((c.tc : Thread nD τ).loc main_arg2) : S128x257.Idx → EReal) (ix2 e k) := by
  unfold iblk
  rw [View.read_apply]
  show V m c main_v6 _ = _
  rw [emb4 t d e, V6_eq]
  refine (transpose_ix2_apply _ _ d e).trans ?_
  exact slice2_axis1_apply 128 _ _ e d k (by omega)

theorem blk5_apply (c : Dev nD) (t : Fin cfg0.N) (e : Fin 128) (k : Fin 257) (hk : k.val = 256) :
    (iblk m c 5 t : Vec Ideal S1x128 .f32) (ix2 (0 : Fin 1) e) = (m ((c.tc : Thread nD τ).loc main_arg2) : S128x257.Idx → EReal) (ix2 e k) := by
  unfold iblk
  rw [View.read_apply]
  show V m c main_v4 _ = _
  rw [emb5 t 0 e, V4_eq]
  refine (shapeCast_a_1a_apply _ _ (0 : Fin 1) e).trans ?_
  refine (shapeCast_apply _ _ (ix1 e) (ix2 e (0 : Fin 1)) (by
    rw [Shape.rowMajor_val_two, Shape.rowMajor_val_one]
    show e.val * 1 + 0 = e.val
    omega)).trans ?_
  exact slice2_axis1_apply 256 _ _ e (0 : Fin 1) k (by rw [hk]; rfl)

theorem blk9_apply (c : Dev nD) (t : Fin cfg0.N) (d e : Fin 128) (k : Fin 256) (hk : k.val = d.val) :
    (iblk m c 9 t : Vec Ideal S128x128 .f32) (ix2 d e) = (m ((c.tc : Thread nD τ).loc main_arg6) : S128x256.Idx → EReal) (ix2 e k) := by
  unfold iblk
  rw [View.read_apply]
  show V m c main_v9 _ = _
  rw [emb9 t d e, V9_eq]
  refine (transpose_ix2_apply _ _ d e).trans ?_
  exact slice2_axis1_apply 0 _ _ e d k (by omega)

theorem blk10_apply (c : Dev nD) (t : Fin cfg0.N) (d e : Fin 128) (k : Fin 256) (hk : k.val = 128 + d.val) :
    (iblk m c 10 t : Vec Ideal S128x128 .f32) (ix2 d e) = (m ((c.tc : Thread nD τ).loc main_arg6) : S128x256.Idx → EReal) (ix2 e k) := by
  unfold iblk
  rw [View.read_apply]
  show V m c main_v10 _ = _
  rw [emb10 t d e, V10_eq]
  refine (transpose_ix2_apply _ _ d e).trans ?_
  exact slice2_axis1_apply 128 _ _ e d k (by omega)

theorem blk6_apply (c : Dev nD) (t : Fin cfg0.N) (e : Fin 128) :
    (iblk m c 6 t : Vec Ideal S1x128 .f32) (ix2 (0 : Fin 1) e) = (m ((c.tc : Thread nD τ).loc main_arg3) : S128.Idx → EReal) (ix1 e) := by
  unfold iblk
  rw [View.read_apply]
  show V m c main_v11 _ = _
  rw [emb6 t 0 e, V11_eq]
  exact shapeCast_a_1a_apply _ _ (0 : Fin 1) e

theorem blk7_apply (c : Dev nD) (t : Fin cfg0.N) (e : Fin 128) :
    (iblk m c 7 t : Vec Ideal S1x128 .f32) (ix2 (0 : Fin 1) e) = (m ((c.tc : Thread nD τ).loc main_arg4) : S128.Idx → EReal) (ix1 e) := by
  unfold iblk
  rw [View.read_apply]
  show V m c main_v12 _ = _
  rw [emb7 t 0 e, V12_eq]
  exact shapeCast_a_1a_apply _ _ (0 : Fin 1) e

theorem blk8_apply (c : Dev nD) (t : Fin cfg0.N) (e : Fin 128) :
    (iblk m c 8 t : Vec Ideal S1x128 .f32) (ix2 (0 : Fin 1) e) = (m ((c.tc : Thread nD τ).loc main_arg5) : S128.Idx → EReal) (ix1 e) := by
  unfold iblk
  rw [View.read_apply]
  show V m c main_v13 _ = _
  rw [emb8 t 0 e, V13_eq]
  exact shapeCast_a_1a_apply _ _ (0 : Fin 1) e

theorem blk11_apply (c : Dev nD) (t : Fin cfg0.N) (e : Fin 128) :
    (iblk m c 11 t : Vec Ideal S1x128 .f32) (ix2 (0 : Fin 1) e) = (m ((c.tc : Thread nD τ).loc main_arg7) : S128.Idx → EReal) (ix1 e) := by
  unfold iblk
  rw [View.read_apply]
  show V m c main_v14 _ = _
  rw [emb11 t 0 e, V14_eq]
  exact shapeCast_a_1a_apply _ _ (0 : Fin 1) e

theorem blk12_apply (c : Dev nD) (t : Fin cfg0.N) (e : Fin 128) :
    (iblk m c 12 t : Vec Ideal S1x128 .f32) (ix2 (0 : Fin 1) e) = (m ((c.tc : Thread nD τ).loc main_arg8) : S128.Idx → EReal) (ix1 e) := by
  unfold iblk
  rw [View.read_apply]
  show V m c main_v15 _ = _
  rw [emb12 t 0 e, V15_eq]
  exact shapeCast_a_1a_apply _ _ (0 : Fin 1) e

theorem blk13_apply (c : Dev nD) (t : Fin cfg0.N) (e : Fin 128) :
    (iblk m c 13 t : Vec Ideal S1x128 .f32) (ix2 (0 : Fin 1) e) = (m ((c.tc : Thread nD τ).loc main_arg9) : S128.Idx → EReal) (ix1 e) := by
  unfold iblk
  rw [View.read_apply]
  show V m c main_v16 _ = _
  rw [emb13 t 0 e, V16_eq]
  exact shapeCast_a_1a_apply _ _ (0 : Fin 1) e

/-- Two weight records with the same fields are equal. -/
theorem params_ext {P Q : Params} (h1 : P.Wt = Q.Wt) (h2 : P.Ws = Q.Ws) (h3 : P.wJ = Q.wJ) (h4 : P.bm = Q.bm) (h5 : P.gm = Q.gm)
    (h6 : P.βm = Q.βm) (h7 : P.Wu1 = Q.Wu1) (h8 : P.Wu2 = Q.Wu2) (h9 : P.bu = Q.bu) (h10 : P.gu = Q.gu) (h11 : P.βu = Q.βu) : P = Q := by
  cases P; cases Q; dsimp only at *; subst_vars; rfl

/-- At every grid point the eleven weight blocks hold the layer's weights. -/
theorem blockParams_iblk (c : Dev nD) (t : Fin cfg0.N) :
    blockParams (iblk m c 3 t) (iblk m c 4 t) (iblk m c 5 t) (iblk m c 6 t) (iblk m c 7 t) (iblk m c 8 t) (iblk m c 9 t) (iblk m c 10 t) (iblk m c 11 t) (iblk m c 12 t) (iblk m c 13 t)
      = globalParams (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine params_ext ?_ ?_ ?_ ?_ ?_ ?_ ?_ ?_ ?_ ?_ ?_
  · funext d e; exact blk3_apply m c t d e _ rfl
  · funext d e; exact blk4_apply m c t d e _ rfl
  · funext e; exact blk5_apply m c t e _ rfl
  · funext e; exact blk6_apply m c t e
  · funext e; exact blk7_apply m c t e
  · funext e; exact blk8_apply m c t e
  · funext d e; exact blk9_apply m c t d e _ rfl
  · funext d e; exact blk10_apply m c t d e _ rfl
  · funext e; exact blk11_apply m c t e
  · funext e; exact blk12_apply m c t e
  · funext e; exact blk13_apply m c t e

end Cert.KernelIdeal.Hand

end
-- ==== Proof.KArray.lean ====
/-
  From the kernel's blocks to its result array. Grid point `t = (b, it)` reads rows 64·it … 64·it+63 of batch `b` of
  the node features as its target tile, all 256 rows of batch `b` as its sources, the same rows of the edge scalars,
  and the weight blocks the host operations cut out of the stacked weight matrices and transposed; it writes rows
  64·it … 64·it+63 of batch `b` of the result. The 32 written blocks tile the result array, so after the run entry
  `(b, i, e)` of the result is the layer's row form at node `i` of batch `b`, the node's own message masked out.
-/
import proofs.«108111_j42099269435680_1_alg».proof.Proof.KI.Data
import proofs.«108111_j42099269435680_1_alg».proof.Proof.KPoint
import proofs.«108111_j42099269435680_1_alg».proof.Proof.Global
import proofs.«108111_j42099269435680_1_alg».proof.Proof.KArrayParams
import Idealize.ShloMosaic.Lib.Pipeline.Value
import Idealize.ShloMosaic.Lib.ValueLayout
import Idealize.ShloMosaic.Lib.Tactic

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gnn

variable (m : (ℓ : Loc nD τ sig) → Buf (Elt Ideal) ℓ)

/-! ## The index maps over the grid: point `t` is batch `t / 4`, tile `t % 4` -/

/-- The zero offsets of a whole rank-3 block. -/
theorem hz3 : (![0, 0, 0] : Fin 3 → Nat) = fun _ => 0 := funext fun a => by fin_cases a <;> rfl
/-- The zero offsets of a whole rank-2 block. -/
theorem hz2 : (![0, 0] : Fin 2 → Nat) = fun _ => 0 := funext fun a => by fin_cases a <;> rfl

/-- The block indices of the four tiled windows and the tile coordinate, decided over the 32 points. -/
theorem idxF : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_14.index t (0 : Fin 3) = t.val / 4 ∧ win0_14.index t (1 : Fin 3) = t.val % 4 ∧ win0_14.index t (2 : Fin 3) = 0
    ∧ ((grid0.coords t) 1).val = t.val % 4 :=
  (by decide +kernel : ∀ t : Fin grid0.N, _)

/-! ## The data blocks read at an entry -/

/-- The target tile: rows `64 · (t % 4) …` of batch `t / 4` of the node features. -/
theorem blk0_apply (c : Dev nD) (t : Fin cfg0.N) (x : S1x64x128.Idx) (k : S8x256x128.Idx)
    (hk0 : (k 0).val = t.val / 4) (hk1 : (k 1).val = 64 * (t.val % 4) + (x 1).val) (hk2 : (k 2).val = (x 2).val) :
    (iblk m c 0 t : Vec Ideal S1x64x128 .f32) x = (m ((c.tc : Thread nD τ).loc main_arg0) : S8x256x128.Idx → EReal) k := by
  obtain ⟨e0, e1, e2, -⟩ := idxF t
  unfold iblk
  rw [View.read_apply]
  show V m c main_arg0 _ = m (c.tc.loc main_arg0) _
  rw [V_main_arg0]
  congr 1
  funext a
  apply Fin.ext
  have hx0 : (x 0).val < 1 := (x 0).isLt
  match a with
  | ⟨0, _⟩ => show win0_0.index t 0 * 1 + 1 * (x 0).val = (k 0).val; rw [e0, hk0]; omega
  | ⟨1, _⟩ => show win0_0.index t 1 * 64 + 1 * (x 1).val = (k 1).val; rw [e1, hk1]; omega
  | ⟨2, _⟩ => show win0_0.index t 2 * 128 + 1 * (x 2).val = (k 2).val; rw [e2, hk2]; omega

/-- The sources: all rows of batch `t / 4` of the node features. -/
theorem blk1_apply (c : Dev nD) (t : Fin cfg0.N) (x : S1x256x128.Idx) (k : S8x256x128.Idx)
    (hk0 : (k 0).val = t.val / 4) (hk1 : (k 1).val = (x 1).val) (hk2 : (k 2).val = (x 2).val) :
    (iblk m c 1 t : Vec Ideal S1x256x128 .f32) x = (m ((c.tc : Thread nD τ).loc main_arg0) : S8x256x128.Idx → EReal) k := by
  obtain ⟨-, -, -, e0, e1, e2, -⟩ := idxF t
  unfold iblk
  rw [View.read_apply]
  show V m c main_arg0 _ = m (c.tc.loc main_arg0) _
  rw [V_main_arg0]
  congr 1
  funext a
  apply Fin.ext
  have hx0 : (x 0).val < 1 := (x 0).isLt
  match a with
  | ⟨0, _⟩ => show win0_1.index t 0 * 1 + 1 * (x 0).val = (k 0).val; rw [e0, hk0]; omega
  | ⟨1, _⟩ => show win0_1.index t 1 * 256 + 1 * (x 1).val = (k 1).val; rw [e1, hk1]; omega
  | ⟨2, _⟩ => show win0_1.index t 2 * 128 + 1 * (x 2).val = (k 2).val; rw [e2, hk2]; omega

/-- The tile's edge scalars: rows `64 · (t % 4) …` of batch `t / 4`. -/
theorem blk2_apply (c : Dev nD) (t : Fin cfg0.N) (x : S1x64x256.Idx) (k : S8x256x256.Idx)
    (hk0 : (k 0).val = t.val / 4) (hk1 : (k 1).val = 64 * (t.val % 4) + (x 1).val) (hk2 : (k 2).val = (x 2).val) :
    (iblk m c 2 t : Vec Ideal S1x64x256 .f32) x = (m ((c.tc : Thread nD τ).loc main_arg1) : S8x256x256.Idx → EReal) k := by
  obtain ⟨-, -, -, -, -, -, e0, e1, e2, -⟩ := idxF t
  unfold iblk
  rw [View.read_apply]
  show V m c main_arg1 _ = m (c.tc.loc main_arg1) _
  rw [V_main_arg1]
  congr 1
  funext a
  apply Fin.ext
  have hx0 : (x 0).val < 1 := (x 0).isLt
  match a with
  | ⟨0, _⟩ => show win0_2.index t 0 * 1 + 1 * (x 0).val = (k 0).val; rw [e0, hk0]; omega
  | ⟨1, _⟩ => show win0_2.index t 1 * 64 + 1 * (x 1).val = (k 1).val; rw [e1, hk1]; omega
  | ⟨2, _⟩ => show win0_2.index t 2 * 256 + 1 * (x 2).val = (k 2).val; rw [e2, hk2]; omega

/-! ## One grid point's stored block is its rows of the layer's result -/

/-- The result the kernel computes, as one array. -/
def resultArr (c : Dev nD) : S8x256x128.Idx → EReal := fun k =>
  kernelVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ⟨(k 0).val, (k 0).isLt⟩ ⟨(k 1).val, (k 1).isLt⟩ ⟨(k 2).val, (k 2).isLt⟩

/-- Row `r` of the block stored at point `t` is node `64 · (t % 4) + r` of batch `t / 4`. -/
theorem point_eq (c : Dev nD) (t : Fin cfg0.N) (y : S1x64x128.Idx) (b : Fin 8) (i : Fin 256) (e : Fin 128)
    (hb : b.val = t.val / 4) (hi : i.val = 64 * (t.val % 4) + (y 1).val) (he : e.val = (y 2).val) :
    payOut (F := Ideal) (BitVec.ofNat 32 ((cfg0.grid.coords t) 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = kernelVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b i e := by
  obtain ⟨u, r, e', rfl⟩ : ∃ (u : Fin 1) (r : Fin 64) (e' : Fin 128), y = ix3 u r e' := ⟨y 0, y 1, y 2, eq_ix3 y⟩
  obtain rfl : u = 0 := Subsingleton.elim _ _
  obtain rfl : e = e' := Fin.ext he
  have hi' : i.val = 64 * (t.val % 4) + r.val := hi
  have hlt : t.val % 4 < 4 := Nat.mod_lt _ (by omega)
  have hit : ((cfg0.grid.coords t) 1).val = (⟨t.val % 4, hlt⟩ : Fin 4).val := (idxF t).2.2.2.2.2.2.2.2.2.2.2.2
  rw [hit]
  refine (payOut_apply ⟨t.val % 4, hlt⟩ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r e).trans ?_
  rw [blockParams_iblk m c t]
  unfold kernelVal
  have hrow : (fun d => (iblk m c 0 t : Vec Ideal S1x64x128 .f32) (ix3 (0 : Fin 1) r d)) = fun d => (m ((c.tc : Thread nD τ).loc main_arg0)) (ix3 b i d) :=
    funext fun d => blk0_apply m c t (ix3 (0 : Fin 1) r d) (ix3 b i d) hb hi' rfl
  have hall : (fun (j : Fin 256) (d : Fin 128) => (iblk m c 1 t : Vec Ideal S1x256x128 .f32) (ix3 (0 : Fin 1) j d)) = fun j d => (m ((c.tc : Thread nD τ).loc main_arg0)) (ix3 b j d) :=
    funext fun j => funext fun d => blk1_apply m c t (ix3 (0 : Fin 1) j d) (ix3 b j d) hb rfl rfl
  have harow : (fun (j : Fin 256) => (iblk m c 2 t : Vec Ideal S1x64x256 .f32) (ix3 (0 : Fin 1) r j)) = fun j => (m ((c.tc : Thread nD τ).loc main_arg1)) (ix3 b i j) :=
    funext fun j => blk2_apply m c t (ix3 (0 : Fin 1) r j) (ix3 b i j) hb hi' rfl
  have hmask : dropMask (64 * (⟨t.val % 4, hlt⟩ : Fin 4).val + r.val) = dropMask i.val := by rw [hi']
  rw [hrow, hall, harow, hmask]

/-! ## The written blocks tile the result array -/

/-- What point `t` writes back is its block of the result. -/
theorem flushed_eq (c : Dev nD) (t : Fin cfg0.N) :
    (dats (F := Ideal) m 0 c).flushed 14 t = ((cfg0.win 14).blk t).view.read (Elt Ideal) (resultArr m c) := by
  show (cfg0.win 14).cut (grid0.coords t) ((dats m 0 c).after 14 t) = _
  rw [after14]
  unfold out14
  rw [View.canon_unit_zero hz3]
  simp only [View.ld_unit_zero (S := S1x64x128) hz3, View.ld_unit_zero (S := S1x256x128) hz3, View.ld_unit_zero (S := S1x64x256) hz3,
    View.ld_unit_zero (S := S128x128) hz2, View.ld_unit_zero (S := S1x128) hz2]
  obtain ⟨-, -, -, -, -, -, -, -, -, e0, e1, e2, -⟩ := idxF t
  funext j
  rw [View.read_apply]
  refine point_eq m c t _ _ _ _ ?_ ?_ ?_
  · show win0_14.index t 0 * 1 + 1 * (j 0).val = t.val / 4
    have hj : (j 0).val < 1 := (j 0).isLt
    omega
  · show win0_14.index t 1 * 64 + 1 * (j 1).val = 64 * (t.val % 4) + (j 1).val
    omega
  · show win0_14.index t 2 * 128 + 1 * (j 2).val = (j 2).val
    omega

/-- An index of the result array is in point `t`'s block iff each coordinate is in the block's range on its axis. -/
theorem mem_blk14 (t : Fin cfg0.N) (i : S8x256x128.Idx) :
    i ∈ ((cfg0.win 14).blk t).view.set ↔ ∀ a : Fin 3, win0_14.index t a * S1x64x128.size a ≤ (i a).val ∧ (i a).val < win0_14.index t a * S1x64x128.size a + S1x64x128.size a := by
  show i ∈ ((View.whole main_v17).slice (win0_14.rect t)).set ↔ _
  rw [View.set_slice_whole, Rect.mem_set_unit]
  exact Iff.rfl

/-- Entry `(b, i, ·)` is in the block of point `4 · b + i / 64`. -/
theorem result_covered (i : S8x256x128.Idx) : ∃ t : Fin cfg0.N, (cfg0.win 14).flush t = true ∧ i ∈ ((cfg0.win 14).blk t).view.set := by
  have h0 : (i 0).val < 8 := (i 0).isLt
  have h1 : (i 1).val < 256 := (i 1).isLt
  have h2 : (i 2).val < 128 := (i 2).isLt
  refine ⟨⟨4 * (i 0).val + (i 1).val / 64, by rw [show cfg0.N = 32 from N_0]; omega⟩, flush0_14 _, ?_⟩
  rw [mem_blk14]
  obtain ⟨-, -, -, -, -, -, -, -, -, e0, e1, e2, -⟩ := idxF ⟨4 * (i 0).val + (i 1).val / 64, by rw [show cfg0.N = 32 from N_0]; omega⟩
  intro a
  match a with
  | ⟨0, _⟩ => show win0_14.index _ 0 * 1 ≤ (i 0).val ∧ (i 0).val < win0_14.index _ 0 * 1 + 1; rw [e0]; dsimp only; omega
  | ⟨1, _⟩ => show win0_14.index _ 1 * 64 ≤ (i 1).val ∧ (i 1).val < win0_14.index _ 1 * 64 + 64; rw [e1]; dsimp only; omega
  | ⟨2, _⟩ => show win0_14.index _ 2 * 128 ≤ (i 2).val ∧ (i 2).val < win0_14.index _ 2 * 128 + 128; rw [e2]; omega

/-- The result array after the last grid point, entry by entry. -/
theorem final (c : Dev nD) (b : Fin 8) (i : Fin 256) (e : Fin 128) :
    ((dats (F := Ideal) m 0 c).arrAt 14 cfg0.N : S8x256x128.Idx → EReal) (ix3 b i e)
      = kernelVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b i e := by
  rw [(dats (F := Ideal) m 0 c).arrAt_eq_of_cover 14 (resultArr m c) (fun t _ => flushed_eq m c t) result_covered]
  rfl

end Cert.KernelIdeal.Hand

end
-- ==== Proof.RefRun.lean ====
/-
  The reference program's run: a straight line of 127 host operations. Every weakly fair execution terminates with
  the result buffer at the last stage's value of the argument arrays and the arguments unchanged. The stages are
  the operations one at a time, each a function of the arguments it depends on. The program is the sequence of its
  operations; after the sequence every buffer holds the fold of the operations' results over the launch contents.
  Read at the result buffer, the fold is the composition of the operations' functions over the arguments' contents,
  and that composition is the last stage once each stage is opened into its operation applied to the stages before
  it. Read at an argument, the fold is the argument's launch contents, since no operation writes an argument.
-/
import proofs.«108111_j42099269435680_1_alg».proof.Defs
import proofs.«108111_j42099269435680_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 127 operations, in order; a called function's operations stand at its call site, over the call's
    own buffers. -/
abbrev ops : List (HloOp τ sig (Elt F)) :=
  [ unary main_arg2 main_v0 ((extractStridedSlice S128x128 ![0, 0] · slices_S128x257_S128x128_0_0) : (⟨S128x257, .f32⟩ : BufTy).Contents (Elt F) → (⟨S128x128, .f32⟩ : BufTy).Contents (Elt F)),
    unary main_arg2 main_v1 ((extractStridedSlice S128x128 ![0, 128] · slices_S128x257_S128x128_0_128) : (⟨S128x257, .f32⟩ : BufTy).Contents (Elt F) → (⟨S128x128, .f32⟩ : BufTy).Contents (Elt F)),
    unary main_arg2 main_v2 ((extractStridedSlice S128x1 ![0, 256] · slices_S128x257_S128x1_0_256) : (⟨S128x257, .f32⟩ : BufTy).Contents (Elt F) → (⟨S128x1, .f32⟩ : BufTy).Contents (Elt F)),
    reshape main_v2 main_v3 rfl shapeCasts_S128x1_S128,
    binary main_arg0 main_v0 main_v4 ((fun l r => Host.dotGeneral dot_S8x256x128_S128x128_S8x256x128_2_1_01_0_n_n none l r) : (⟨S8x256x128, .f32⟩ : BufTy).Contents (Elt F) → (⟨S128x128, .f32⟩ : BufTy).Contents (Elt F) → (⟨S8x256x128, .f32⟩ : BufTy).Contents (Elt F)),
    unary main_v4 main_v5 (broadcastInDim S8x256x1x128 ![0, 1, 3] bcast_S8x256x128_S8x256x1x128_0_1_3 : (⟨S8x256x128, .f32⟩ : BufTy).Contents (Elt F) → (⟨S8x256x1x128, .f32⟩ : BufTy).Contents (Elt F)),
    binary main_arg0 main_v1 main_v6 ((fun l r => Host.dotGeneral dot_S8x256x128_S128x128_S8x256x128_2_1_01_0_n_n none l r) : (⟨S8x256x128, .f32⟩ : BufTy).Contents (Elt F) → (⟨S128x128, .f32⟩ : BufTy).Contents (Elt F) → (⟨S8x256x128, .f32⟩ : BufTy).Contents (Elt F)),
    unary main_v6 main_v7 (broadcastInDim S8x1x256x128 ![0, 2, 3] bcast_S8x256x128_S8x1x256x128_0_2_3 : (⟨S8x256x128, .f32⟩ : BufTy).Contents (Elt F) → (⟨S8x1x256x128, .f32⟩ : BufTy).Contents (Elt F)),
    unary main_v5 main_v8 (broadcastInDim S8x256x256x128 ![0, 1, 2, 3] bcast_S8x256x1x128_S8x256x256x128_0_1_2_3 : (⟨S8x256x1x128, .f32⟩ : BufTy).Contents (Elt F) → (⟨S8x256x256x128, .f32⟩ : BufTy).Contents (Elt F)),
    unary main_v7 main_v9 (broadcastInDim S8x256x256x128 ![0, 1, 2, 3] bcast_S8x1x256x128_S8x256x256x128_0_1_2_3 : (⟨S8x1x256x128, .f32⟩ : BufTy).Contents (Elt F) → (⟨S8x256x256x128, .f32⟩ : BufTy).Contents (Elt F)),
    binary main_v8 main_v9 main_v10 (addf : (⟨S8x256x256x128, .f32⟩ : BufTy).Contents (Elt F) → (⟨S8x256x256x128, .f32⟩ : BufTy).Contents (Elt F) → (⟨S8x256x256x128, .f32⟩ : BufTy).Contents (Elt F)),
    unary main_arg1 main_v11 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    unary main_v3 main_v12 (broadcastInDim S1x1x1x128 ![3] bcast_S128_S1x1x1x128_3 : (⟨S128, .f32⟩ : BufTy).Contents (Elt F) → (⟨S1x1x1x128, .f32⟩ : BufTy).Contents (Elt F)),
    unary main_v11 main_v13 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    unary main_v12 main_v14 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v13 main_v14 main_v15 (mulf : (⟨S8x256x256x128, .f32⟩ : BufTy).Contents (Elt F) → (⟨S8x256x256x128, .f32⟩ : BufTy).Contents (Elt F) → (⟨S8x256x256x128, .f32⟩ : BufTy).Contents (Elt F)),
    binary main_v10 main_v15 main_v16 (addf : (⟨S8x256x256x128, .f32⟩ : BufTy).Contents (Elt F) → (⟨S8x256x256x128, .f32⟩ : BufTy).Contents (Elt F) → (⟨S8x256x256x128, .f32⟩ : BufTy).Contents (Elt F)),
    unary main_arg3 main_v17 (broadcastInDim S1x1x1x128 ![3] bcast_S128_S1x1x1x128_3 : (⟨S128, .f32⟩ : BufTy).Contents (Elt F) → (⟨S1x1x1x128, .f32⟩ : BufTy).Contents (Elt F)),
    unary main_v17 main_v18 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v16 main_v18 main_v19 (addf : (⟨S8x256x256x128, .f32⟩ : BufTy).Contents (Elt F) → (⟨S8x256x256x128, .f32⟩ : BufTy).Contents (Elt F) → (⟨S8x256x256x128, .f32⟩ : BufTy).Contents (Elt F)),
    nullary main_cst (constant S_ .f32 0x00000000#32),
    binary main_v19 main_cst main_v20 ((fun x v => Host.reduceAdd x v reducesTo_S8x256x256x128_S8x256x256_d3 h_S_) : (⟨S8x256x256x128, .f32⟩ : BufTy).Contents (Elt F) → (⟨S_, .f32⟩ : BufTy).Contents (Elt F) → (⟨S8x256x256, .f32⟩ : BufTy).Contents (Elt F)),
    unary main_v20 main_v21 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    nullary main_cst_0 (constant S_ .f32 0x43000000#32),
    unary main_cst_0 main_v22 (broadcastInDim S8x256x256x1 ![] bcast_S_S8x256x256x1 : (⟨S_, .f32⟩ : BufTy).Contents (Elt F) → (⟨S8x256x256x1, .f32⟩ : BufTy).Contents (Elt F)),
    binary main_v21 main_v22 main_v23 (Host.divf : (⟨S8x256x256x1, .f32⟩ : BufTy).Contents (Elt F) → (⟨S8x256x256x1, .f32⟩ : BufTy).Contents (Elt F) → (⟨S8x256x256x1, .f32⟩ : BufTy).Contents (Elt F)),
    unary main_v23 main_v24 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v19 main_v24 main_v25 (subf : (⟨S8x256x256x128, .f32⟩ : BufTy).Contents (Elt F) → (⟨S8x256x256x128, .f32⟩ : BufTy).Contents (Elt F) → (⟨S8x256x256x128, .f32⟩ : BufTy).Contents (Elt F)),
    binary main_v25 main_v25 main_v26 (mulf : (⟨S8x256x256x128, .f32⟩ : BufTy).Contents (Elt F) → (⟨S8x256x256x128, .f32⟩ : BufTy).Contents (Elt F) → (⟨S8x256x256x128, .f32⟩ : BufTy).Contents (Elt F)),
    nullary main_cst_1 (constant S_ .f32 0x00000000#32),
    binary main_v26 main_cst_1 main_v27 ((fun x v => Host.reduceAdd x v reducesTo_S8x256x256x128_S8x256x256_d3 h_S_) : (⟨S8x256x256x128, .f32⟩ : BufTy).Contents (Elt F) → (⟨S_, .f32⟩ : BufTy).Contents (Elt F) → (⟨S8x256x256, .f32⟩ : BufTy).Contents (Elt F)),
    unary main_v27 main_v28 (broadcastInDim S8x256x256x1 ![0, 1, 2] bcast_S8x256x256_S8x256x256x1_0_1_2 : (⟨S8x256x256, .f32⟩ : BufTy).Contents (Elt F) → (⟨S8x256x256x1, .f32⟩ : BufTy).Contents (Elt F)),
    nullary main_cst_2 (constant S_ .f32 0x43000000#32),
    unary main_cst_2 main_v29 (broadcastInDim S8x256x256x1 ![] bcast_S_S8x256x256x1 : (⟨S_, .f32⟩ : BufTy).Contents (Elt F) → (⟨S8x256x256x1, .f32⟩ : BufTy).Contents (Elt F)),
    binary main_v28 main_v29 main_v30 (Host.divf : (⟨S8x256x256x1, .f32⟩ : BufTy).Contents (Elt F) → (⟨S8x256x256x1, .f32⟩ : BufTy).Contents (Elt F) → (⟨S8x256x256x1, .f32⟩ : BufTy).Contents (Elt F)),
    unary main_v23 main_v31 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v19 main_v31 main_v32 (subf : (⟨S8x256x256x128, .f32⟩ : BufTy).Contents (Elt F) → (⟨S8x256x256x128, .f32⟩ : BufTy).Contents (Elt F) → (⟨S8x256x256x128, .f32⟩ : BufTy).Contents (Elt F)),
    nullary main_cst_3 (constant S_ .f32 0x3727C5AC#32),
    unary main_cst_3 main_v33 (broadcastInDim S8x256x256x1 ![] bcast_S_S8x256x256x1 : (⟨S_, .f32⟩ : BufTy).Contents (Elt F) → (⟨S8x256x256x1, .f32⟩ : BufTy).Contents (Elt F)),
    binary main_v30 main_v33 main_v34 (addf : (⟨S8x256x256x1, .f32⟩ : BufTy).Contents (Elt F) → (⟨S8x256x256x1, .f32⟩ : BufTy).Contents (Elt F) → (⟨S8x256x256x1, .f32⟩ : BufTy).Contents (Elt F)),
    unary main_v34 main_v35 (Host.rsqrt : (⟨S8x256x256x1, .f32⟩ : BufTy).Contents (Elt F) → (⟨S8x256x256x1, .f32⟩ : BufTy).Contents (Elt F)),
    unary main_v35 main_v36 (broadcastInDim S8x256x256x128 ![0, 1, 2, 3] bcast_S8x256x256x1_S8x256x256x128_0_1_2_3 : (⟨S8x256x256x1, .f32⟩ : BufTy).Contents (Elt F) → (⟨S8x256x256x128, .f32⟩ : BufTy).Contents (Elt F)),
    binary main_v32 main_v36 main_v37 (mulf : (⟨S8x256x256x128, .f32⟩ : BufTy).Contents (Elt F) → (⟨S8x256x256x128, .f32⟩ : BufTy).Contents (Elt F) → (⟨S8x256x256x128, .f32⟩ : BufTy).Contents (Elt F)),
    unary main_arg4 main_v38 (broadcastInDim S1x1x1x128 ![3] bcast_S128_S1x1x1x128_3 : (⟨S128, .f32⟩ : BufTy).Contents (Elt F) → (⟨S1x1x1x128, .f32⟩ : BufTy).Contents (Elt F)),
    unary main_v38 main_v39 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v37 main_v39 main_v40 (mulf : (⟨S8x256x256x128, .f32⟩ : BufTy).Contents (Elt F) → (⟨S8x256x256x128, .f32⟩ : BufTy).Contents (Elt F) → (⟨S8x256x256x128, .f32⟩ : BufTy).Contents (Elt F)),
    unary main_arg5 main_v41 (broadcastInDim S1x1x1x128 ![3] bcast_S128_S1x1x1x128_3 : (⟨S128, .f32⟩ : BufTy).Contents (Elt F) → (⟨S1x1x1x128, .f32⟩ : BufTy).Contents (Elt F)),
    unary main_v41 main_v42 (broadcastInDim S8x256x256x128 ![0, 1, 2, 3] bcast_S1x1x1x128_S8x256x256x128_0_1_2_3 : (⟨S1x1x1x128, .f32⟩ : BufTy).Contents (Elt F) → (⟨S8x256x256x128, .f32⟩ : BufTy).Contents (Elt F)),
    binary main_v40 main_v42 main_v43 (addf : (⟨S8x256x256x128, .f32⟩ : BufTy).Contents (Elt F) → (⟨S8x256x256x128, .f32⟩ : BufTy).Contents (Elt F) → (⟨S8x256x256x128, .f32⟩ : BufTy).Contents (Elt F)),
    TRef.unary (TRef.of (T := ⟨S8x256x256x128, .f32⟩) main_v43) (TRef.of (T := ⟨S8x256x256x128, .f32⟩) main_call0_v0) Host.negf,
    TRef.unary (TRef.of (T := ⟨S8x256x256x128, .f32⟩) main_call0_v0) (TRef.of (T := ⟨S8x256x256x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S8x256x256x128, .f32⟩) main_call0_v2) (broadcastInDim S8x256x256x128 ![] bcast_S_S8x256x256x128),
    TRef.binary (TRef.of (T := ⟨S8x256x256x128, .f32⟩) main_call0_v2) (TRef.of (T := ⟨S8x256x256x128, .f32⟩) main_call0_v1) (TRef.of (T := ⟨S8x256x256x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S8x256x256x128, .f32⟩) main_call0_v4) (broadcastInDim S8x256x256x128 ![] bcast_S_S8x256x256x128),
    TRef.binary (TRef.of (T := ⟨S8x256x256x128, .f32⟩) main_call0_v4) (TRef.of (T := ⟨S8x256x256x128, .f32⟩) main_call0_v3) (TRef.of (T := ⟨S8x256x256x128, .f32⟩) main_call0_v5) Host.divf,
    TRef.binary (TRef.of (T := ⟨S8x256x256x128, .f32⟩) main_v43) (TRef.of (T := ⟨S8x256x256x128, .f32⟩) main_call0_v5) (TRef.of (T := ⟨S8x256x256x128, .f32⟩) main_v44) mulf,
    nullary main_v45 (iotaInDim S256 32 0),
    nullary main_cst_4 (constant S_ .f32 0x00000000#32),
    binary main_v44 main_cst_4 main_v46 ((fun x v => Host.reduceAdd x v reducesTo_S8x256x256x128_S8x256x128_d2 h_S_) : (⟨S8x256x256x128, .f32⟩ : BufTy).Contents (Elt F) → (⟨S_, .f32⟩ : BufTy).Contents (Elt F) → (⟨S8x256x128, .f32⟩ : BufTy).Contents (Elt F)),
    nullary main_c (constantI S_ 32 0#32),
    unary main_c main_v47 (broadcastInDim S256 ![] bcast_S_S256 : (⟨S_, .i32⟩ : BufTy).Contents (Elt F) → (⟨S256, .i32⟩ : BufTy).Contents (Elt F)),
    binary main_v45 main_v47 main_v48 (cmpi .slt : (⟨S256, .i32⟩ : BufTy).Contents (Elt F) → (⟨S256, .i32⟩ : BufTy).Contents (Elt F) → (⟨S256, .i1⟩ : BufTy).Contents (Elt F)),
    nullary main_c_5 (constantI S_ 32 256#32),
    unary main_c_5 main_v49 (broadcastInDim S256 ![] bcast_S_S256 : (⟨S_, .i32⟩ : BufTy).Contents (Elt F) → (⟨S256, .i32⟩ : BufTy).Contents (Elt F)),
    binary main_v45 main_v49 main_v50 (addi : (⟨S256, .i32⟩ : BufTy).Contents (Elt F) → (⟨S256, .i32⟩ : BufTy).Contents (Elt F) → (⟨S256, .i32⟩ : BufTy).Contents (Elt F)),
    ternary main_v48 main_v50 main_v45 main_v51 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    nullary main_c_6 (constantI S_ 32 0#32),
    unary main_c_6 main_v52 (broadcastInDim S256 ![] bcast_S_S256 : (⟨S_, .i32⟩ : BufTy).Contents (Elt F) → (⟨S256, .i32⟩ : BufTy).Contents (Elt F)),
    binary main_v45 main_v52 main_v53 (cmpi .slt : (⟨S256, .i32⟩ : BufTy).Contents (Elt F) → (⟨S256, .i32⟩ : BufTy).Contents (Elt F) → (⟨S256, .i1⟩ : BufTy).Contents (Elt F)),
    nullary main_c_7 (constantI S_ 32 256#32),
    unary main_c_7 main_v54 (broadcastInDim S256 ![] bcast_S_S256 : (⟨S_, .i32⟩ : BufTy).Contents (Elt F) → (⟨S256, .i32⟩ : BufTy).Contents (Elt F)),
    binary main_v45 main_v54 main_v55 (addi : (⟨S256, .i32⟩ : BufTy).Contents (Elt F) → (⟨S256, .i32⟩ : BufTy).Contents (Elt F) → (⟨S256, .i32⟩ : BufTy).Contents (Elt F)),
    ternary main_v53 main_v55 main_v45 main_v56 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v51 main_v57 (broadcastInDim S256x1 ![0] bcast_S256_S256x1_0 : (⟨S256, .i32⟩ : BufTy).Contents (Elt F) → (⟨S256x1, .i32⟩ : BufTy).Contents (Elt F)),
    unary main_v56 main_v58 (broadcastInDim S256x1 ![0] bcast_S256_S256x1_0 : (⟨S256, .i32⟩ : BufTy).Contents (Elt F) → (⟨S256x1, .i32⟩ : BufTy).Contents (Elt F)),
    binary main_v57 main_v58 main_v59 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    binary main_v44 main_v59 main_v60 ((fun x i => Host.gather gather_S8x256x256x128_S256x2_S8x256x128_02_12_n_n_12_1_811128 x i) : (⟨S8x256x256x128, .f32⟩ : BufTy).Contents (Elt F) → (⟨S256x2, .i32⟩ : BufTy).Contents (Elt F) → (⟨S8x256x128, .f32⟩ : BufTy).Contents (Elt F)),
    binary main_v46 main_v60 main_v61 (subf : (⟨S8x256x128, .f32⟩ : BufTy).Contents (Elt F) → (⟨S8x256x128, .f32⟩ : BufTy).Contents (Elt F) → (⟨S8x256x128, .f32⟩ : BufTy).Contents (Elt F)),
    unary main_arg6 main_v62 ((extractStridedSlice S128x128 ![0, 0] · slices_S128x256_S128x128_0_0) : (⟨S128x256, .f32⟩ : BufTy).Contents (Elt F) → (⟨S128x128, .f32⟩ : BufTy).Contents (Elt F)),
    binary main_arg0 main_v62 main_v63 ((fun l r => Host.dotGeneral dot_S8x256x128_S128x128_S8x256x128_2_1_01_0_n_n none l r) : (⟨S8x256x128, .f32⟩ : BufTy).Contents (Elt F) → (⟨S128x128, .f32⟩ : BufTy).Contents (Elt F) → (⟨S8x256x128, .f32⟩ : BufTy).Contents (Elt F)),
    unary main_arg6 main_v64 ((extractStridedSlice S128x128 ![0, 128] · slices_S128x256_S128x128_0_128) : (⟨S128x256, .f32⟩ : BufTy).Contents (Elt F) → (⟨S128x128, .f32⟩ : BufTy).Contents (Elt F)),
    binary main_v61 main_v64 main_v65 ((fun l r => Host.dotGeneral dot_S8x256x128_S128x128_S8x256x128_2_1_01_0_n_n none l r) : (⟨S8x256x128, .f32⟩ : BufTy).Contents (Elt F) → (⟨S128x128, .f32⟩ : BufTy).Contents (Elt F) → (⟨S8x256x128, .f32⟩ : BufTy).Contents (Elt F)),
    binary main_v63 main_v65 main_v66 (addf : (⟨S8x256x128, .f32⟩ : BufTy).Contents (Elt F) → (⟨S8x256x128, .f32⟩ : BufTy).Contents (Elt F) → (⟨S8x256x128, .f32⟩ : BufTy).Contents (Elt F)),
    unary main_arg7 main_v67 (broadcastInDim S1x1x128 ![2] bcast_S128_S1x1x128_2 : (⟨S128, .f32⟩ : BufTy).Contents (Elt F) → (⟨S1x1x128, .f32⟩ : BufTy).Contents (Elt F)),
    unary main_v67 main_v68 (broadcastInDim S8x256x128 ![0, 1, 2] bcast_S1x1x128_S8x256x128_0_1_2 : (⟨S1x1x128, .f32⟩ : BufTy).Contents (Elt F) → (⟨S8x256x128, .f32⟩ : BufTy).Contents (Elt F)),
    binary main_v66 main_v68 main_v69 (addf : (⟨S8x256x128, .f32⟩ : BufTy).Contents (Elt F) → (⟨S8x256x128, .f32⟩ : BufTy).Contents (Elt F) → (⟨S8x256x128, .f32⟩ : BufTy).Contents (Elt F)),
    nullary main_cst_8 (constant S_ .f32 0x00000000#32),
    binary main_v69 main_cst_8 main_v70 ((fun x v => Host.reduceAdd x v reducesTo_S8x256x128_S8x256_d2 h_S_) : (⟨S8x256x128, .f32⟩ : BufTy).Contents (Elt F) → (⟨S_, .f32⟩ : BufTy).Contents (Elt F) → (⟨S8x256, .f32⟩ : BufTy).Contents (Elt F)),
    unary main_v70 main_v71 (broadcastInDim S8x256x1 ![0, 1] bcast_S8x256_S8x256x1_0_1 : (⟨S8x256, .f32⟩ : BufTy).Contents (Elt F) → (⟨S8x256x1, .f32⟩ : BufTy).Contents (Elt F)),
    nullary main_cst_9 (constant S_ .f32 0x43000000#32),
    unary main_cst_9 main_v72 (broadcastInDim S8x256x1 ![] bcast_S_S8x256x1 : (⟨S_, .f32⟩ : BufTy).Contents (Elt F) → (⟨S8x256x1, .f32⟩ : BufTy).Contents (Elt F)),
    binary main_v71 main_v72 main_v73 (Host.divf : (⟨S8x256x1, .f32⟩ : BufTy).Contents (Elt F) → (⟨S8x256x1, .f32⟩ : BufTy).Contents (Elt F) → (⟨S8x256x1, .f32⟩ : BufTy).Contents (Elt F)),
    unary main_v73 main_v74 (broadcastInDim S8x256x128 ![0, 1, 2] bcast_S8x256x1_S8x256x128_0_1_2 : (⟨S8x256x1, .f32⟩ : BufTy).Contents (Elt F) → (⟨S8x256x128, .f32⟩ : BufTy).Contents (Elt F)),
    binary main_v69 main_v74 main_v75 (subf : (⟨S8x256x128, .f32⟩ : BufTy).Contents (Elt F) → (⟨S8x256x128, .f32⟩ : BufTy).Contents (Elt F) → (⟨S8x256x128, .f32⟩ : BufTy).Contents (Elt F)),
    binary main_v75 main_v75 main_v76 (mulf : (⟨S8x256x128, .f32⟩ : BufTy).Contents (Elt F) → (⟨S8x256x128, .f32⟩ : BufTy).Contents (Elt F) → (⟨S8x256x128, .f32⟩ : BufTy).Contents (Elt F)),
    nullary main_cst_10 (constant S_ .f32 0x00000000#32),
    binary main_v76 main_cst_10 main_v77 ((fun x v => Host.reduceAdd x v reducesTo_S8x256x128_S8x256_d2 h_S_) : (⟨S8x256x128, .f32⟩ : BufTy).Contents (Elt F) → (⟨S_, .f32⟩ : BufTy).Contents (Elt F) → (⟨S8x256, .f32⟩ : BufTy).Contents (Elt F)),
    unary main_v77 main_v78 (broadcastInDim S8x256x1 ![0, 1] bcast_S8x256_S8x256x1_0_1 : (⟨S8x256, .f32⟩ : BufTy).Contents (Elt F) → (⟨S8x256x1, .f32⟩ : BufTy).Contents (Elt F)),
    nullary main_cst_11 (constant S_ .f32 0x43000000#32),
    unary main_cst_11 main_v79 (broadcastInDim S8x256x1 ![] bcast_S_S8x256x1 : (⟨S_, .f32⟩ : BufTy).Contents (Elt F) → (⟨S8x256x1, .f32⟩ : BufTy).Contents (Elt F)),
    binary main_v78 main_v79 main_v80 (Host.divf : (⟨S8x256x1, .f32⟩ : BufTy).Contents (Elt F) → (⟨S8x256x1, .f32⟩ : BufTy).Contents (Elt F) → (⟨S8x256x1, .f32⟩ : BufTy).Contents (Elt F)),
    unary main_v73 main_v81 (broadcastInDim S8x256x128 ![0, 1, 2] bcast_S8x256x1_S8x256x128_0_1_2 : (⟨S8x256x1, .f32⟩ : BufTy).Contents (Elt F) → (⟨S8x256x128, .f32⟩ : BufTy).Contents (Elt F)),
    binary main_v69 main_v81 main_v82 (subf : (⟨S8x256x128, .f32⟩ : BufTy).Contents (Elt F) → (⟨S8x256x128, .f32⟩ : BufTy).Contents (Elt F) → (⟨S8x256x128, .f32⟩ : BufTy).Contents (Elt F)),
    nullary main_cst_12 (constant S_ .f32 0x3727C5AC#32),
    unary main_cst_12 main_v83 (broadcastInDim S8x256x1 ![] bcast_S_S8x256x1 : (⟨S_, .f32⟩ : BufTy).Contents (Elt F) → (⟨S8x256x1, .f32⟩ : BufTy).Contents (Elt F)),
    binary main_v80 main_v83 main_v84 (addf : (⟨S8x256x1, .f32⟩ : BufTy).Contents (Elt F) → (⟨S8x256x1, .f32⟩ : BufTy).Contents (Elt F) → (⟨S8x256x1, .f32⟩ : BufTy).Contents (Elt F)),
    unary main_v84 main_v85 (Host.rsqrt : (⟨S8x256x1, .f32⟩ : BufTy).Contents (Elt F) → (⟨S8x256x1, .f32⟩ : BufTy).Contents (Elt F)),
    unary main_v85 main_v86 (broadcastInDim S8x256x128 ![0, 1, 2] bcast_S8x256x1_S8x256x128_0_1_2 : (⟨S8x256x1, .f32⟩ : BufTy).Contents (Elt F) → (⟨S8x256x128, .f32⟩ : BufTy).Contents (Elt F)),
    binary main_v82 main_v86 main_v87 (mulf : (⟨S8x256x128, .f32⟩ : BufTy).Contents (Elt F) → (⟨S8x256x128, .f32⟩ : BufTy).Contents (Elt F) → (⟨S8x256x128, .f32⟩ : BufTy).Contents (Elt F)),
    unary main_arg8 main_v88 (broadcastInDim S1x1x128 ![2] bcast_S128_S1x1x128_2 : (⟨S128, .f32⟩ : BufTy).Contents (Elt F) → (⟨S1x1x128, .f32⟩ : BufTy).Contents (Elt F)),
    unary main_v88 main_v89 (broadcastInDim S8x256x128 ![0, 1, 2] bcast_S1x1x128_S8x256x128_0_1_2 : (⟨S1x1x128, .f32⟩ : BufTy).Contents (Elt F) → (⟨S8x256x128, .f32⟩ : BufTy).Contents (Elt F)),
    binary main_v87 main_v89 main_v90 (mulf : (⟨S8x256x128, .f32⟩ : BufTy).Contents (Elt F) → (⟨S8x256x128, .f32⟩ : BufTy).Contents (Elt F) → (⟨S8x256x128, .f32⟩ : BufTy).Contents (Elt F)),
    unary main_arg9 main_v91 (broadcastInDim S1x1x128 ![2] bcast_S128_S1x1x128_2 : (⟨S128, .f32⟩ : BufTy).Contents (Elt F) → (⟨S1x1x128, .f32⟩ : BufTy).Contents (Elt F)),
    unary main_v91 main_v92 (broadcastInDim S8x256x128 ![0, 1, 2] bcast_S1x1x128_S8x256x128_0_1_2 : (⟨S1x1x128, .f32⟩ : BufTy).Contents (Elt F) → (⟨S8x256x128, .f32⟩ : BufTy).Contents (Elt F)),
    binary main_v90 main_v92 main_v93 (addf : (⟨S8x256x128, .f32⟩ : BufTy).Contents (Elt F) → (⟨S8x256x128, .f32⟩ : BufTy).Contents (Elt F) → (⟨S8x256x128, .f32⟩ : BufTy).Contents (Elt F)),
    TRef.unary (TRef.of (T := ⟨S8x256x128, .f32⟩) main_v93) (TRef.of (T := ⟨S8x256x128, .f32⟩) main_call1_v0) Host.negf,
    TRef.unary (TRef.of (T := ⟨S8x256x128, .f32⟩) main_call1_v0) (TRef.of (T := ⟨S8x256x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8x256x128, .f32⟩) main_call1_v2) (broadcastInDim S8x256x128 ![] bcast_S_S8x256x128),
    TRef.binary (TRef.of (T := ⟨S8x256x128, .f32⟩) main_call1_v2) (TRef.of (T := ⟨S8x256x128, .f32⟩) main_call1_v1) (TRef.of (T := ⟨S8x256x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8x256x128, .f32⟩) main_call1_v4) (broadcastInDim S8x256x128 ![] bcast_S_S8x256x128),
    TRef.binary (TRef.of (T := ⟨S8x256x128, .f32⟩) main_call1_v4) (TRef.of (T := ⟨S8x256x128, .f32⟩) main_call1_v3) (TRef.of (T := ⟨S8x256x128, .f32⟩) main_call1_v5) Host.divf,
    TRef.binary (TRef.of (T := ⟨S8x256x128, .f32⟩) main_v93) (TRef.of (T := ⟨S8x256x128, .f32⟩) main_call1_v5) (TRef.of (T := ⟨S8x256x128, .f32⟩) main_v94) mulf,
    binary main_arg0 main_v94 main_v95 (addf : (⟨S8x256x128, .f32⟩ : BufTy).Contents (Elt F) → (⟨S8x256x128, .f32⟩ : BufTy).Contents (Elt F) → (⟨S8x256x128, .f32⟩ : BufTy).Contents (Elt F)) ]

set_option maxRecDepth 8192 in
set_option maxHeartbeats 4000000 in
/-- @main is the sequence of its operations: both sides unfold to the same chain of steps. -/
theorem main_eq (c : Dev nD) : main (F := F) c = seq ops := rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., unary_bufs_sub .., unary_bufs_sub .., reshape_bufs_sub .., binary_bufs_sub .., unary_bufs_sub .., binary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

set_option maxRecDepth 8192 in
/-- Every operation determines its results: none allocates a buffer of unchosen contents. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 50000000 in
/-- From any contents `V`, after the operations the result buffer holds the last stage at `V`'s arguments: each
    operation's result at its own buffer is its function of the operands' contents, at any other buffer what was
    there; the composed term is the last stage with every stage opened (a typed reference's transport along a
    reflexive type equation is the identity). -/
theorem post_v95 (V : Valuation τ sig (Elt F)) :
    after ops V (Proc.devRef (τ := τ) .tc main_v95) = Cert.ReferenceIdeal.ReadP.val_main_v95 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := by
  after_results_simp
  (try simp only [TRef.ofBuf, TRef.toBuf, cast_eq])
  rfl

set_option maxRecDepth 8192 in
set_option maxHeartbeats 50000000 in
/-- No operation writes `main_arg0`: it keeps its contents. -/
theorem post_arg0 (V : Valuation τ sig (Elt F)) : after ops V (Proc.devRef (τ := τ) .tc main_arg0) = V (Proc.devRef (τ := τ) .tc main_arg0) := by
  after_results_simp

set_option maxRecDepth 8192 in
set_option maxHeartbeats 50000000 in
/-- No operation writes `main_arg1`: it keeps its contents. -/
theorem post_arg1 (V : Valuation τ sig (Elt F)) : after ops V (Proc.devRef (τ := τ) .tc main_arg1) = V (Proc.devRef (τ := τ) .tc main_arg1) := by
  after_results_simp

set_option maxRecDepth 8192 in
set_option maxHeartbeats 50000000 in
/-- No operation writes `main_arg2`: it keeps its contents. -/
theorem post_arg2 (V : Valuation τ sig (Elt F)) : after ops V (Proc.devRef (τ := τ) .tc main_arg2) = V (Proc.devRef (τ := τ) .tc main_arg2) := by
  after_results_simp

set_option maxRecDepth 8192 in
set_option maxHeartbeats 50000000 in
/-- No operation writes `main_arg3`: it keeps its contents. -/
theorem post_arg3 (V : Valuation τ sig (Elt F)) : after ops V (Proc.devRef (τ := τ) .tc main_arg3) = V (Proc.devRef (τ := τ) .tc main_arg3) := by
  after_results_simp

set_option maxRecDepth 8192 in
set_option maxHeartbeats 50000000 in
/-- No operation writes `main_arg4`: it keeps its contents. -/
theorem post_arg4 (V : Valuation τ sig (Elt F)) : after ops V (Proc.devRef (τ := τ) .tc main_arg4) = V (Proc.devRef (τ := τ) .tc main_arg4) := by
  after_results_simp

set_option maxRecDepth 8192 in
set_option maxHeartbeats 50000000 in
/-- No operation writes `main_arg5`: it keeps its contents. -/
theorem post_arg5 (V : Valuation τ sig (Elt F)) : after ops V (Proc.devRef (τ := τ) .tc main_arg5) = V (Proc.devRef (τ := τ) .tc main_arg5) := by
  after_results_simp

set_option maxRecDepth 8192 in
set_option maxHeartbeats 50000000 in
/-- No operation writes `main_arg6`: it keeps its contents. -/
theorem post_arg6 (V : Valuation τ sig (Elt F)) : after ops V (Proc.devRef (τ := τ) .tc main_arg6) = V (Proc.devRef (τ := τ) .tc main_arg6) := by
  after_results_simp

set_option maxRecDepth 8192 in
set_option maxHeartbeats 50000000 in
/-- No operation writes `main_arg7`: it keeps its contents. -/
theorem post_arg7 (V : Valuation τ sig (Elt F)) : after ops V (Proc.devRef (τ := τ) .tc main_arg7) = V (Proc.devRef (τ := τ) .tc main_arg7) := by
  after_results_simp

set_option maxRecDepth 8192 in
set_option maxHeartbeats 50000000 in
/-- No operation writes `main_arg8`: it keeps its contents. -/
theorem post_arg8 (V : Valuation τ sig (Elt F)) : after ops V (Proc.devRef (τ := τ) .tc main_arg8) = V (Proc.devRef (τ := τ) .tc main_arg8) := by
  after_results_simp

set_option maxRecDepth 8192 in
set_option maxHeartbeats 50000000 in
/-- No operation writes `main_arg9`: it keeps its contents. -/
theorem post_arg9 (V : Valuation τ sig (Elt F)) : after ops V (Proc.devRef (τ := τ) .tc main_arg9) = V (Proc.devRef (τ := τ) .tc main_arg9) := by
  after_results_simp

/-- The run: the result at the last stage of the arguments, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Cert.ReferenceIdeal.ReadP.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v95).trans (post_v95 _),
      (h c main_arg0).trans (post_arg0 _),
      (h c main_arg1).trans (post_arg1 _),
      (h c main_arg2).trans (post_arg2 _),
      (h c main_arg3).trans (post_arg3 _),
      (h c main_arg4).trans (post_arg4 _),
      (h c main_arg5).trans (post_arg5 _),
      (h c main_arg6).trans (post_arg6 _),
      (h c main_arg7).trans (post_arg7 _),
      (h c main_arg8).trans (post_arg8 _),
      (h c main_arg9).trans (post_arg9 _)⟩)
    (run_seq scopedRefs_eq scopedSems_eq defs main (fun _ => ops) main_eq (fun _ => ops_sub) m ρ
      (fun _ => List.forall_iff_forall_mem.1 ops_fresh))

end Cert.ReferenceIdeal.RefRun

end
-- ==== Proof.RefValueUpd.lean ====
/-
  The reference's update, read at an index, for ANY value of the aggregated messages: the host multiplies the node
  features by the first half of the stacked update weights and the aggregate by the second half, adds the bias,
  takes the layer norm over the feature axis and the SiLU, and adds the node features; at node `i` of batch `b` and
  feature `e` that is the row form's update over the aggregate's row.
-/
import proofs.«108111_j42099269435680_1_alg».proof.Proof.Global
import proofs.«108111_j42099269435680_1_alg».proof.Proof.RefRead
import Idealize.ShloMosaic.Lib.IdealHost

noncomputable section

namespace Cert.ReferenceIdeal.RefValue

open Idealize.ShloMosaic Idealize.ShloMosaic.ValueIdx Cert.ReferenceIdeal Cert.Gnn

open Cert.ReferenceIdeal.ReadP

/-! ### The composed index functions at an index given by its coordinates -/

theorem lidx63_ix (b : Fin 8) (i : Fin 256) (e k : Fin 128) : lidx_main_v63 (ix3 b i e) k = ix3 b i k :=
  funext fun a => Fin.ext (by match a with | ⟨0, _⟩ => rfl | ⟨1, _⟩ => rfl | ⟨2, _⟩ => rfl)

theorem lidx65_ix (b : Fin 8) (i : Fin 256) (e k : Fin 128) : lidx_main_v65 (ix3 b i e) k = ix3 b i k :=
  funext fun a => Fin.ext (by match a with | ⟨0, _⟩ => rfl | ⟨1, _⟩ => rfl | ⟨2, _⟩ => rfl)

theorem ridx63_ix (b : Fin 8) (i : Fin 256) (e k : Fin 128) :
    idx_main_v62 (ridx_main_v63 (ix3 b i e) k) = ix2 e (⟨k.val, by have := k.isLt; omega⟩ : Fin 256) :=
  funext fun a => Fin.ext (by match a with | ⟨0, _⟩ => rfl | ⟨1, _⟩ => rfl)

theorem ridx65_ix (b : Fin 8) (i : Fin 256) (e k : Fin 128) :
    idx_main_v64 (ridx_main_v65 (ix3 b i e) k) = ix2 e (⟨128 + k.val, by have := k.isLt; omega⟩ : Fin 256) :=
  funext fun a => Fin.ext (by match a with | ⟨0, _⟩ => rfl | ⟨1, _⟩ => rfl)

theorem idx68_ix (b : Fin 8) (i : Fin 256) (e : Fin 128) : idx_main_v67 (idx_main_v68 (ix3 b i e)) = ix1 e :=
  funext fun a => Fin.ext (by match a with | ⟨0, _⟩ => rfl)

/-- The update's pre-activation: the two products and the bias. -/
theorem v69_ix (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (agg : Fin 128 → EReal)
    (hagg : ∀ d : Fin 128, val_main_v61 (F := Ideal) x0 x1 x2 x3 x4 x5 (ix3 b i d) = agg d) (e : Fin 128) :
    val_main_v69 (F := Ideal) x0 x1 x2 x3 x4 x5 x6 x7 (ix3 b i e)
      = preUpd (globalParams x2 x3 x4 x5 x6 x7 x8 x9) (fun d => x0 (ix3 b i d)) agg e := by
  rw [val_main_v69_apply, val_main_v66_apply, val_main_v63_apply, val_main_v65_apply, val_main_v68_apply,
    val_main_v67_apply, idx68_ix]
  simp only [Ideal.addf_def, val_main_v62_apply, val_main_v64_apply, lidx63_ix, lidx65_ix, ridx63_ix, ridx65_ix, hagg]
  rfl

theorem idx70_ix (b : Fin 8) (i : Fin 256) (e k : Fin 128) :
    idx_main_v70 (idx_main_v71 (idx_main_v74 (ix3 b i e))) k = ix3 b i k :=
  funext fun a => Fin.ext (by match a with | ⟨0, _⟩ => rfl | ⟨1, _⟩ => rfl | ⟨2, _⟩ => rfl)

theorem idx70'_ix (b : Fin 8) (i : Fin 256) (e k : Fin 128) :
    idx_main_v70 (idx_main_v71 (idx_main_v81 (ix3 b i e))) k = ix3 b i k :=
  funext fun a => Fin.ext (by match a with | ⟨0, _⟩ => rfl | ⟨1, _⟩ => rfl | ⟨2, _⟩ => rfl)

theorem idx77_ix (b : Fin 8) (i : Fin 256) (e k : Fin 128) :
    idx_main_v77 (idx_main_v78 (idx_main_v86 (ix3 b i e))) k = ix3 b i k :=
  funext fun a => Fin.ext (by match a with | ⟨0, _⟩ => rfl | ⟨1, _⟩ => rfl | ⟨2, _⟩ => rfl)

theorem idx89_ix (b : Fin 8) (i : Fin 256) (e : Fin 128) : idx_main_v88 (idx_main_v89 (ix3 b i e)) = ix1 e :=
  funext fun a => Fin.ext (by match a with | ⟨0, _⟩ => rfl)

theorem idx92_ix (b : Fin 8) (i : Fin 256) (e : Fin 128) : idx_main_v91 (idx_main_v92 (ix3 b i e)) = ix1 e :=
  funext fun a => Fin.ext (by match a with | ⟨0, _⟩ => rfl)

/-- The mean over the feature axis, broadcast back (the first of its two broadcasts). -/
theorem v74_ix (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (agg : Fin 128 → EReal)
    (hagg : ∀ d : Fin 128, val_main_v61 (F := Ideal) x0 x1 x2 x3 x4 x5 (ix3 b i d) = agg d) (e : Fin 128) :
    val_main_v74 (F := Ideal) x0 x1 x2 x3 x4 x5 x6 x7 (ix3 b i e)
      = mean (preUpd (globalParams x2 x3 x4 x5 x6 x7 x8 x9) (fun d => x0 (ix3 b i d)) agg) := by
  rw [val_main_v74_apply, val_main_v73_apply, val_main_v71_apply, val_main_v70_apply, val_main_v72_apply,
    val_main_cst_8_apply, val_main_cst_9_apply]
  simp only [Ideal.hostDivf_def, Ideal.ofBits_def, Ideal.ofBits_zero_f32, zero_add, idx70_ix,
    v69_ix x0 x1 x2 x3 x4 x5 x6 x7 x8 x9 b i agg hagg]
  rfl

/-- The same mean through its second broadcast. -/
theorem v81_ix (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (agg : Fin 128 → EReal)
    (hagg : ∀ d : Fin 128, val_main_v61 (F := Ideal) x0 x1 x2 x3 x4 x5 (ix3 b i d) = agg d) (e : Fin 128) :
    val_main_v81 (F := Ideal) x0 x1 x2 x3 x4 x5 x6 x7 (ix3 b i e)
      = mean (preUpd (globalParams x2 x3 x4 x5 x6 x7 x8 x9) (fun d => x0 (ix3 b i d)) agg) := by
  rw [val_main_v81_apply, val_main_v73_apply, val_main_v71_apply, val_main_v70_apply, val_main_v72_apply,
    val_main_cst_8_apply, val_main_cst_9_apply]
  simp only [Ideal.hostDivf_def, Ideal.ofBits_def, Ideal.ofBits_zero_f32, zero_add, idx70'_ix,
    v69_ix x0 x1 x2 x3 x4 x5 x6 x7 x8 x9 b i agg hagg]
  rfl

/-- The square of the centred pre-activation. -/
theorem v76_ix (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (agg : Fin 128 → EReal)
    (hagg : ∀ d : Fin 128, val_main_v61 (F := Ideal) x0 x1 x2 x3 x4 x5 (ix3 b i d) = agg d) (e : Fin 128) :
    val_main_v76 (F := Ideal) x0 x1 x2 x3 x4 x5 x6 x7 (ix3 b i e)
      = (preUpd (globalParams x2 x3 x4 x5 x6 x7 x8 x9) (fun d => x0 (ix3 b i d)) agg e
          - mean (preUpd (globalParams x2 x3 x4 x5 x6 x7 x8 x9) (fun d => x0 (ix3 b i d)) agg))
        * (preUpd (globalParams x2 x3 x4 x5 x6 x7 x8 x9) (fun d => x0 (ix3 b i d)) agg e
          - mean (preUpd (globalParams x2 x3 x4 x5 x6 x7 x8 x9) (fun d => x0 (ix3 b i d)) agg)) := by
  rw [val_main_v76_apply, val_main_v75_apply]
  simp only [Ideal.mulf_def, Ideal.subf_def, v74_ix x0 x1 x2 x3 x4 x5 x6 x7 x8 x9 b i agg hagg,
    v69_ix x0 x1 x2 x3 x4 x5 x6 x7 x8 x9 b i agg hagg]

/-- The layer norm of the pre-activation. -/
theorem v93_ix (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (agg : Fin 128 → EReal)
    (hagg : ∀ d : Fin 128, val_main_v61 (F := Ideal) x0 x1 x2 x3 x4 x5 (ix3 b i d) = agg d) (e : Fin 128) :
    val_main_v93 (F := Ideal) x0 x1 x2 x3 x4 x5 x6 x7 x8 x9 (ix3 b i e)
      = lnorm (preUpd (globalParams x2 x3 x4 x5 x6 x7 x8 x9) (fun d => x0 (ix3 b i d)) agg)
          (globalParams x2 x3 x4 x5 x6 x7 x8 x9).gu (globalParams x2 x3 x4 x5 x6 x7 x8 x9).βu e := by
  rw [val_main_v93_apply, val_main_v90_apply, val_main_v87_apply, val_main_v82_apply, val_main_v86_apply,
    val_main_v85_apply, val_main_v84_apply, val_main_v80_apply, val_main_v78_apply, val_main_v77_apply,
    val_main_v79_apply, val_main_v83_apply, val_main_cst_10_apply, val_main_cst_11_apply, val_main_cst_12_apply,
    val_main_v89_apply, val_main_v88_apply, val_main_v92_apply, val_main_v91_apply, idx89_ix, idx92_ix]
  simp only [Ideal.addf_def, Ideal.mulf_def, Ideal.subf_def, Ideal.hostDivf_def, Ideal.hostUnary_rsqrt_def,
    Ideal.ofBits_def, Ideal.ofBits_zero_f32, zero_add, idx77_ix,
    v76_ix x0 x1 x2 x3 x4 x5 x6 x7 x8 x9 b i agg hagg, v81_ix x0 x1 x2 x3 x4 x5 x6 x7 x8 x9 b i agg hagg,
    v69_ix x0 x1 x2 x3 x4 x5 x6 x7 x8 x9 b i agg hagg]
  rfl

/-- The result at `(b, i, e)` from the aggregate's row `agg` at `(b, i, ·)`. -/
theorem ref_upd_apply (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (e : Fin 128) (agg : Fin 128 → EReal)
    (hagg : ∀ d : Fin 128, Cert.ReferenceIdeal.ReadP.val_main_v61 (F := Ideal) x0 x1 x2 x3 x4 x5 (ix3 b i d) = agg d) :
    Cert.ReferenceIdeal.ReadP.val_main_v95 (F := Ideal) x0 x1 x2 x3 x4 x5 x6 x7 x8 x9 (ix3 b i e)
      = rowOut (globalParams x2 x3 x4 x5 x6 x7 x8 x9) (fun d => x0 (ix3 b i d)) agg e := by
  rw [val_main_v95_apply, val_main_v94_apply, val_main_call1_v5_apply, val_main_call1_v4_apply,
    val_main_call1_cst_0_apply, val_main_call1_v3_apply, val_main_call1_v2_apply, val_main_call1_cst_apply,
    val_main_call1_v1_apply, val_main_call1_v0_apply]
  simp only [Ideal.addf_def, Ideal.mulf_def, Ideal.hostDivf_def, Ideal.hostUnary_exp_def, Ideal.hostNegf_def,
    Ideal.negf_def, Ideal.ofBits_def, Ideal.ofBits_one_f32,
    v93_ix x0 x1 x2 x3 x4 x5 x6 x7 x8 x9 b i agg hagg]
  rfl

end Cert.ReferenceIdeal.RefValue

end
-- ==== Proof.RefMsg.lean ====
/-
  The reference program's aggregated messages, read at an index.

  The host builds the four-axis tensor of message pre-activations `h[b,i,:]·Wt + h[b,j,:]·Ws + adj[b,i,j]·wJ + bm`,
  takes its layer norm over the feature axis (mean and variance as sums divided by 128, the reciprocal root of the
  variance plus epsilon, gain and bias) and its SiLU (`y · 1/(1 + exp(-y))`), sums over the source axis `j` from a
  zero initial value, and subtracts the diagonal `j = i`, which it fetches by a gather at the index pairs `(i, i)`:
  two columns of node numbers, each passed through a wrap-around select that leaves a number below 256 as it is.
  Every stage is read at one index; at `(b, i, e)` the result is the sum of all the messages into node `i` less the
  node's own.
-/
import proofs.«108111_j42099269435680_1_alg».proof.Proof.Global
import proofs.«108111_j42099269435680_1_alg».proof.Proof.RefRead
import Idealize.ShloMosaic.Lib.IdealHost
import Idealize.ShloMosaic.Lib.StableHlo.Predicate

noncomputable section

namespace Cert.ReferenceIdeal.RefMsg

open Idealize.ShloMosaic Idealize.ShloMosaic.ValueIdx Cert.ReferenceIdeal Cert.ReferenceIdeal.ReadP Cert.Gnn

-- Two indices of one rank are equal when their coordinates are (a coordinate `n / 1` is `n`).
local macro "ixeq1" : tactic => `(tactic| (funext a; match a with | ⟨0, _⟩ => first | rfl | exact Fin.ext (Nat.div_one _)))
local macro "ixeq2" : tactic => `(tactic| (funext a; match a with
  | ⟨0, _⟩ => first | rfl | exact Fin.ext (Nat.div_one _)
  | ⟨1, _⟩ => first | rfl | exact Fin.ext (Nat.div_one _)))
local macro "ixeq3" : tactic => `(tactic| (funext a; match a with
  | ⟨0, _⟩ => first | rfl | exact Fin.ext (Nat.div_one _)
  | ⟨1, _⟩ => first | rfl | exact Fin.ext (Nat.div_one _)
  | ⟨2, _⟩ => first | rfl | exact Fin.ext (Nat.div_one _)))
local macro "ixeq4" : tactic => `(tactic| (funext a; match a with
  | ⟨0, _⟩ => first | rfl | exact Fin.ext (Nat.div_one _)
  | ⟨1, _⟩ => first | rfl | exact Fin.ext (Nat.div_one _)
  | ⟨2, _⟩ => first | rfl | exact Fin.ext (Nat.div_one _)
  | ⟨3, _⟩ => first | rfl | exact Fin.ext (Nat.div_one _)))

/-! ## The message tensor -/

/-- The message's pre-activation at `(b, i, j, e)`: the two projections, the edge term and the bias, in the
    reference's order. -/
theorem preMsg_read (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i j : Fin 256) (e : Fin 128) :
    val_main_v19 (F := Ideal) x0 x1 x2 x3 (ix4 b i j e)
      = preMsg (globalParams x2 x3 x4 x5 x6 x7 x8 x9) (fun d => x0 (ix3 b i d)) (fun d => x0 (ix3 b j d)) (x1 (ix3 b i j)) e := by
  have h1 : ∀ k : Fin 128, lidx_main_v4 (idx_main_v5 (idx_main_v8 (ix4 b i j e))) k = ix3 b i k := fun k => by ixeq3
  have h2 : ∀ k : Fin 128, idx_main_v0 (ridx_main_v4 (idx_main_v5 (idx_main_v8 (ix4 b i j e))) k)
      = ix2 e (⟨k.val, by have := k.isLt; omega⟩ : Fin 257) := fun k => by ixeq2
  have h3 : ∀ k : Fin 128, lidx_main_v6 (idx_main_v7 (idx_main_v9 (ix4 b i j e))) k = ix3 b j k := fun k => by ixeq3
  have h4 : ∀ k : Fin 128, idx_main_v1 (ridx_main_v6 (idx_main_v7 (idx_main_v9 (ix4 b i j e))) k)
      = ix2 e (⟨128 + k.val, by have := k.isLt; omega⟩ : Fin 257) := fun k => by ixeq2
  have h5 : idx_main_v11 (idx_main_v13 (ix4 b i j e)) = ix3 b i j := by ixeq3
  have h6 : idx_main_v2 (idx_main_v3 (idx_main_v12 (idx_main_v14 (ix4 b i j e)))) = ix2 e (⟨256, by omega⟩ : Fin 257) := by ixeq2
  have h7 : idx_main_v17 (idx_main_v18 (ix4 b i j e)) = ix1 e := by ixeq1
  simp only [val_main_v19_apply, val_main_v16_apply, val_main_v10_apply, val_main_v8_apply, val_main_v5_apply, val_main_v4_apply,
    val_main_v9_apply, val_main_v7_apply, val_main_v6_apply, val_main_v15_apply, val_main_v13_apply, val_main_v11_apply,
    val_main_v14_apply, val_main_v12_apply, val_main_v3_apply, val_main_v2_apply, val_main_v18_apply, val_main_v17_apply,
    val_main_v0_apply, val_main_v1_apply, Ideal.addf_def, Ideal.mulf_def, h1, h2, h3, h4, h5, h6, h7]
  rfl

/-- The mean of the pre-activation row over the feature axis, kept as a column of extent one. -/
theorem meanMsg_read (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i j : Fin 256) (z : Fin 1) :
    val_main_v23 (F := Ideal) x0 x1 x2 x3 (ix4 b i j z)
      = mean (preMsg (globalParams x2 x3 x4 x5 x6 x7 x8 x9) (fun d => x0 (ix3 b i d)) (fun d => x0 (ix3 b j d)) (x1 (ix3 b i j))) := by
  have hk : ∀ k : Fin 128, idx_main_v20 (idx_main_v21 (ix4 b i j z)) k = ix4 b i j k := fun k => by ixeq4
  simp only [val_main_v23_apply, val_main_v21_apply, val_main_v22_apply, val_main_cst_0_apply, val_main_v20_apply,
    val_main_cst_apply, Ideal.hostDivf_def, Ideal.ofBits_def, hk, preMsg_read x0 x1 x2 x3 x4 x5 x6 x7 x8 x9,
    Ideal.ofBits_zero_f32, zero_add]
  rfl

/-- The variance of the pre-activation row: the mean of the squared deviations. -/
theorem varMsg_read (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i j : Fin 256) (z : Fin 1) :
    val_main_v30 (F := Ideal) x0 x1 x2 x3 (ix4 b i j z)
      = mean (fun k => (preMsg (globalParams x2 x3 x4 x5 x6 x7 x8 x9) (fun d => x0 (ix3 b i d)) (fun d => x0 (ix3 b j d)) (x1 (ix3 b i j)) k
            - mean (preMsg (globalParams x2 x3 x4 x5 x6 x7 x8 x9) (fun d => x0 (ix3 b i d)) (fun d => x0 (ix3 b j d)) (x1 (ix3 b i j))))
          * (preMsg (globalParams x2 x3 x4 x5 x6 x7 x8 x9) (fun d => x0 (ix3 b i d)) (fun d => x0 (ix3 b j d)) (x1 (ix3 b i j)) k
            - mean (preMsg (globalParams x2 x3 x4 x5 x6 x7 x8 x9) (fun d => x0 (ix3 b i d)) (fun d => x0 (ix3 b j d)) (x1 (ix3 b i j))))) := by
  have hk : ∀ k : Fin 128, idx_main_v27 (idx_main_v28 (ix4 b i j z)) k = ix4 b i j k := fun k => by ixeq4
  have hm : ∀ k : Fin 128, idx_main_v24 (ix4 b i j k) = ix4 b i j (⟨0, Nat.one_pos⟩ : Fin 1) := fun k => by ixeq4
  simp only [val_main_v30_apply, val_main_v28_apply, val_main_v29_apply, val_main_cst_2_apply, val_main_v27_apply,
    val_main_cst_1_apply, val_main_v26_apply, val_main_v25_apply, val_main_v24_apply, Ideal.hostDivf_def, Ideal.ofBits_def,
    Ideal.mulf_def, Ideal.subf_def, hk, hm, preMsg_read x0 x1 x2 x3 x4 x5 x6 x7 x8 x9, meanMsg_read x0 x1 x2 x3 x4 x5 x6 x7 x8 x9,
    Ideal.ofBits_zero_f32, zero_add]
  rfl

/-- The layer norm of the pre-activation row at feature `e`. -/
theorem lnormMsg_read (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i j : Fin 256) (e : Fin 128) :
    val_main_v43 (F := Ideal) x0 x1 x2 x3 x4 x5 (ix4 b i j e)
      = lnorm (preMsg (globalParams x2 x3 x4 x5 x6 x7 x8 x9) (fun d => x0 (ix3 b i d)) (fun d => x0 (ix3 b j d)) (x1 (ix3 b i j)))
          (globalParams x2 x3 x4 x5 x6 x7 x8 x9).gm (globalParams x2 x3 x4 x5 x6 x7 x8 x9).βm e := by
  have h31 : idx_main_v31 (ix4 b i j e) = ix4 b i j (⟨0, Nat.one_pos⟩ : Fin 1) := by ixeq4
  have h36 : idx_main_v36 (ix4 b i j e) = ix4 b i j (⟨0, Nat.one_pos⟩ : Fin 1) := by ixeq4
  have h4 : idx_main_v38 (idx_main_v39 (ix4 b i j e)) = ix1 e := by ixeq1
  have h5 : idx_main_v41 (idx_main_v42 (ix4 b i j e)) = ix1 e := by ixeq1
  simp only [val_main_v43_apply, val_main_v40_apply, val_main_v37_apply, val_main_v32_apply, val_main_v31_apply,
    val_main_v36_apply, val_main_v35_apply, val_main_v34_apply, val_main_v33_apply, val_main_cst_3_apply,
    val_main_v39_apply, val_main_v38_apply, val_main_v42_apply, val_main_v41_apply,
    Ideal.addf_def, Ideal.mulf_def, Ideal.subf_def, Ideal.hostUnary_rsqrt_def, Ideal.ofBits_def, h31, h36, h4, h5,
    preMsg_read x0 x1 x2 x3 x4 x5 x6 x7 x8 x9, meanMsg_read x0 x1 x2 x3 x4 x5 x6 x7 x8 x9, varMsg_read x0 x1 x2 x3 x4 x5 x6 x7 x8 x9]
  rfl

/-- The message from source `j` to target `i` at feature `e`: the SiLU of the layer norm, the logistic spelt
    `1 / (1 + exp (-y))`. -/
theorem msg_read (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i j : Fin 256) (e : Fin 128) :
    val_main_v44 (F := Ideal) x0 x1 x2 x3 x4 x5 (ix4 b i j e)
      = msg (globalParams x2 x3 x4 x5 x6 x7 x8 x9) (fun d => x0 (ix3 b i d)) (fun d => x0 (ix3 b j d)) (x1 (ix3 b i j)) e := by
  simp only [val_main_v44_apply, val_main_call0_v5_apply, val_main_call0_v4_apply, val_main_call0_cst_0_apply,
    val_main_call0_v3_apply, val_main_call0_v2_apply, val_main_call0_cst_apply, val_main_call0_v1_apply, val_main_call0_v0_apply,
    Ideal.addf_def, Ideal.mulf_def, Ideal.hostDivf_def, Ideal.hostUnary_exp_def, Ideal.hostNegf_def, Ideal.negf_def,
    Ideal.ofBits_def, Ideal.ofBits_one_f32, lnormMsg_read x0 x1 x2 x3 x4 x5 x6 x7 x8 x9]
  rfl

/-! ## The index pairs `(i, i)` -/

/-- A node number below 256, as a 32-bit word, is not negative: the wrap-around select keeps it. -/
theorem wrap_small (i : Fin 256) :
    Scalar.select (IntOp.cmpi .slt (BitVec.ofNat 32 i.val) 0#32) (IntOp.addi (BitVec.ofNat 32 i.val) 256#32) (BitVec.ofNat 32 i.val)
      = BitVec.ofNat 32 i.val := by
  have hi := i.isLt
  have hc : IntOp.cmpi .slt (BitVec.ofNat 32 i.val) 0#32 = 0#1 :=
    eq_zero_of_ne_one (fun h => by
      have := (StableHlo.Predicate.slt_iff_toNat (a := BitVec.ofNat 32 i.val) (b := 0#32)
        (by rw [BitVec.toNat_ofNat]; omega) (by decide)).mp h
      simp at this)
  rw [hc, select_zero]

/-- The first index column holds the node numbers. -/
theorem col0_read (i : Fin 256) : val_main_v51 (F := Ideal) (ix1 i) = BitVec.ofNat 32 i.val := by
  simp only [val_main_v51_apply, val_main_v48_apply, val_main_v45_apply, val_main_v47_apply, val_main_c_apply,
    val_main_v50_apply, val_main_v49_apply, val_main_c_5_apply]
  exact wrap_small i

/-- The second index column holds the node numbers too. -/
theorem col1_read (i : Fin 256) : val_main_v56 (F := Ideal) (ix1 i) = BitVec.ofNat 32 i.val := by
  simp only [val_main_v56_apply, val_main_v53_apply, val_main_v45_apply, val_main_v52_apply, val_main_c_6_apply,
    val_main_v55_apply, val_main_v54_apply, val_main_c_7_apply]
  exact wrap_small i

/-- The index pairs: row `i` of the joined columns is `(i, i)`. -/
theorem pair_read (i : Fin 256) (c : Fin 2) : val_main_v59 (F := Ideal) (ix2 i c) = BitVec.ofNat 32 i.val := by
  unfold val_main_v59
  match c with
  | ⟨0, _⟩ =>
    rw [concatenate_pair_apply_left (1 : Fin S256x2.rank) (val_main_v57 (F := Ideal)) (val_main_v58 (F := Ideal)) _ (ix2 i (⟨0, by omega⟩ : Fin 2)) rfl
      (ix2 i (0 : Fin 1)) (fun b => match b with | ⟨0, _⟩ => rfl | ⟨1, _⟩ => rfl)]
    rw [val_main_v57_apply, show idx_main_v57 (ix2 i (0 : Fin 1)) = ix1 i by ixeq1]
    exact col0_read i
  | ⟨1, _⟩ =>
    rw [concatenate_pair_apply_right (1 : Fin S256x2.rank) (val_main_v57 (F := Ideal)) (val_main_v58 (F := Ideal)) _ (ix2 i (⟨1, by omega⟩ : Fin 2)) rfl rfl
      (ix2 i (0 : Fin 1)) (fun b => match b with | ⟨0, _⟩ => fun _ => rfl | ⟨1, _⟩ => fun h => absurd rfl h) rfl]
    rw [val_main_v58_apply, show idx_main_v58 (ix2 i (0 : Fin 1)) = ix1 i by ixeq1]
    exact col1_read i

/-! ## The gather reads the diagonal -/

/-- The gather's dimension numbers. -/
abbrev GD : GatherDims S8x256x256x128 S256x2 S8x256x128 := gather_S8x256x256x128_S256x2_S8x256x128_02_12_n_n_12_1_811128

theorem gd_batch (j : S8x256x128.Idx) (a : Fin S8x256x256x128.rank) : GD.batchCoord j a = 0 :=
  GD.batchCoord_eq_zero j a List.not_mem_nil

theorem gd_start0 {w : Nat} (j : S8x256x128.Idx) (idx : IVec S256x2 w) : GD.start j idx 0 = 0 := by
  unfold GatherDims.start
  rw [dif_neg (show ¬(0 : Fin S8x256x256x128.rank) ∈ GD.startIndexMap by decide)]
theorem gd_start3 {w : Nat} (j : S8x256x128.Idx) (idx : IVec S256x2 w) : GD.start j idx 3 = 0 := by
  unfold GatherDims.start
  rw [dif_neg (show ¬(3 : Fin S8x256x256x128.rank) ∈ GD.startIndexMap by decide)]
theorem gd_off0 (j : S8x256x128.Idx) : GD.offCoord j 0 = (j 0).val := by
  unfold GatherDims.offCoord
  rw [dif_pos (show (0 : Fin S8x256x256x128.rank) ∈ GD.sKept by decide)]
  rfl
theorem gd_off3 (j : S8x256x128.Idx) : GD.offCoord j 3 = (j 2).val := by
  unfold GatherDims.offCoord
  rw [dif_pos (show (3 : Fin S8x256x256x128.rank) ∈ GD.sKept by decide)]
  rfl
theorem gd_off1 (j : S8x256x128.Idx) : GD.offCoord j 1 = 0 :=
  GD.offCoord_eq_zero j 1 (by decide)
theorem gd_off2 (j : S8x256x128.Idx) : GD.offCoord j 2 = 0 :=
  GD.offCoord_eq_zero j 2 (by decide)

/-- The start-index pair of result row `i` sits in row `i` of the index array. -/
theorem gd_si (b : Fin 8) (i : Fin 256) (e : Fin 128) (c : Fin GD.startIndexMap.length) :
    GD.siIdx (ix3 b i e) c = ix2 i (⟨c.val, c.isLt⟩ : Fin 2) := by
  funext a; refine Fin.ext ?_
  match a with
  | ⟨0, _⟩ => rfl
  | ⟨1, _⟩ => rfl

theorem gd_start1 {w : Nat} (b : Fin 8) (i : Fin 256) (e : Fin 128) (idx : IVec S256x2 w) :
    GD.start (ix3 b i e) idx 1 = min (idx (ix2 i (0 : Fin 2))).toInt.toNat 255 := by
  unfold GatherDims.start
  rw [dif_pos (show (1 : Fin S8x256x256x128.rank) ∈ GD.startIndexMap by decide), gd_si]
  rfl
theorem gd_start2 {w : Nat} (b : Fin 8) (i : Fin 256) (e : Fin 128) (idx : IVec S256x2 w) :
    GD.start (ix3 b i e) idx 2 = min (idx (ix2 i (1 : Fin 2))).toInt.toNat 255 := by
  unfold GatherDims.start
  rw [dif_pos (show (2 : Fin S8x256x256x128.rank) ∈ GD.startIndexMap by decide), gd_si]
  rfl

/-- A node number below 256, read back as a signed word and clamped to the source axis, is itself. -/
theorem clamp_small (i : Fin 256) : min (BitVec.ofNat 32 i.val).toInt.toNat 255 = i.val := by
  have hi := i.isLt
  rw [StableHlo.Predicate.toInt_ofNat_small i.val (by omega)]
  simp only [Int.toNat_natCast]
  omega

/-- The gather at the index pairs `(i, i)` reads the diagonal of the message tensor. -/
theorem diag_read (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (b : Fin 8) (i : Fin 256) (e : Fin 128) :
    val_main_v60 (F := Ideal) x0 x1 x2 x3 x4 x5 (ix3 b i e) = val_main_v44 (F := Ideal) x0 x1 x2 x3 x4 x5 (ix4 b i i e) := by
  unfold val_main_v60 Host.gather
  refine congrArg _ ?_
  funext a; refine Fin.ext ?_
  show GD.start (ix3 b i e) (val_main_v59 (F := Ideal)) a + GD.batchCoord (ix3 b i e) a + GD.offCoord (ix3 b i e) a = _
  rw [gd_batch]
  match a with
  | ⟨0, _⟩ => exact (congrArg₂ (· + 0 + ·) (gd_start0 _ _) (gd_off0 _)).trans (by show 0 + 0 + b.val = b.val; omega)
  | ⟨1, _⟩ =>
    refine (congrArg₂ (· + 0 + ·) (gd_start1 b i e _) (gd_off1 _)).trans ?_
    show min (val_main_v59 (F := Ideal) (ix2 i (0 : Fin 2))).toInt.toNat 255 + 0 + 0 = i.val
    rw [pair_read, clamp_small]; rfl
  | ⟨2, _⟩ =>
    refine (congrArg₂ (· + 0 + ·) (gd_start2 b i e _) (gd_off2 _)).trans ?_
    show min (val_main_v59 (F := Ideal) (ix2 i (1 : Fin 2))).toInt.toNat 255 + 0 + 0 = i.val
    rw [pair_read, clamp_small]; rfl
  | ⟨3, _⟩ => exact (congrArg₂ (· + 0 + ·) (gd_start3 _ _) (gd_off3 _)).trans (by show 0 + 0 + e.val = e.val; omega)

/-- All the messages into node `i` summed over the sources, from a zero initial value. -/
theorem sumMsg_read (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (e : Fin 128) :
    val_main_v46 (F := Ideal) x0 x1 x2 x3 x4 x5 (ix3 b i e)
      = ∑ j : Fin 256, msg (globalParams x2 x3 x4 x5 x6 x7 x8 x9) (fun d => x0 (ix3 b i d)) (fun d => x0 (ix3 b j d)) (x1 (ix3 b i j)) e := by
  have hk : ∀ k : Fin 256, idx_main_v46 (ix3 b i e) k = ix4 b i k e := fun k => by ixeq4
  simp only [val_main_v46_apply, val_main_cst_4_apply, Ideal.ofBits_def, Ideal.ofBits_zero_f32, zero_add, hk,
    msg_read x0 x1 x2 x3 x4 x5 x6 x7 x8 x9]

/-- The aggregated messages at `(b, i, e)`: all sources summed, the node's own message subtracted. -/
theorem agg_read (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (e : Fin 128) :
    val_main_v61 (F := Ideal) x0 x1 x2 x3 x4 x5 (ix3 b i e)
      = aggDiff (globalParams x2 x3 x4 x5 x6 x7 x8 x9) (fun d => x0 (ix3 b i d)) (fun j d => x0 (ix3 b j d))
          (fun j => x1 (ix3 b i j)) i e := by
  rw [val_main_v61_apply, Ideal.subf_def, sumMsg_read x0 x1 x2 x3 x4 x5 x6 x7 x8 x9, diag_read, msg_read x0 x1 x2 x3 x4 x5 x6 x7 x8 x9]
  rfl

end Cert.ReferenceIdeal.RefMsg

end
-- ==== Proof.RefValue.lean ====
/-
  The reference program's result, read at an index: the host computes the four-axis message tensor, its layer norm
  and SiLU, sums over the source axis and subtracts the diagonal (gathered at the index pairs (i, i)), then the
  update; at node `i` of batch `b` and feature `e` that is the row form with the node's own message subtracted.
-/
import proofs.«108111_j42099269435680_1_alg».proof.Proof.Global
import proofs.«108111_j42099269435680_1_alg».proof.Proof.RefRead
import proofs.«108111_j42099269435680_1_alg».proof.Proof.RefValueUpd
import proofs.«108111_j42099269435680_1_alg».proof.Proof.RefMsg
import Idealize.ShloMosaic.Lib.IdealHost

noncomputable section

namespace Cert.ReferenceIdeal.RefValue

open Idealize.ShloMosaic Idealize.ShloMosaic.ValueIdx Cert.ReferenceIdeal Cert.Gnn

/-- The aggregated messages at `(b, i, d)`: all sources summed, the node's own message subtracted. -/
theorem ref_msg_apply (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (d : Fin 128) :
    Cert.ReferenceIdeal.ReadP.val_main_v61 (F := Ideal) x0 x1 x2 x3 x4 x5 (ix3 b i d)
      = aggDiff (globalParams x2 x3 x4 x5 x6 x7 x8 x9) (fun d => x0 (ix3 b i d)) (fun j d => x0 (ix3 b j d))
          (fun j => x1 (ix3 b i j)) i d :=
  Cert.ReferenceIdeal.RefMsg.agg_read x0 x1 x2 x3 x4 x5 x6 x7 x8 x9 b i d

/-- The reference's result at `(b, i, e)`. -/
theorem ref_apply (x0 : (⟨S8x256x128, .f32⟩ : BufTy).Contents (Elt Ideal)) (x1 : (⟨S8x256x256, .f32⟩ : BufTy).Contents (Elt Ideal))
    (x2 : (⟨S128x257, .f32⟩ : BufTy).Contents (Elt Ideal)) (x3 x4 x5 : (⟨S128, .f32⟩ : BufTy).Contents (Elt Ideal))
    (x6 : (⟨S128x256, .f32⟩ : BufTy).Contents (Elt Ideal)) (x7 x8 x9 : (⟨S128, .f32⟩ : BufTy).Contents (Elt Ideal))
    (b : Fin 8) (i : Fin 256) (e : Fin 128) :
    Cert.ReferenceIdeal.ReadP.val_main_v95 (F := Ideal) x0 x1 x2 x3 x4 x5 x6 x7 x8 x9 (ix3 b i e)
      = refVal x0 x1 x2 x3 x4 x5 x6 x7 x8 x9 b i e :=
  ref_upd_apply x0 x1 x2 x3 x4 x5 x6 x7 x8 x9 b i e _ (fun d => ref_msg_apply x0 x1 x2 x3 x4 x5 x6 x7 x8 x9 b i d)

end Cert.ReferenceIdeal.RefValue

end
-- ==== Proof.Algebra.lean ====
/-
  Dropping one summand by a 0/1 mask is subtracting it, where that summand is a real number; and every message is
  a real number when every input is: sums, products and differences of reals are real, a mean divides by 128, the
  variance is nonnegative so the reciprocal root of variance plus a positive epsilon is real, and the logistic
  function of a real is real.
-/
import proofs.«108111_j42099269435680_1_alg».proof.Proof.Global
import Mathlib.Data.EReal.Operations
import Mathlib.Data.EReal.Inv
import Mathlib.Algebra.BigOperators.Group.Finset.Basic
import Mathlib.Algebra.Order.BigOperators.Group.Finset
import Mathlib.Analysis.SpecialFunctions.Sqrt

noncomputable section

namespace Cert.Gnn

open Idealize.ShloMosaic

/-- Every weight is a real number. -/
structure Params.AllReal (P : Params) : Prop where
  Wt : ∀ d e, IsReal (P.Wt d e)
  Ws : ∀ d e, IsReal (P.Ws d e)
  wJ : ∀ e, IsReal (P.wJ e)
  bm : ∀ e, IsReal (P.bm e)
  gm : ∀ e, IsReal (P.gm e)
  βm : ∀ e, IsReal (P.βm e)
  Wu1 : ∀ d e, IsReal (P.Wu1 d e)
  Wu2 : ∀ d e, IsReal (P.Wu2 d e)
  bu : ∀ e, IsReal (P.bu e)
  gu : ∀ e, IsReal (P.gu e)
  βu : ∀ e, IsReal (P.βu e)

/-! ### The real numbers inside the extended reals are closed under the ring operations -/

theorem IsReal.coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The coercion goes through a finite sum. -/
theorem coe_sum {ι : Type} (s : Finset ι) (r : ι → ℝ) :
    ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-! ### The two constants -/

/-- The pattern 0x43000000 (exponent field 134, no fraction) is the real 128. -/
theorem w128_eq : w128 = ((128 : ℝ) : EReal) := by
  simp [w128, Ideal.ofBits, Ideal.ieee, -EReal.coe_mul]; norm_num

/-- The pattern 0x3727C5AC (sign 0, exponent field 110) is a positive real. -/
theorem weps_pos : ∃ ε : ℝ, 0 < ε ∧ weps = (ε : EReal) := by
  have h : weps = (((2 ^ 23 + 2606508 : Nat) : ℝ) * (2 : ℝ) ^ ((110 : Int) - 127 - 23) : ℝ) := by
    simp [weps, Ideal.ofBits, Ideal.ieee, -EReal.coe_mul]
  exact ⟨_, by positivity, h⟩

/-! ### Mean, layer norm, SiLU and the message on real rows -/

/-- The mean of a real row is the real mean. -/
theorem mean_coe (r : Fin 128 → ℝ) :
    mean (fun k => ((r k : ℝ) : EReal)) = (((∑ k, r k) * (1 / 128) : ℝ) : EReal) := by
  unfold mean
  rw [w128_eq, Ideal.div_coe (by norm_num), coe_sum, ← EReal.coe_mul]

/-- The layer norm of a real row under real gain and bias is real: the variance is a mean of squares, so it is
    not negative, and with the positive epsilon added its reciprocal root is a real number. -/
theorem lnorm_isReal (x g β : Fin 128 → EReal) (hx : ∀ k, IsReal (x k)) (hg : ∀ k, IsReal (g k))
    (hβ : ∀ k, IsReal (β k)) (e : Fin 128) : IsReal (lnorm x g β e) := by
  choose r hr using hx
  obtain rfl : x = fun k => ((r k : ℝ) : EReal) := funext hr
  obtain ⟨ε, hε, hw⟩ := weps_pos
  unfold lnorm
  rw [mean_coe]
  have hsq : (fun k => (((r k : ℝ) : EReal) - (((∑ k, r k) * (1 / 128) : ℝ) : EReal)) *
        (((r k : ℝ) : EReal) - (((∑ k, r k) * (1 / 128) : ℝ) : EReal))) =
      fun k => (((r k - (∑ k, r k) * (1 / 128)) * (r k - (∑ k, r k) * (1 / 128)) : ℝ) : EReal) := by
    funext k
    rw [← EReal.coe_sub, ← EReal.coe_mul]
  rw [hsq, mean_coe, hw, ← EReal.coe_add, Ideal.rsqrt_coe]
  have hv : 0 < (∑ k, (r k - (∑ k, r k) * (1 / 128)) * (r k - (∑ k, r k) * (1 / 128))) * (1 / 128) + ε := by
    have h0 : 0 ≤ ∑ k, (r k - (∑ k, r k) * (1 / 128)) * (r k - (∑ k, r k) * (1 / 128)) :=
      Finset.sum_nonneg fun k _ => mul_self_nonneg _
    positivity
  rw [if_neg (not_lt.mpr hv.le), if_neg hv.ne']
  exact ((((IsReal.coe _).sub (IsReal.coe _)).mul (IsReal.coe _)).mul (hg e)).add (hβ e)

/-- SiLU of a real is real. -/
theorem silu_isReal {y : EReal} (hy : IsReal y) : IsReal (silu y) := by
  obtain ⟨r, rfl⟩ := hy
  unfold silu
  rw [Ideal.logistic_coe]
  exact (IsReal.coe _).mul (IsReal.coe _)

/-- The message's pre-activation is real on real inputs. -/
theorem preMsg_isReal (P : Params) (hP : P.AllReal) (hrow hsrc : Fin 128 → EReal) (h1 : ∀ d, IsReal (hrow d))
    (h2 : ∀ d, IsReal (hsrc d)) (a : EReal) (ha : IsReal a) (e : Fin 128) : IsReal (preMsg P hrow hsrc a e) := by
  unfold preMsg
  exact (((isReal_sum _ _ fun d _ => (h1 d).mul (hP.Wt d e)).add
    (isReal_sum _ _ fun d _ => (h2 d).mul (hP.Ws d e))).add (ha.mul (hP.wJ e))).add (hP.bm e)

/-- A message between real rows over a real edge scalar is a real number. -/
theorem msg_isReal (P : Params) (hP : P.AllReal) (hrow hsrc : Fin 128 → EReal) (h1 : ∀ d, IsReal (hrow d))
    (h2 : ∀ d, IsReal (hsrc d)) (a : EReal) (ha : IsReal a) (e : Fin 128) : IsReal (msg P hrow hsrc a e) := by
  unfold msg
  exact silu_isReal (lnorm_isReal _ _ _ (fun k => preMsg_isReal P hP hrow hsrc h1 h2 a ha k) hP.gm hP.βm e)

/-- A sum under the mask that drops index `i` is the whole sum less the term at `i`, where that term is real:
    the whole sum is that term plus the sum of the others, and a real summand cancels against itself. -/
theorem sum_mul_dropMask (f : Fin 256 → EReal) (i : Fin 256) (hi : IsReal (f i)) :
    ∑ j, f j * dropMask i.val j = (∑ j, f j) - f i := by
  obtain ⟨r, hr⟩ := hi
  have hm : ∀ j ∈ (Finset.univ : Finset (Fin 256)), f j * dropMask i.val j = if j = i then 0 else f j := by
    intro j _
    unfold dropMask
    by_cases h : j = i
    · subst h
      simp
    · have hne : i.val ≠ j.val := fun hh => h (Fin.ext hh.symm)
      rw [if_neg hne, if_neg h, mul_one]
  have hs : ∀ j ∈ (Finset.univ : Finset (Fin 256)),
      f j = (if j = i then f j else 0) + (if j = i then 0 else f j) := by
    intro j _
    by_cases h : j = i <;> simp [h]
  have hsplit : ∑ j, f j = f i + ∑ j, (if j = i then 0 else f j) :=
    calc ∑ j, f j = ∑ j, ((if j = i then f j else 0) + (if j = i then 0 else f j)) := Finset.sum_congr rfl hs
      _ = ∑ j, (if j = i then f j else 0) + ∑ j, (if j = i then 0 else f j) := Finset.sum_add_distrib
      _ = f i + ∑ j, (if j = i then 0 else f j) := by
        rw [Finset.sum_ite_eq' Finset.univ i f, if_pos (Finset.mem_univ i)]
  rw [Finset.sum_congr rfl hm, hsplit, hr]
  exact EReal.add_sub_cancel_left.symm

/-- Masking source `i` out of the sum is subtracting its message. -/
theorem aggMasked_eq_aggDiff (P : Params) (hP : P.AllReal) (hrow : Fin 128 → EReal) (h1 : ∀ d, IsReal (hrow d))
    (hall : Fin 256 → Fin 128 → EReal) (h2 : ∀ j d, IsReal (hall j d)) (arow : Fin 256 → EReal)
    (h3 : ∀ j, IsReal (arow j)) (i : Fin 256) :
    aggMasked P hrow hall arow (dropMask i.val) = aggDiff P hrow hall arow i := by
  funext e
  unfold aggMasked aggDiff
  exact sum_mul_dropMask (fun j => msg P hrow (hall j) (arow j) e) i
    (msg_isReal P hP hrow (hall i) h1 (h2 i) (arow i) (h3 i) e)

/-- On real arrays the two whole-array forms agree. -/
theorem kernelVal_eq_refVal (x0 : A3 8 256 128) (x1 : A3 8 256 256) (x2 : A2 128 257) (x3 x4 x5 : A1 128)
    (x6 : A2 128 256) (x7 x8 x9 : A1 128)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (b : Fin 8) (i : Fin 256) (e : Fin 128) :
    kernelVal x0 x1 x2 x3 x4 x5 x6 x7 x8 x9 b i e = refVal x0 x1 x2 x3 x4 x5 x6 x7 x8 x9 b i e := by
  have hP : (globalParams x2 x3 x4 x5 x6 x7 x8 x9).AllReal :=
    ⟨fun _ _ => h2 _, fun _ _ => h2 _, fun _ => h2 _, fun _ => h3 _, fun _ => h4 _, fun _ => h5 _,
      fun _ _ => h6 _, fun _ _ => h6 _, fun _ => h7 _, fun _ => h8 _, fun _ => h9 _⟩
  unfold kernelVal refVal
  rw [aggMasked_eq_aggDiff _ hP _ (fun _ => h0 _) _ (fun _ _ => h0 _) _ (fun _ => h1 _) i]

end Cert.Gnn

end
-- ==== Proof.Finite.lean ====
/-
  The precondition says every entry of every argument array is smaller in absolute value than +∞: each entry is
  a real number.
-/
import proofs.«108111_j42099269435680_1_alg».proof.Proof.Spec
import proofs.«108111_j42099269435680_1_alg».proof.Pre_finite_inputs
import proofs.«108111_j42099269435680_1_alg».proof.Proof.Gen.Pre_finite_inputs
import Idealize.ShloMosaic.Lib.ReduceAll

noncomputable section

namespace Cert.Gnn

open Idealize.ShloMosaic Cert.Pre_finite_inputs

/-- The word 0x7F800000 denotes +∞. -/
private theorem ofBits_posInf : Ideal.ofBits .f32 0x7F800000#32 = ⊤ := by simp [Ideal.ofBits, Ideal.ieee]

/-- An extended real whose absolute value `max x (-x)` compares below +∞ is a real number: at `⊥` and at `⊤` the
    absolute value is `⊤`, which is not below itself. -/
private theorem isReal_of_abs_olt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- Over any shape: when the conjunction over all axes of `|x i| < +∞` is one, every entry of `x` is a real number.
    The conjunction has a single index, so each entry's comparison is one; the entry's absolute value is `max` of it
    and its negation, and the bound it is compared to is `⊤`. -/
private theorem allReal_of_reduce {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf x) (broadcastInDim s ![] hb (constant (F := Ideal) S_ .f32 0x7F800000#32))) init hr hu
        j = 1#1) :
    ∀ i, IsReal (x i) := by
  intro i
  haveI : Subsingleton S_.Idx := ⟨fun a b => funext fun d => d.elim0⟩
  have hi : Ideal.cmp .olt (max (x i) (-x i)) (Ideal.ofBits .f32 0x7F800000#32) = 1#1 :=
    Host.reduce_andi_all _ init hr hu j e i
  rw [ofBits_posInf] at hi
  exact isReal_of_abs_olt_top (x i) hi

/-- All ten argument arrays hold real numbers when the finiteness predicate is all ones. -/
theorem allReal_of_pre [Cert.Pre_finite_inputs.Facts]
    (x0 : FVec Ideal S8x256x128 .f32) (x1 : FVec Ideal S8x256x256 .f32) (x2 : FVec Ideal S128x257 .f32)
    (x3 x4 x5 : FVec Ideal S128 .f32) (x6 : FVec Ideal S128x256 .f32) (x7 x8 x9 : FVec Ideal S128 .f32)
    (h : Cert.Pre_finite_inputs.fn (F := Ideal) x0 x1 x2 x3 x4 x5 x6 x7 x8 x9 = (fun _ => 1#1)) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i)) := by
  -- the scalar result read at its one index; the printed chain unfolded; the ten-fold conjunction, nested to the
  -- left, split into the ten arrays' own conjunctions
  have h0 := congrFun h (fun a => a.elim0)
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨allReal_of_reduce x0 _ _ _ _ _ e0, allReal_of_reduce x1 _ _ _ _ _ e1, allReal_of_reduce x2 _ _ _ _ _ e2,
    allReal_of_reduce x3 _ _ _ _ _ e3, allReal_of_reduce x4 _ _ _ _ _ e4, allReal_of_reduce x5 _ _ _ _ _ e5,
    allReal_of_reduce x6 _ _ _ _ _ e6, allReal_of_reduce x7 _ _ _ _ _ e7, allReal_of_reduce x8 _ _ _ _ _ e8,
    allReal_of_reduce x9 _ _ _ _ _ e9⟩

end Cert.Gnn

end
-- ==== Proof.lean ====
/-
  A graph layer's message passing: for every node, the messages from all other nodes (the SiLU of the layer norm of
  a linear map of the node's features, the other node's features and the edge scalar) are summed, and the node's
  features are updated by the SiLU of the layer norm of a linear map of its features and that sum.

  The kernel computes, per tile of 64 nodes of one batch, the messages against all 256 nodes and sums them under a
  0/1 mask that drops the node itself; the reference sums all the messages and subtracts the node's own. Over the
  extended reals both are the same function of the argument arrays where the node's own message is a real number,
  which it is when every input is finite: the precondition.

  The three programs' frames: the kernel program, at either instance, by the frame run of its one region (two of its
  windows read the node features, each holding half a share of that array); the reference, a straight line of host
  operations, by its run. The idealization rewrote nothing, so it preserves the kernel trivially.
-/
import proofs.«108111_j42099269435680_1_alg».proof.Defs
import proofs.«108111_j42099269435680_1_alg».proof.Proof.KB.Run
import proofs.«108111_j42099269435680_1_alg».proof.Proof.KI.Run
import proofs.«108111_j42099269435680_1_alg».proof.Proof.KArray
import proofs.«108111_j42099269435680_1_alg».proof.Proof.RefRun
import proofs.«108111_j42099269435680_1_alg».proof.Proof.RefValue
import proofs.«108111_j42099269435680_1_alg».proof.Proof.Algebra
import proofs.«108111_j42099269435680_1_alg».proof.Proof.Finite
import proofs.«108111_j42099269435680_1_alg».proof.Proof.Gen.Kernel
import proofs.«108111_j42099269435680_1_alg».proof.Proof.Gen.KernelIdeal
import proofs.«108111_j42099269435680_1_alg».proof.Proof.Gen.ReferenceIdeal
import proofs.«108111_j42099269435680_1_alg».proof.Proof.Gen.Pre_finite_inputs
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program as printed runs and leaves its arguments unchanged. -/
theorem frame_p : Cert.frame_Kernel := fun m ρ _ => Cert.Kernel.Hand.frame (F := Bits) m ρ

/-- So does its idealization. -/
theorem frame_pi : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on finite arguments both idealized programs end with the same result: entry (b, i, e)
    is the layer's row form at node i of batch b, where masking the node's own message out of the sum and
    subtracting it from the whole sum agree because that message is a real number. -/
theorem algebraic : Cert.algebraic_KernelIdeal_ReferenceIdeal := by
  intro m ρ m' ρ' hpre hagree
  refine ⟨fun c => (Cert.KernelIdeal.Hand.dats (F := Ideal) m 0 c).arrAt 14 Cert.KernelIdeal.cfg0.N,
    Cert.KernelIdeal.Hand.run_val (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  obtain ⟨h0, h1, h2, h3, h4, h5, h6, h7, h8, h9⟩ := Cert.Gnn.allReal_of_pre _ _ _ _ _ _ _ _ _ _ (hpre c)
  funext idx
  obtain ⟨b, i, e, rfl⟩ : ∃ (b : Fin 8) (i : Fin 256) (e : Fin 128), idx = ix3 b i e := ⟨idx 0, idx 1, idx 2, eq_ix3 idx⟩
  refine (Cert.ReferenceIdeal.RefValue.ref_apply _ _ _ _ _ _ _ _ _ _ b i e).trans ?_
  refine ((Cert.Gnn.kernelVal_eq_refVal _ _ _ _ _ _ _ _ _ _ h0 h1 h2 h3 h4 h5 h6 h7 h8 h9 b i e).symm).trans ?_
  exact (Cert.KernelIdeal.Hand.final m c b i e).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
